-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1 : Shape := ⟨2, ![4096, 1]⟩
abbrev S4096x20480 : Shape := ⟨2, ![4096, 20480]⟩
abbrev S40960x288 : Shape := ⟨2, ![40960, 288]⟩
abbrev S288 : Shape := ⟨1, ![288]⟩
abbrev S576x1 : Shape := ⟨2, ![576, 1]⟩
abbrev S1 : Shape := ⟨1, ![1]⟩
abbrev S576x32 : Shape := ⟨2, ![576, 32]⟩
abbrev S32 : Shape := ⟨1, ![32]⟩
abbrev S32x32 : Shape := ⟨2, ![32, 32]⟩
abbrev S32x1 : Shape := ⟨2, ![32, 1]⟩
abbrev S_ : Shape := ⟨0, ![]⟩

class Facts : Prop where
  bcast_S_S4096x1 : S_.BroadcastsInDim S4096x1 (![] : Fin 0 → Fin S4096x1.rank)
  reducesTo_S4096x1_S_d0_1 : S4096x1.ReducesTo [0, 1] S_
  h_S_ : 0 < S_.numel
  bcast_S_S4096x20480 : S_.BroadcastsInDim S4096x20480 (![] : Fin 0 → Fin S4096x20480.rank)
  reducesTo_S4096x20480_S_d0_1 : S4096x20480.ReducesTo [0, 1] S_
  bcast_S_S40960x288 : S_.BroadcastsInDim S40960x288 (![] : Fin 0 → Fin S40960x288.rank)
  reducesTo_S40960x288_S_d0_1 : S40960x288.ReducesTo [0, 1] S_
  bcast_S_S288 : S_.BroadcastsInDim S288 (![] : Fin 0 → Fin S288.rank)
  reducesTo_S288_S_d0 : S288.ReducesTo [0] S_
  bcast_S_S576x1 : S_.BroadcastsInDim S576x1 (![] : Fin 0 → Fin S576x1.rank)
  reducesTo_S576x1_S_d0_1 : S576x1.ReducesTo [0, 1] S_
  bcast_S_S1 : S_.BroadcastsInDim S1 (![] : Fin 0 → Fin S1.rank)
  reducesTo_S1_S_d0 : S1.ReducesTo [0] S_
  bcast_S_S576x32 : S_.BroadcastsInDim S576x32 (![] : Fin 0 → Fin S576x32.rank)
  reducesTo_S576x32_S_d0_1 : S576x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_

variable [Facts]

def fn_part4 {F : FTy → Type} [FloatOps F] (main_arg14 : FVec F S1 .f32) (main_v63 : IVec S_ 1) (main_v67 : IVec S_ 1) : IVec S_ 1 :=
  let main_v68 : IVec S_ 1 := andi main_v63 main_v67
  let main_v69 : FVec F S1 .f32 := Host.absf main_arg14
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg11 : FVec F S32x32 .f32) (main_arg12 : FVec F S32 .f32) (main_arg13 : FVec F S32x1 .f32) (main_arg14 : FVec F S1 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x32 .f32 := Host.absf main_arg11
  let main_cst_20 : FVec F S_ .f32 := constant S_ .f32 0x7F800000#32
  let main_v55 : FVec F S32x32 .f32 := broadcastInDim S32x32 ![] bcast_S_S32x32 main_cst_20
  let main_v56 : IVec S32x32 1 := cmpf .olt main_v54 main_v55
  let main_c_21 : IVec S_ 1 := constantI S_ 1 1#1
  let main_v57 : IVec S_ 1 := (fun x v => Host.reduce IntOp.andi x v reducesTo_S32x32_S_d0_1 h_S_) main_v56 main_c_21
  let main_v58 : IVec S_ 1 := andi main_v53 main_v57
  let main_v59 : FVec F S32 .f32 := Host.absf main_arg12
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32x1 .f32 := Host.absf main_arg13
  let main_cst_24 : FVec F S_ .f32 := constant S_ .f32 0x7F800000#32
  let main_v65 : FVec F S32x1 .f32 := broadcastInDim S32x1 ![] bcast_S_S32x1 main_cst_24
  let main_v66 : IVec S32x1 1 := cmpf .olt main_v64 main_v65
  let main_c_25 : IVec S_ 1 := constantI S_ 1 1#1
  let main_v67 : IVec S_ 1 := (fun x v => Host.reduce IntOp.andi x v reducesTo_S32x1_S_d0_1 h_S_) main_v66 main_c_25
  fn_part4 (F := F) main_arg14 main_v63 main_v67

def fn_part2 {F : FTy → Type} [FloatOps F] (main_arg7 : FVec F S576x1 .f32) (main_arg8 : FVec F S1 .f32) (main_arg9 : FVec F S576x32 .f32) (main_arg10 : FVec F S32 .f32) (main_arg11 : FVec F S32x32 .f32) (main_arg12 : FVec F S32 .f32) (main_arg13 : FVec F S32x1 .f32) (main_arg14 : FVec F S1 .f32) (main_v33 : IVec S_ 1) : IVec S_ 1 :=
  let main_v34 : FVec F S576x1 .f32 := Host.absf main_arg7
  let main_cst_12 : FVec F S_ .f32 := constant S_ .f32 0x7F800000#32
  let main_v35 : FVec F S576x1 .f32 := broadcastInDim S576x1 ![] bcast_S_S576x1 main_cst_12
  let main_v36 : IVec S576x1 1 := cmpf .olt main_v34 main_v35
  let main_c_13 : IVec S_ 1 := constantI S_ 1 1#1
  let main_v37 : IVec S_ 1 := (fun x v => Host.reduce IntOp.andi x v reducesTo_S576x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S576x32 .f32 := Host.absf main_arg9
  let main_cst_16 : FVec F S_ .f32 := constant S_ .f32 0x7F800000#32
  let main_v45 : FVec F S576x32 .f32 := broadcastInDim S576x32 ![] bcast_S_S576x32 main_cst_16
  let main_v46 : IVec S576x32 1 := cmpf .olt main_v44 main_v45
  let main_c_17 : IVec S_ 1 := constantI S_ 1 1#1
  let main_v47 : IVec S_ 1 := (fun x v => Host.reduce IntOp.andi x v reducesTo_S576x32_S_d0_1 h_S_) main_v46 main_c_17
  let main_v48 : IVec S_ 1 := andi main_v43 main_v47
  let main_v49 : FVec F S32 .f32 := Host.absf main_arg10
  let main_cst_18 : FVec F S_ .f32 := constant S_ .f32 0x7F800000#32
  let main_v50 : FVec F S32 .f32 := broadcastInDim S32 ![] bcast_S_S32 main_cst_18
  fn_part3 (F := F) main_arg11 main_arg12 main_arg13 main_arg14 main_v48 main_v49 main_v50

def fn_part1 {F : FTy → Type} [FloatOps F] (main_arg4 : FVec F S288 .f32) (main_arg5 : FVec F S40960x288 .f32) (main_arg6 : FVec F S288 .f32) (main_arg7 : FVec F S576x1 .f32) (main_arg8 : FVec F S1 .f32) (main_arg9 : FVec F S576x32 .f32) (main_arg10 : FVec F S32 .f32) (main_arg11 : FVec F S32x32 .f32) (main_arg12 : FVec F S32 .f32) (main_arg13 : FVec F S32x1 .f32) (main_arg14 : FVec F S1 .f32) (main_v13 : IVec S_ 1) (main_v16 : IVec S40960x288 1) : IVec S_ 1 :=
  let main_c_5 : IVec S_ 1 := constantI S_ 1 1#1
  let main_v17 : IVec S_ 1 := (fun x v => Host.reduce IntOp.andi x v reducesTo_S40960x288_S_d0_1 h_S_) main_v16 main_c_5
  let main_v18 : IVec S_ 1 := andi main_v13 main_v17
  let main_v19 : FVec F S288 .f32 := Host.absf main_arg4
  let main_cst_6 : FVec F S_ .f32 := constant S_ .f32 0x7F800000#32
  let main_v20 : FVec F S288 .f32 := broadcastInDim S288 ![] bcast_S_S288 main_cst_6
  let main_v21 : IVec S288 1 := cmpf .olt main_v19 main_v20
  let main_c_7 : IVec S_ 1 := constantI S_ 1 1#1
  let main_v22 : IVec S_ 1 := (fun x v => Host.reduce IntOp.andi x v reducesTo_S288_S_d0 h_S_) main_v21 main_c_7
  let main_v23 : IVec S_ 1 := andi main_v18 main_v22
  let main_v24 : FVec F S40960x288 .f32 := Host.absf main_arg5
  let main_cst_8 : FVec F S_ .f32 := constant S_ .f32 0x7F800000#32
  let main_v25 : FVec F S40960x288 .f32 := broadcastInDim S40960x288 ![] bcast_S_S40960x288 main_cst_8
  let main_v26 : IVec S40960x288 1 := cmpf .olt main_v24 main_v25
  let main_c_9 : IVec S_ 1 := constantI S_ 1 1#1
  let main_v27 : IVec S_ 1 := (fun x v => Host.reduce IntOp.andi x v reducesTo_S40960x288_S_d0_1 h_S_) main_v26 main_c_9
  let main_v28 : IVec S_ 1 := andi main_v23 main_v27
  let main_v29 : FVec F S288 .f32 := Host.absf main_arg6
  let main_cst_10 : FVec F S_ .f32 := constant S_ .f32 0x7F800000#32
  let main_v30 : FVec F S288 .f32 := broadcastInDim S288 ![] bcast_S_S288 main_cst_10
  let main_v31 : IVec S288 1 := cmpf .olt main_v29 main_v30
  let main_c_11 : IVec S_ 1 := constantI S_ 1 1#1
  let main_v32 : IVec S_ 1 := (fun x v => Host.reduce IntOp.andi x v reducesTo_S288_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S4096x1 .f32) (main_arg1 : FVec F S4096x20480 .f32) (main_arg2 : FVec F S4096x20480 .f32) (main_arg3 : FVec F S40960x288 .f32) (main_arg4 : FVec F S288 .f32) (main_arg5 : FVec F S40960x288 .f32) (main_arg6 : FVec F S288 .f32) (main_arg7 : FVec F S576x1 .f32) (main_arg8 : FVec F S1 .f32) (main_arg9 : FVec F S576x32 .f32) (main_arg10 : FVec F S32 .f32) (main_arg11 : FVec F S32x32 .f32) (main_arg12 : FVec F S32 .f32) (main_arg13 : FVec F S32x1 .f32) (main_arg14 : FVec F S1 .f32) : IVec S_ 1 :=
  let main_v0 : FVec F S4096x1 .f32 := Host.absf main_arg0
  let main_cst : FVec F S_ .f32 := constant S_ .f32 0x7F800000#32
  let main_v1 : FVec F S4096x1 .f32 := broadcastInDim S4096x1 ![] bcast_S_S4096x1 main_cst
  let main_v2 : IVec S4096x1 1 := cmpf .olt main_v0 main_v1
  let main_c : IVec S_ 1 := constantI S_ 1 1#1
  let main_v3 : IVec S_ 1 := (fun x v => Host.reduce IntOp.andi x v reducesTo_S4096x1_S_d0_1 h_S_) main_v2 main_c
  let main_v4 : FVec F S4096x20480 .f32 := Host.absf main_arg1
  let main_cst_0 : FVec F S_ .f32 := constant S_ .f32 0x7F800000#32
  let main_v5 : FVec F S4096x20480 .f32 := broadcastInDim S4096x20480 ![] bcast_S_S4096x20480 main_cst_0
  let main_v6 : IVec S4096x20480 1 := cmpf .olt main_v4 main_v5
  let main_c_1 : IVec S_ 1 := constantI S_ 1 1#1
  let main_v7 : IVec S_ 1 := (fun x v => Host.reduce IntOp.andi x v reducesTo_S4096x20480_S_d0_1 h_S_) main_v6 main_c_1
  let main_v8 : IVec S_ 1 := andi main_v3 main_v7
  let main_v9 : FVec F S4096x20480 .f32 := Host.absf main_arg2
  let main_cst_2 : FVec F S_ .f32 := constant S_ .f32 0x7F800000#32
  let main_v10 : FVec F S4096x20480 .f32 := broadcastInDim S4096x20480 ![] bcast_S_S4096x20480 main_cst_2
  let main_v11 : IVec S4096x20480 1 := cmpf .olt main_v9 main_v10
  let main_c_3 : IVec S_ 1 := constantI S_ 1 1#1
  let main_v12 : IVec S_ 1 := (fun x v => Host.reduce IntOp.andi x v reducesTo_S4096x20480_S_d0_1 h_S_) main_v11 main_c_3
  let main_v13 : IVec S_ 1 := andi main_v8 main_v12
  let main_v14 : FVec F S40960x288 .f32 := Host.absf main_arg3
  let main_cst_4 : FVec F S_ .f32 := constant S_ .f32 0x7F800000#32
  let main_v15 : FVec F S40960x288 .f32 := broadcastInDim S40960x288 ![] bcast_S_S40960x288 main_cst_4
  let main_v16 : IVec S40960x288 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S4096x1 : Shape := ⟨2, ![4096, 1]⟩
abbrev S4096x20480 : Shape := ⟨2, ![4096, 20480]⟩
abbrev S40960x288 : Shape := ⟨2, ![40960, 288]⟩
abbrev S288 : Shape := ⟨1, ![288]⟩
abbrev S576x1 : Shape := ⟨2, ![576, 1]⟩
abbrev S1 : Shape := ⟨1, ![1]⟩
abbrev S576x32 : Shape := ⟨2, ![576, 32]⟩
abbrev S32 : Shape := ⟨1, ![32]⟩
abbrev S32x32 : Shape := ⟨2, ![32, 32]⟩
abbrev S32x1 : Shape := ⟨2, ![32, 1]⟩
abbrev S20480x288 : Shape := ⟨2, ![20480, 288]⟩
abbrev S1x288 : Shape := ⟨2, ![1, 288]⟩
abbrev S1x1 : Shape := ⟨2, ![1, 1]⟩
abbrev S1x32 : Shape := ⟨2, ![1, 32]⟩
abbrev S1024x1280 : Shape := ⟨2, ![1024, 1280]⟩
abbrev S1280x288 : Shape := ⟨2, ![1280, 288]⟩
abbrev S1024x1 : Shape := ⟨2, ![1024, 1]⟩
abbrev S1024x288 : Shape := ⟨2, ![1024, 288]⟩
abbrev S1024x576 : Shape := ⟨2, ![1024, 576]⟩
abbrev S1024x32 : Shape := ⟨2, ![1024, 32]⟩

abbrev nBuf : Space → Nat
  | .hbm => 30
  | .vmem => 28
  | .smem => 0
  | _ => 0

abbrev bufTy : (tb : Table) → Fin (tcTables nBuf tb) → BufTy
  | .hbm, ⟨0, _⟩ => ⟨S4096x1, .f32⟩
  | .hbm, ⟨1, _⟩ => ⟨S4096x20480, .f32⟩
  | .hbm, ⟨2, _⟩ => ⟨S4096x20480, .f32⟩
  | .hbm, ⟨3, _⟩ => ⟨S40960x288, .f32⟩
  | .hbm, ⟨4, _⟩ => ⟨S288, .f32⟩
  | .hbm, ⟨5, _⟩ => ⟨S40960x288, .f32⟩
  | .hbm, ⟨6, _⟩ => ⟨S288, .f32⟩
  | .hbm, ⟨7, _⟩ => ⟨S576x1, .f32⟩
  | .hbm, ⟨8, _⟩ => ⟨S1, .f32⟩
  | .hbm, ⟨9, _⟩ => ⟨S576x32, .f32⟩
  | .hbm, ⟨10, _⟩ => ⟨S32, .f32⟩
  | .hbm, ⟨11, _⟩ => ⟨S32x32, .f32⟩
  | .hbm, ⟨12, _⟩ => ⟨S32, .f32⟩
  | .hbm, ⟨13, _⟩ => ⟨S32x1, .f32⟩
  | .hbm, ⟨14, _⟩ => ⟨S1, .f32⟩
  | .hbm, ⟨15, _⟩ => ⟨S20480x288, .f32⟩
  | .hbm, ⟨16, _⟩ => ⟨S20480x288, .bf16⟩
  | .hbm, ⟨17, _⟩ => ⟨S20480x288, .f32⟩
  | .hbm, ⟨18, _⟩ => ⟨S20480x288, .bf16⟩
  | .hbm, ⟨19, _⟩ => ⟨S20480x288, .f32⟩
  | .hbm, ⟨20, _⟩ => ⟨S20480x288, .bf16⟩
  | .hbm, ⟨21, _⟩ => ⟨S20480x288, .f32⟩
  | .hbm, ⟨22, _⟩ => ⟨S20480x288, .bf16⟩
  | .hbm, ⟨23, _⟩ => ⟨S1x288, .f32⟩
  | .hbm, ⟨24, _⟩ => ⟨S1x288, .f32⟩
  | .hbm, ⟨25, _⟩ => ⟨S1x1, .f32⟩
  | .hbm, ⟨26, _⟩ => ⟨S1x32, .f32⟩
  | .hbm, ⟨27, _⟩ => ⟨S1x32, .f32⟩
  | .hbm, ⟨28, _⟩ => ⟨S1x1, .f32⟩
  | .hbm, ⟨29, _⟩ => ⟨S4096x1, .f32⟩
  | .local _ .vmem, ⟨0, _⟩ => ⟨S1024x1280, .f32⟩
  | .local _ .vmem, ⟨1, _⟩ => ⟨S1024x1280, .f32⟩
  | .local _ .vmem, ⟨2, _⟩ => ⟨S1024x1280, .f32⟩
  | .local _ .vmem, ⟨3, _⟩ => ⟨S1024x1280, .f32⟩
  | .local _ .vmem, ⟨4, _⟩ => ⟨S1280x288, .bf16⟩
  | .local _ .vmem, ⟨5, _⟩ => ⟨S1280x288, .bf16⟩
  | .local _ .vmem, ⟨6, _⟩ => ⟨S1280x288, .bf16⟩
  | .local _ .vmem, ⟨7, _⟩ => ⟨S1280x288, .bf16⟩
  | .local _ .vmem, ⟨8, _⟩ => ⟨S1280x288, .bf16⟩
  | .local _ .vmem, ⟨9, _⟩ => ⟨S1280x288, .bf16⟩
  | .local _ .vmem, ⟨10, _⟩ => ⟨S1280x288, .bf16⟩
  | .local _ .vmem, ⟨11, _⟩ => ⟨S1280x288, .bf16⟩
  | .local _ .vmem, ⟨12, _⟩ => ⟨S1x288, .f32⟩
  | .local _ .vmem, ⟨13, _⟩ => ⟨S1x288, .f32⟩
  | .local _ .vmem, ⟨14, _⟩ => ⟨S1024x1, .f32⟩
  | .local _ .vmem, ⟨15, _⟩ => ⟨S1024x1, .f32⟩
  | .local _ .vmem, ⟨16, _⟩ => ⟨S576x1, .f32⟩
  | .local _ .vmem, ⟨17, _⟩ => ⟨S1x1, .f32⟩
  | .local _ .vmem, ⟨18, _⟩ => ⟨S576x32, .f32⟩
  | .local _ .vmem, ⟨19, _⟩ => ⟨S1x32, .f32⟩
  | .local _ .vmem, ⟨20, _⟩ => ⟨S32x32, .f32⟩
  | .local _ .vmem, ⟨21, _⟩ => ⟨S1x32, .f32⟩
  | .local _ .vmem, ⟨22, _⟩ => ⟨S32x1, .f32⟩
  | .local _ .vmem, ⟨23, _⟩ => ⟨S1x1, .f32⟩
  | .local _ .vmem, ⟨24, _⟩ => ⟨S1024x1, .f32⟩
  | .local _ .vmem, ⟨25, _⟩ => ⟨S1024x1, .f32⟩
  | .local _ .vmem, ⟨26, _⟩ => ⟨S1024x288, .f32⟩
  | .local _ .vmem, ⟨27, _⟩ => ⟨S1024x288, .f32⟩
  | _, _ => ⟨S4096x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg17_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem17_1 : DmaSem sig := 25

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v31 : BitVec 1 := Scalar.cmpi .eq arg1 c15_i32
  let v32 : BitVec 32 := Scalar.extui v31
  let c0_i32_23 : BitVec 32 := 0#32
  let v33 : BitVec 1 := Scalar.cmpi .ne v32 c0_i32_23
  v33

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1280x288 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1280x288 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1280x288 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1280x288 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x288 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x288 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S576x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S576x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S32x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x32 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S32x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1024x1 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

class Facts₀ : Prop where
  slices_S40960x288_S20480x288_0_0 : S40960x288.Slices ![0, 0] S20480x288
  bitsLt_bf16_f32 : FTy.bits .bf16 < FTy.bits .f32
  slices_S40960x288_S20480x288_20480_0 : S40960x288.Slices ![20480, 0] S20480x288
  shapeCasts_S288_S1x288 : S288.ShapeCasts S1x288
  shapeCasts_S1_S1x1 : S1.ShapeCasts S1x1
  shapeCasts_S32_S1x32 : S32.ShapeCasts S1x32
  inb_S1024x288_S1024x288_0_0 : ∀ a, (![0, 0] : Fin 2 → Nat) a + S1024x288.size a ≤ S1024x288.size a
  h_S1024x288 : 0 < S1024x288.numel
  shapeCasts_S1024x288_S1024x288 : S1024x288.ShapeCasts S1024x288
  inb_S1024x1280_S1024x1280_0_0 : ∀ a, (![0, 0] : Fin 2 → Nat) a + S1024x1280.size a ≤ S1024x1280.size a
  h_S1024x1280 : 0 < S1024x1280.numel
  inb_S1280x288_S1280x288_0_0 : ∀ a, (![0, 0] : Fin 2 → Nat) a + S1280x288.size a ≤ S1280x288.size a
  h_S1280x288 : 0 < S1280x288.numel
  shapeCasts_S1280x288_S1280x288 : S1280x288.ShapeCasts S1280x288
  inb_S1x288_S1x288_0_0 : ∀ a, (![0, 0] : Fin 2 → Nat) a + S1x288.size a ≤ S1x288.size a
  h_S1x288 : 0 < S1x288.numel
  shapeCasts_S1x288_S1x288 : S1x288.ShapeCasts S1x288
  broadcasts_S1x288_S1024x288 : S1x288.Broadcasts S1024x288
  concatenates_S1024x288_S1024x288_S1024x576_d1 : Shape.Concatenates [S1024x288, S1024x288] S1024x576 1
  inb_S1024x1_S1024x1_0_0 : ∀ a, (![0, 0] : Fin 2 → Nat) a + S1024x1.size a ≤ S1024x1.size a
  h_S1024x1 : 0 < S1024x1.numel
  broadcasts_S1024x1_S1024x576 : S1024x1.Broadcasts S1024x576
  inb_S576x1_S576x1_0_0 : ∀ a, (![0, 0] : Fin 2 → Nat) a + S576x1.size a ≤ S576x1.size a
  h_S576x1 : 0 < S576x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S576x32_S576x32_0_0 : ∀ a, (![0, 0] : Fin 2 → Nat) a + S576x32.size a ≤ S576x32.size a
  h_S576x32 : 0 < S576x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S1024x32 : S1x32.Broadcasts S1024x32
  inb_S32x32_S32x32_0_0 : ∀ a, (![0, 0] : Fin 2 → Nat) a + S32x32.size a ≤ S32x32.size a
  h_S32x32 : 0 < S32x32.numel
  inb_S32x1_S32x1_0_0 : ∀ a, (![0, 0] : Fin 2 → Nat) a + S32x1.size a ≤ S32x1.size a
  h_S32x1 : 0 < S32x1.numel
  dot_S1024x1280_S1280x288_S1024x288_1_0_0_1_n_n_wf : DotDims.WF S1024x1280 S1280x288 S1024x288 [1] [0] [0] [1] [] []
  dot_S1024x576_S576x1_S1024x1_1_0_0_1_n_n_wf : DotDims.WF S1024x576 S576x1 S1024x1 [1] [0] [0] [1] [] []
  dot_S1024x576_S576x32_S1024x32_1_0_0_1_n_n_wf : DotDims.WF S1024x576 S576x32 S1024x32 [1] [0] [0] [1] [] []
  dot_S1024x32_S32x32_S1024x32_1_0_0_1_n_n_wf : DotDims.WF S1024x32 S32x32 S1024x32 [1] [0] [0] [1] [] []
  dot_S1024x32_S32x1_S1024x1_1_0_0_1_n_n_wf : DotDims.WF S1024x32 S32x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1280.size a ≤ S4096x20480.size a
  hwx0_0 : ∀ i : grid0.Coords, EltTy.bits .f32 = 32 ∨ (Rect.block (s := S4096x20480) S1024x1280.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1280.size a ≤ S4096x20480.size a
  hwx0_1 : ∀ i : grid0.Coords, EltTy.bits .f32 = 32 ∨ (Rect.block (s := S4096x20480) S1024x1280.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1280x288.size a ≤ S20480x288.size a
  hwx0_2 : ∀ i : grid0.Coords, EltTy.bits .bf16 = 32 ∨ (Rect.block (s := S20480x288) S1280x288.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1280x288.size a ≤ S20480x288.size a
  hwx0_3 : ∀ i : grid0.Coords, EltTy.bits .bf16 = 32 ∨ (Rect.block (s := S20480x288) S1280x288.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1280x288.size a ≤ S20480x288.size a
  hwx0_4 : ∀ i : grid0.Coords, EltTy.bits .bf16 = 32 ∨ (Rect.block (s := S20480x288) S1280x288.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1280x288.size a ≤ S20480x288.size a
  hwx0_5 : ∀ i : grid0.Coords, EltTy.bits .bf16 = 32 ∨ (Rect.block (s := S20480x288) S1280x288.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x288.size a ≤ S1x288.size a
  hwx0_6 : ∀ i : grid0.Coords, EltTy.bits .f32 = 32 ∨ (Rect.block (s := S1x288) S1x288.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x288.size a ≤ S1x288.size a
  hwx0_7 : ∀ i : grid0.Coords, EltTy.bits .f32 = 32 ∨ (Rect.block (s := S1x288) S1x288.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x1.size a ≤ S4096x1.size a
  hwx0_8 : ∀ i : grid0.Coords, EltTy.bits .f32 = 32 ∨ (Rect.block (s := S4096x1) S1024x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S576x1.size a ≤ S576x1.size a
  hwx0_9 : ∀ i : grid0.Coords, EltTy.bits .f32 = 32 ∨ (Rect.block (s := S576x1) S576x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S576x32.size a ≤ S576x32.size a
  hwx0_11 : ∀ i : grid0.Coords, EltTy.bits .f32 = 32 ∨ (Rect.block (s := S576x32) S576x32.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x32.size a ≤ S1x32.size a
  hwx0_12 : ∀ i : grid0.Coords, EltTy.bits .f32 = 32 ∨ (Rect.block (s := S1x32) S1x32.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S32x32.size a ≤ S32x32.size a
  hwx0_13 : ∀ i : grid0.Coords, EltTy.bits .f32 = 32 ∨ (Rect.block (s := S32x32) S32x32.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x32.size a ≤ S1x32.size a
  hwx0_14 : ∀ i : grid0.Coords, EltTy.bits .f32 = 32 ∨ (Rect.block (s := S1x32) S1x32.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S32x1.size a ≤ S32x1.size a
  hwx0_15 : ∀ i : grid0.Coords, EltTy.bits .f32 = 32 ∨ (Rect.block (s := S32x1) S32x1.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x1.size a ≤ S1x1.size a
  hwx0_16 : ∀ i : grid0.Coords, EltTy.bits .f32 = 32 ∨ (Rect.block (s := S1x1) S1x1.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1024x1.size a ≤ S4096x1.size a
  hwx0_17 : ∀ i : grid0.Coords, EltTy.bits .f32 = 32 ∨ (Rect.block (s := S4096x1) S1024x1.size (cc0_transform_17 i) (hinb0_17 i)).WholeWords (EltTy.packing .f32)

variable [Facts₀]

def dot_S1024x1280_S1280x288_S1024x288_1_0_0_1_n_n : DotDims S1024x1280 S1280x288 S1024x288 where
  lhsContracting := [1]
  rhsContracting := [0]
  lhsNonContracting := [0]
  rhsNonContracting := [1]
  lhsBatch := []
  rhsBatch := []
  wf := dot_S1024x1280_S1280x288_S1024x288_1_0_0_1_n_n_wf
def dot_S1024x576_S576x1_S1024x1_1_0_0_1_n_n : DotDims S1024x576 S576x1 S1024x1 where
  lhsContracting := [1]
  rhsContracting := [0]
  lhsNonContracting := [0]
  rhsNonContracting := [1]
  lhsBatch := []
  rhsBatch := []
  wf := dot_S1024x576_S576x1_S1024x1_1_0_0_1_n_n_wf
def dot_S1024x576_S576x32_S1024x32_1_0_0_1_n_n : DotDims S1024x576 S576x32 S1024x32 where
  lhsContracting := [1]
  rhsContracting := [0]
  lhsNonContracting := [0]
  rhsNonContracting := [1]
  lhsBatch := []
  rhsBatch := []
  wf := dot_S1024x576_S576x32_S1024x32_1_0_0_1_n_n_wf
def dot_S1024x32_S32x32_S1024x32_1_0_0_1_n_n : DotDims S1024x32 S32x32 S1024x32 where
  lhsContracting := [1]
  rhsContracting := [0]
  lhsNonContracting := [0]
  rhsNonContracting := [1]
  lhsBatch := []
  rhsBatch := []
  wf := dot_S1024x32_S32x32_S1024x32_1_0_0_1_n_n_wf
def dot_S1024x32_S32x1_S1024x1_1_0_0_1_n_n : DotDims S1024x32 S32x1 S1024x1 where
  lhsContracting := [1]
  rhsContracting := [0]
  lhsNonContracting := [0]
  rhsNonContracting := [1]
  lhsBatch := []
  rhsBatch := []
  wf := dot_S1024x32_S32x1_S1024x1_1_0_0_1_n_n_wf

abbrev win0_0 : Pipeline.Window sig grid0 :=
  Pipeline.Window.ofSpec (Memref.whole main_arg1) S1024x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x1280.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1280x288.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1280x288.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1280x288.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1280x288.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x288.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x288.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg0) S1024x1.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S576x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v10) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg9) S576x32.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v11) S1x32.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg11) S32x32.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v12) S1x32.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg13) S32x1.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v13) S1x1.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v14) S1024x1.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

abbrev idle0 : Fin 18 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun _ => false | 16 => fun _ => false | 17 => fun i => !(k0_cond2 i == 1#1) | ⟨_ + 18, h⟩ => absurd h (Nat.not_lt.2 (Nat.le_add_left _ _))

class Facts : Prop extends Facts₀ where

variable [Facts]
-- ==== ReferenceIdeal.lean ====
abbrev S4096x1 : Shape := ⟨2, ![4096, 1]⟩
abbrev S4096x20480 : Shape := ⟨2, ![4096, 20480]⟩
abbrev S40960x288 : Shape := ⟨2, ![40960, 288]⟩
abbrev S288 : Shape := ⟨1, ![288]⟩
abbrev S576x1 : Shape := ⟨2, ![576, 1]⟩
abbrev S1 : Shape := ⟨1, ![1]⟩
abbrev S576x32 : Shape := ⟨2, ![576, 32]⟩
abbrev S32 : Shape := ⟨1, ![32]⟩
abbrev S32x32 : Shape := ⟨2, ![32, 32]⟩
abbrev S32x1 : Shape := ⟨2, ![32, 1]⟩
abbrev S4096x40960 : Shape := ⟨2, ![4096, 40960]⟩
abbrev S4096x288 : Shape := ⟨2, ![4096, 288]⟩
abbrev S1x288 : Shape := ⟨2, ![1, 288]⟩
abbrev S4096x576 : Shape := ⟨2, ![4096, 576]⟩
abbrev S_ : Shape := ⟨0, ![]⟩
abbrev S1x1 : Shape := ⟨2, ![1, 1]⟩
abbrev S4096x32 : Shape := ⟨2, ![4096, 32]⟩
abbrev S1x32 : Shape := ⟨2, ![1, 32]⟩

abbrev nBuf : Space → Nat
  | .hbm => 61
  | .vmem => 0
  | .smem => 0
  | _ => 0

abbrev bufTy : (tb : Table) → Fin (tcTables nBuf tb) → BufTy
  | .hbm, ⟨0, _⟩ => ⟨S4096x1, .f32⟩
  | .hbm, ⟨1, _⟩ => ⟨S4096x20480, .f32⟩
  | .hbm, ⟨2, _⟩ => ⟨S4096x20480, .f32⟩
  | .hbm, ⟨3, _⟩ => ⟨S40960x288, .f32⟩
  | .hbm, ⟨4, _⟩ => ⟨S288, .f32⟩
  | .hbm, ⟨5, _⟩ => ⟨S40960x288, .f32⟩
  | .hbm, ⟨6, _⟩ => ⟨S288, .f32⟩
  | .hbm, ⟨7, _⟩ => ⟨S576x1, .f32⟩
  | .hbm, ⟨8, _⟩ => ⟨S1, .f32⟩
  | .hbm, ⟨9, _⟩ => ⟨S576x32, .f32⟩
  | .hbm, ⟨10, _⟩ => ⟨S32, .f32⟩
  | .hbm, ⟨11, _⟩ => ⟨S32x32, .f32⟩
  | .hbm, ⟨12, _⟩ => ⟨S32, .f32⟩
  | .hbm, ⟨13, _⟩ => ⟨S32x1, .f32⟩
  | .hbm, ⟨14, _⟩ => ⟨S1, .f32⟩
  | .hbm, ⟨15, _⟩ => ⟨S4096x40960, .f32⟩
  | .hbm, ⟨16, _⟩ => ⟨S4096x288, .f32⟩
  | .hbm, ⟨17, _⟩ => ⟨S1x288, .f32⟩
  | .hbm, ⟨18, _⟩ => ⟨S4096x288, .f32⟩
  | .hbm, ⟨19, _⟩ => ⟨S4096x288, .f32⟩
  | .hbm, ⟨20, _⟩ => ⟨S4096x40960, .f32⟩
  | .hbm, ⟨21, _⟩ => ⟨S4096x288, .f32⟩
  | .hbm, ⟨22, _⟩ => ⟨S1x288, .f32⟩
  | .hbm, ⟨23, _⟩ => ⟨S4096x288, .f32⟩
  | .hbm, ⟨24, _⟩ => ⟨S4096x288, .f32⟩
  | .hbm, ⟨25, _⟩ => ⟨S4096x576, .f32⟩
  | .hbm, ⟨26, _⟩ => ⟨S4096x576, .f32⟩
  | .hbm, ⟨27, _⟩ => ⟨S4096x576, .f32⟩
  | .hbm, ⟨28, _⟩ => ⟨S4096x576, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x576, .f32⟩
  | .hbm, ⟨33, _⟩ => ⟨S4096x576, .f32⟩
  | .hbm, ⟨34, _⟩ => ⟨S4096x576, .f32⟩
  | .hbm, ⟨35, _⟩ => ⟨S_, .f32⟩
  | .hbm, ⟨36, _⟩ => ⟨S4096x576, .f32⟩
  | .hbm, ⟨37, _⟩ => ⟨S4096x576, .f32⟩
  | .hbm, ⟨38, _⟩ => ⟨S4096x1, .f32⟩
  | .hbm, ⟨39, _⟩ => ⟨S1x1, .f32⟩
  | .hbm, ⟨40, _⟩ => ⟨S4096x1, .f32⟩
  | .hbm, ⟨41, _⟩ => ⟨S4096x1, .f32⟩
  | .hbm, ⟨42, _⟩ => ⟨S4096x32, .f32⟩
  | .hbm, ⟨43, _⟩ => ⟨S1x32, .f32⟩
  | .hbm, ⟨44, _⟩ => ⟨S4096x32, .f32⟩
  | .hbm, ⟨45, _⟩ => ⟨S4096x32, .f32⟩
  | .hbm, ⟨46, _⟩ => ⟨S_, .f32⟩
  | .hbm, ⟨47, _⟩ => ⟨S4096x32, .f32⟩
  | .hbm, ⟨48, _⟩ => ⟨S4096x32, .f32⟩
  | .hbm, ⟨49, _⟩ => ⟨S4096x32, .f32⟩
  | .hbm, ⟨50, _⟩ => ⟨S1x32, .f32⟩
  | .hbm, ⟨51, _⟩ => ⟨S4096x32, .f32⟩
  | .hbm, ⟨52, _⟩ => ⟨S4096x32, .f32⟩
  | .hbm, ⟨53, _⟩ => ⟨S_, .f32⟩
  | .hbm, ⟨54, _⟩ => ⟨S4096x32, .f32⟩
  | .hbm, ⟨55, _⟩ => ⟨S4096x32, .f32⟩
  | .hbm, ⟨56, _⟩ => ⟨S4096x1, .f32⟩
  | .hbm, ⟨57, _⟩ => ⟨S1x1, .f32⟩
  | .hbm, ⟨58, _⟩ => ⟨S4096x1, .f32⟩
  | .hbm, ⟨59, _⟩ => ⟨S4096x1, .f32⟩
  | .hbm, ⟨60, _⟩ => ⟨S4096x1, .f32⟩
  | _, _ => ⟨S4096x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call0_cst : Ref sig .tc := ⟨.hbm, 35, rfl⟩
abbrev main_call0_v0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_call1_cst : Ref sig .tc := ⟨.hbm, 46, rfl⟩
abbrev main_call1_v0 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_call2_cst : Ref sig .tc := ⟨.hbm, 53, rfl⟩
abbrev main_call2_v0 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩

abbrev nD : Nat := 1
abbrev τ : Topo := Topo.v7x

variable {F : FTy → Type} [FloatOps F]

class Facts₀ : Prop where
  concatenates_S4096x20480_S4096x20480_S4096x40960_d1 : Shape.Concatenates [S4096x20480, S4096x20480] S4096x40960 1
  bcast_S288_S1x288_1 : S288.BroadcastsInDim S1x288 (![1] : Fin 1 → Fin S1x288.rank)
  bcast_S1x288_S4096x288_0_1 : S1x288.BroadcastsInDim S4096x288 (![0, 1] : Fin 2 → Fin S4096x288.rank)
  concatenates_S4096x288_S4096x288_S4096x576_d1 : Shape.Concatenates [S4096x288, S4096x288] S4096x576 1
  bcast_S4096x1_S4096x576_0_1 : S4096x1.BroadcastsInDim S4096x576 (![0, 1] : Fin 2 → Fin S4096x576.rank)
  bcast_S_S4096x1 : S_.BroadcastsInDim S4096x1 (![] : Fin 0 → Fin S4096x1.rank)
  bcast_S_S4096x576 : S_.BroadcastsInDim S4096x576 (![] : Fin 0 → Fin S4096x576.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  bcast_S32_S1x32_1 : S32.BroadcastsInDim S1x32 (![1] : Fin 1 → Fin S1x32.rank)
  bcast_S1x32_S4096x32_0_1 : S1x32.BroadcastsInDim S4096x32 (![0, 1] : Fin 2 → Fin S4096x32.rank)
  bcast_S_S4096x32 : S_.BroadcastsInDim S4096x32 (![] : Fin 0 → Fin S4096x32.rank)
  dot_S4096x40960_S40960x288_S4096x288_1_0_0_1_n_n_wf : DotDims.WF S4096x40960 S40960x288 S4096x288 [1] [0] [0] [1] [] []
  dot_S4096x576_S576x1_S4096x1_1_0_0_1_n_n_wf : DotDims.WF S4096x576 S576x1 S4096x1 [1] [0] [0] [1] [] []
  dot_S4096x576_S576x32_S4096x32_1_0_0_1_n_n_wf : DotDims.WF S4096x576 S576x32 S4096x32 [1] [0] [0] [1] [] []
  dot_S4096x32_S32x32_S4096x32_1_0_0_1_n_n_wf : DotDims.WF S4096x32 S32x32 S4096x32 [1] [0] [0] [1] [] []
  dot_S4096x32_S32x1_S4096x1_1_0_0_1_n_n_wf : DotDims.WF S4096x32 S32x1 S4096x1 [1] [0] [0] [1] [] []

variable [Facts₀]

def dot_S4096x40960_S40960x288_S4096x288_1_0_0_1_n_n : DotDims S4096x40960 S40960x288 S4096x288 where
  lhsContracting := [1]
  rhsContracting := [0]
  lhsNonContracting := [0]
  rhsNonContracting := [1]
  lhsBatch := []
  rhsBatch := []
  wf := dot_S4096x40960_S40960x288_S4096x288_1_0_0_1_n_n_wf
def dot_S4096x576_S576x1_S4096x1_1_0_0_1_n_n : DotDims S4096x576 S576x1 S4096x1 where
  lhsContracting := [1]
  rhsContracting := [0]
  lhsNonContracting := [0]
  rhsNonContracting := [1]
  lhsBatch := []
  rhsBatch := []
  wf := dot_S4096x576_S576x1_S4096x1_1_0_0_1_n_n_wf
def dot_S4096x576_S576x32_S4096x32_1_0_0_1_n_n : DotDims S4096x576 S576x32 S4096x32 where
  lhsContracting := [1]
  rhsContracting := [0]
  lhsNonContracting := [0]
  rhsNonContracting := [1]
  lhsBatch := []
  rhsBatch := []
  wf := dot_S4096x576_S576x32_S4096x32_1_0_0_1_n_n_wf
def dot_S4096x32_S32x32_S4096x32_1_0_0_1_n_n : DotDims S4096x32 S32x32 S4096x32 where
  lhsContracting := [1]
  rhsContracting := [0]
  lhsNonContracting := [0]
  rhsNonContracting := [1]
  lhsBatch := []
  rhsBatch := []
  wf := dot_S4096x32_S32x32_S4096x32_1_0_0_1_n_n_wf
def dot_S4096x32_S32x1_S4096x1_1_0_0_1_n_n : DotDims S4096x32 S32x1 S4096x1 where
  lhsContracting := [1]
  rhsContracting := [0]
  lhsNonContracting := [0]
  rhsNonContracting := [1]
  lhsBatch := []
  rhsBatch := []
  wf := dot_S4096x32_S32x1_S4096x1_1_0_0_1_n_n_wf

class Facts : Prop extends Facts₀ where

variable [Facts]
-- ==== Proof.KPieces.lean ====
import proofs.«109908_j80092550135974_1_alg».proof.Proof.Gen.KernelIdeal.Frame
import Idealize.ShloMosaic.Lib.Pipeline.Value
import Idealize.ShloMosaic.Lib.Tactic
import Mathlib.Tactic.FinCases

/-! What each control case of the kernel body leaves in the two carried accumulators and in the output block,
    as closed terms in the blocks the case reads: whole-block loads read the blocks themselves, and a whole-block
    store leaves its payload. Stated at any float type. -/

set_option maxRecDepth 16384

noncomputable section

namespace Cert.KernelIdeal.Pieces

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a whole-block access, however spelt. -/
private theorem hz : (![0, 0] : Fin 2 → Nat) = fun _ => 0 := funext fun a => by fin_cases a <;> rfl

/-- First step of the reduction: the first accumulator is reset to the zero block, read back, and updated by the two matrix products of this step's blocks. -/
theorem sout_A_0 (c : Dev nD) (i : grid0.Coords) (arg2 : Memref sig .tc .vmem S1024x1280 .f32) (harg2 : arg2.IsWhole) (arg3 : Memref sig .tc .vmem S1024x1280 .f32) (harg3 : arg3.IsWhole) (arg4 : Memref sig .tc .vmem S1280x288 .bf16) (harg4 : arg4.IsWhole) (arg5 : Memref sig .tc .vmem S1280x288 .bf16) (harg5 : arg5.IsWhole) (arg6 : Memref sig .tc .vmem S1280x288 .bf16) (harg6 : arg6.IsWhole) (arg7 : Memref sig .tc .vmem S1280x288 .bf16) (harg7 : arg7.IsWhole) (arg8 : Memref sig .tc .vmem S1x288 .f32) (harg8 : arg8.IsWhole) (arg9 : Memref sig .tc .vmem S1x288 .f32) (harg9 : arg9.IsWhole) (arg10 : Memref sig .tc .vmem S1024x1 .f32) (harg10 : arg10.IsWhole) (arg11 : Memref sig .tc .vmem S576x1 .f32) (harg11 : arg11.IsWhole) (arg12 : Memref sig .tc .vmem S1x1 .f32) (harg12 : arg12.IsWhole) (arg13 : Memref sig .tc .vmem S576x32 .f32) (harg13 : arg13.IsWhole) (arg14 : Memref sig .tc .vmem S1x32 .f32) (harg14 : arg14.IsWhole) (arg15 : Memref sig .tc .vmem S32x32 .f32) (harg15 : arg15.IsWhole) (arg16 : Memref sig .tc .vmem S1x32 .f32) (harg16 : arg16.IsWhole) (arg17 : Memref sig .tc .vmem S32x1 .f32) (harg17 : arg17.IsWhole) (arg18 : Memref sig .tc .vmem S1x1 .f32) (harg18 : arg18.IsWhole) (arg19 : Memref sig .tc .vmem S1024x1 .f32) (harg19 : arg19.IsWhole) (arg20 : Memref sig .tc .vmem S1024x288 .f32) (harg20 : arg20.IsWhole) (arg21 : Memref sig .tc .vmem S1024x288 .f32) (harg21 : arg21.IsWhole) (hc0 : cond0_0 i) (hc1 : ¬cond0_1 i)
    (x0 : Vec F S1024x1280 .f32) (x1 : Vec F S1024x1280 .f32) (x2 : Vec F S1280x288 .bf16) (x3 : Vec F S1280x288 .bf16) (x4 : Vec F S1280x288 .bf16) (x5 : Vec F S1280x288 .bf16) (x6 : Vec F S1x288 .f32) (x7 : Vec F S1x288 .f32) (x8 : Vec F S1024x1 .f32) (x9 : Vec F S576x1 .f32) (x10 : Vec F S1x1 .f32) (x11 : Vec F S576x32 .f32) (x12 : Vec F S1x32 .f32) (x13 : Vec F S32x32 .f32) (x14 : Vec F S1x32 .f32) (x15 : Vec F S32x1 .f32) (x16 : Vec F S1x1 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 x16 = k0_pay10 x0 x1 (k0_pay6 (F := F)) x2 x3 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 x16)]
  unfold kernelRun0_A
  dsimp only
  sl_unfold_words
  rw [View.canon_cons_unit_zero (S := S1024x288) hz, View.readCov_unit_zero (S := S1024x288) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S1024x1280) hz, View.ld_unit_zero (S := S1280x288) hz, View.ld_unit_zero (S := S1024x288) hz, View.ld_unit_zero (S := S1x288) hz, View.ld_unit_zero (S := S1024x1) hz, View.ld_unit_zero (S := S576x1) hz, View.ld_unit_zero (S := S1x1) hz, View.ld_unit_zero (S := S576x32) hz, View.ld_unit_zero (S := S1x32) hz, View.ld_unit_zero (S := S32x32) hz, View.ld_unit_zero (S := S32x1) hz]

/-- First step of the reduction: the second accumulator is reset to the zero block, read back, and updated likewise. -/
theorem sout_A_1 (c : Dev nD) (i : grid0.Coords) (arg2 : Memref sig .tc .vmem S1024x1280 .f32) (harg2 : arg2.IsWhole) (arg3 : Memref sig .tc .vmem S1024x1280 .f32) (harg3 : arg3.IsWhole) (arg4 : Memref sig .tc .vmem S1280x288 .bf16) (harg4 : arg4.IsWhole) (arg5 : Memref sig .tc .vmem S1280x288 .bf16) (harg5 : arg5.IsWhole) (arg6 : Memref sig .tc .vmem S1280x288 .bf16) (harg6 : arg6.IsWhole) (arg7 : Memref sig .tc .vmem S1280x288 .bf16) (harg7 : arg7.IsWhole) (arg8 : Memref sig .tc .vmem S1x288 .f32) (harg8 : arg8.IsWhole) (arg9 : Memref sig .tc .vmem S1x288 .f32) (harg9 : arg9.IsWhole) (arg10 : Memref sig .tc .vmem S1024x1 .f32) (harg10 : arg10.IsWhole) (arg11 : Memref sig .tc .vmem S576x1 .f32) (harg11 : arg11.IsWhole) (arg12 : Memref sig .tc .vmem S1x1 .f32) (harg12 : arg12.IsWhole) (arg13 : Memref sig .tc .vmem S576x32 .f32) (harg13 : arg13.IsWhole) (arg14 : Memref sig .tc .vmem S1x32 .f32) (harg14 : arg14.IsWhole) (arg15 : Memref sig .tc .vmem S32x32 .f32) (harg15 : arg15.IsWhole) (arg16 : Memref sig .tc .vmem S1x32 .f32) (harg16 : arg16.IsWhole) (arg17 : Memref sig .tc .vmem S32x1 .f32) (harg17 : arg17.IsWhole) (arg18 : Memref sig .tc .vmem S1x1 .f32) (harg18 : arg18.IsWhole) (arg19 : Memref sig .tc .vmem S1024x1 .f32) (harg19 : arg19.IsWhole) (arg20 : Memref sig .tc .vmem S1024x288 .f32) (harg20 : arg20.IsWhole) (arg21 : Memref sig .tc .vmem S1024x288 .f32) (harg21 : arg21.IsWhole) (hc0 : cond0_0 i) (hc1 : ¬cond0_1 i)
    (x0 : Vec F S1024x1280 .f32) (x1 : Vec F S1024x1280 .f32) (x2 : Vec F S1280x288 .bf16) (x3 : Vec F S1280x288 .bf16) (x4 : Vec F S1280x288 .bf16) (x5 : Vec F S1280x288 .bf16) (x6 : Vec F S1x288 .f32) (x7 : Vec F S1x288 .f32) (x8 : Vec F S1024x1 .f32) (x9 : Vec F S576x1 .f32) (x10 : Vec F S1x1 .f32) (x11 : Vec F S576x32 .f32) (x12 : Vec F S1x32 .f32) (x13 : Vec F S32x32 .f32) (x14 : Vec F S1x32 .f32) (x15 : Vec F S32x1 .f32) (x16 : Vec F S1x1 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 x16 = k0_pay1 (k0_pay11 x0 x1 (k0_pay7 (F := F)) x4 x5) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 x16)]
  unfold kernelRun0_A
  dsimp only
  sl_unfold_words
  rw [View.canon_cons_unit_zero (S := S1024x288) hz, View.readCov_unit_zero (S := S1024x288) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S1024x1280) hz, View.ld_unit_zero (S := S1280x288) hz, View.ld_unit_zero (S := S1024x288) hz, View.ld_unit_zero (S := S1x288) hz, View.ld_unit_zero (S := S1024x1) hz, View.ld_unit_zero (S := S576x1) hz, View.ld_unit_zero (S := S1x1) hz, View.ld_unit_zero (S := S576x32) hz, View.ld_unit_zero (S := S1x32) hz, View.ld_unit_zero (S := S32x32) hz, View.ld_unit_zero (S := S32x1) hz]

/-- A middle step: the first accumulator, holding `xs0`, is updated by this step's blocks. -/
theorem sout_B_0 (c : Dev nD) (i : grid0.Coords) (arg2 : Memref sig .tc .vmem S1024x1280 .f32) (harg2 : arg2.IsWhole) (arg3 : Memref sig .tc .vmem S1024x1280 .f32) (harg3 : arg3.IsWhole) (arg4 : Memref sig .tc .vmem S1280x288 .bf16) (harg4 : arg4.IsWhole) (arg5 : Memref sig .tc .vmem S1280x288 .bf16) (harg5 : arg5.IsWhole) (arg6 : Memref sig .tc .vmem S1280x288 .bf16) (harg6 : arg6.IsWhole) (arg7 : Memref sig .tc .vmem S1280x288 .bf16) (harg7 : arg7.IsWhole) (arg8 : Memref sig .tc .vmem S1x288 .f32) (harg8 : arg8.IsWhole) (arg9 : Memref sig .tc .vmem S1x288 .f32) (harg9 : arg9.IsWhole) (arg10 : Memref sig .tc .vmem S1024x1 .f32) (harg10 : arg10.IsWhole) (arg11 : Memref sig .tc .vmem S576x1 .f32) (harg11 : arg11.IsWhole) (arg12 : Memref sig .tc .vmem S1x1 .f32) (harg12 : arg12.IsWhole) (arg13 : Memref sig .tc .vmem S576x32 .f32) (harg13 : arg13.IsWhole) (arg14 : Memref sig .tc .vmem S1x32 .f32) (harg14 : arg14.IsWhole) (arg15 : Memref sig .tc .vmem S32x32 .f32) (harg15 : arg15.IsWhole) (arg16 : Memref sig .tc .vmem S1x32 .f32) (harg16 : arg16.IsWhole) (arg17 : Memref sig .tc .vmem S32x1 .f32) (harg17 : arg17.IsWhole) (arg18 : Memref sig .tc .vmem S1x1 .f32) (harg18 : arg18.IsWhole) (arg19 : Memref sig .tc .vmem S1024x1 .f32) (harg19 : arg19.IsWhole) (arg20 : Memref sig .tc .vmem S1024x288 .f32) (harg20 : arg20.IsWhole) (arg21 : Memref sig .tc .vmem S1024x288 .f32) (harg21 : arg21.IsWhole) (hc0 : ¬cond0_0 i) (hc1 : ¬cond0_1 i)
    (x0 : Vec F S1024x1280 .f32) (x1 : Vec F S1024x1280 .f32) (x2 : Vec F S1280x288 .bf16) (x3 : Vec F S1280x288 .bf16) (x4 : Vec F S1280x288 .bf16) (x5 : Vec F S1280x288 .bf16) (x6 : Vec F S1x288 .f32) (x7 : Vec F S1x288 .f32) (x8 : Vec F S1024x1 .f32) (x9 : Vec F S576x1 .f32) (x10 : Vec F S1x1 .f32) (x11 : Vec F S576x32 .f32) (x12 : Vec F S1x32 .f32) (x13 : Vec F S32x32 .f32) (x14 : Vec F S1x32 .f32) (x15 : Vec F S32x1 .f32) (x16 : Vec F S1x1 .f32) (xs0 : Vec F S1024x288 .f32) (xs1 : Vec F S1024x288 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 x16 xs0 xs1 = k0_pay10 x0 x1 xs0 x2 x3 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 x16 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S1024x1280) hz, View.ld_unit_zero (S := S1280x288) hz, View.ld_unit_zero (S := S1024x288) hz, View.ld_unit_zero (S := S1x288) hz, View.ld_unit_zero (S := S1024x1) hz, View.ld_unit_zero (S := S576x1) hz, View.ld_unit_zero (S := S1x1) hz, View.ld_unit_zero (S := S576x32) hz, View.ld_unit_zero (S := S1x32) hz, View.ld_unit_zero (S := S32x32) hz, View.ld_unit_zero (S := S32x1) hz]

/-- A middle step: the second accumulator, holding `xs1`, is updated by this step's blocks. -/
theorem sout_B_1 (c : Dev nD) (i : grid0.Coords) (arg2 : Memref sig .tc .vmem S1024x1280 .f32) (harg2 : arg2.IsWhole) (arg3 : Memref sig .tc .vmem S1024x1280 .f32) (harg3 : arg3.IsWhole) (arg4 : Memref sig .tc .vmem S1280x288 .bf16) (harg4 : arg4.IsWhole) (arg5 : Memref sig .tc .vmem S1280x288 .bf16) (harg5 : arg5.IsWhole) (arg6 : Memref sig .tc .vmem S1280x288 .bf16) (harg6 : arg6.IsWhole) (arg7 : Memref sig .tc .vmem S1280x288 .bf16) (harg7 : arg7.IsWhole) (arg8 : Memref sig .tc .vmem S1x288 .f32) (harg8 : arg8.IsWhole) (arg9 : Memref sig .tc .vmem S1x288 .f32) (harg9 : arg9.IsWhole) (arg10 : Memref sig .tc .vmem S1024x1 .f32) (harg10 : arg10.IsWhole) (arg11 : Memref sig .tc .vmem S576x1 .f32) (harg11 : arg11.IsWhole) (arg12 : Memref sig .tc .vmem S1x1 .f32) (harg12 : arg12.IsWhole) (arg13 : Memref sig .tc .vmem S576x32 .f32) (harg13 : arg13.IsWhole) (arg14 : Memref sig .tc .vmem S1x32 .f32) (harg14 : arg14.IsWhole) (arg15 : Memref sig .tc .vmem S32x32 .f32) (harg15 : arg15.IsWhole) (arg16 : Memref sig .tc .vmem S1x32 .f32) (harg16 : arg16.IsWhole) (arg17 : Memref sig .tc .vmem S32x1 .f32) (harg17 : arg17.IsWhole) (arg18 : Memref sig .tc .vmem S1x1 .f32) (harg18 : arg18.IsWhole) (arg19 : Memref sig .tc .vmem S1024x1 .f32) (harg19 : arg19.IsWhole) (arg20 : Memref sig .tc .vmem S1024x288 .f32) (harg20 : arg20.IsWhole) (arg21 : Memref sig .tc .vmem S1024x288 .f32) (harg21 : arg21.IsWhole) (hc0 : ¬cond0_0 i) (hc1 : ¬cond0_1 i)
    (x0 : Vec F S1024x1280 .f32) (x1 : Vec F S1024x1280 .f32) (x2 : Vec F S1280x288 .bf16) (x3 : Vec F S1280x288 .bf16) (x4 : Vec F S1280x288 .bf16) (x5 : Vec F S1280x288 .bf16) (x6 : Vec F S1x288 .f32) (x7 : Vec F S1x288 .f32) (x8 : Vec F S1024x1 .f32) (x9 : Vec F S576x1 .f32) (x10 : Vec F S1x1 .f32) (x11 : Vec F S576x32 .f32) (x12 : Vec F S1x32 .f32) (x13 : Vec F S32x32 .f32) (x14 : Vec F S1x32 .f32) (x15 : Vec F S32x1 .f32) (x16 : Vec F S1x1 .f32) (xs0 : Vec F S1024x288 .f32) (xs1 : Vec F S1024x288 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 x16 xs0 xs1 = k0_pay1 (k0_pay11 x0 x1 xs1 x4 x5) := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 x16 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S1024x1280) hz, View.ld_unit_zero (S := S1280x288) hz, View.ld_unit_zero (S := S1024x288) hz, View.ld_unit_zero (S := S1x288) hz, View.ld_unit_zero (S := S1024x1) hz, View.ld_unit_zero (S := S576x1) hz, View.ld_unit_zero (S := S1x1) hz, View.ld_unit_zero (S := S576x32) hz, View.ld_unit_zero (S := S1x32) hz, View.ld_unit_zero (S := S32x32) hz, View.ld_unit_zero (S := S32x1) hz]

/-- The last step: the first accumulator is updated as in a middle step. -/
theorem sout_C_0 (c : Dev nD) (i : grid0.Coords) (arg2 : Memref sig .tc .vmem S1024x1280 .f32) (harg2 : arg2.IsWhole) (arg3 : Memref sig .tc .vmem S1024x1280 .f32) (harg3 : arg3.IsWhole) (arg4 : Memref sig .tc .vmem S1280x288 .bf16) (harg4 : arg4.IsWhole) (arg5 : Memref sig .tc .vmem S1280x288 .bf16) (harg5 : arg5.IsWhole) (arg6 : Memref sig .tc .vmem S1280x288 .bf16) (harg6 : arg6.IsWhole) (arg7 : Memref sig .tc .vmem S1280x288 .bf16) (harg7 : arg7.IsWhole) (arg8 : Memref sig .tc .vmem S1x288 .f32) (harg8 : arg8.IsWhole) (arg9 : Memref sig .tc .vmem S1x288 .f32) (harg9 : arg9.IsWhole) (arg10 : Memref sig .tc .vmem S1024x1 .f32) (harg10 : arg10.IsWhole) (arg11 : Memref sig .tc .vmem S576x1 .f32) (harg11 : arg11.IsWhole) (arg12 : Memref sig .tc .vmem S1x1 .f32) (harg12 : arg12.IsWhole) (arg13 : Memref sig .tc .vmem S576x32 .f32) (harg13 : arg13.IsWhole) (arg14 : Memref sig .tc .vmem S1x32 .f32) (harg14 : arg14.IsWhole) (arg15 : Memref sig .tc .vmem S32x32 .f32) (harg15 : arg15.IsWhole) (arg16 : Memref sig .tc .vmem S1x32 .f32) (harg16 : arg16.IsWhole) (arg17 : Memref sig .tc .vmem S32x1 .f32) (harg17 : arg17.IsWhole) (arg18 : Memref sig .tc .vmem S1x1 .f32) (harg18 : arg18.IsWhole) (arg19 : Memref sig .tc .vmem S1024x1 .f32) (harg19 : arg19.IsWhole) (arg20 : Memref sig .tc .vmem S1024x288 .f32) (harg20 : arg20.IsWhole) (arg21 : Memref sig .tc .vmem S1024x288 .f32) (harg21 : arg21.IsWhole) (hc0 : ¬cond0_0 i) (hc1 : cond0_1 i)
    (x0 : Vec F S1024x1280 .f32) (x1 : Vec F S1024x1280 .f32) (x2 : Vec F S1280x288 .bf16) (x3 : Vec F S1280x288 .bf16) (x4 : Vec F S1280x288 .bf16) (x5 : Vec F S1280x288 .bf16) (x6 : Vec F S1x288 .f32) (x7 : Vec F S1x288 .f32) (x8 : Vec F S1024x1 .f32) (x9 : Vec F S576x1 .f32) (x10 : Vec F S1x1 .f32) (x11 : Vec F S576x32 .f32) (x12 : Vec F S1x32 .f32) (x13 : Vec F S32x32 .f32) (x14 : Vec F S1x32 .f32) (x15 : Vec F S32x1 .f32) (x16 : Vec F S1x1 .f32) (xs0 : Vec F S1024x288 .f32) (xs1 : Vec F S1024x288 .f32) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 x16 xs0 xs1 = k0_pay10 x0 x1 xs0 x2 x3 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 x16 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S1024x1280) hz, View.ld_unit_zero (S := S1280x288) hz, View.ld_unit_zero (S := S1024x288) hz, View.ld_unit_zero (S := S1x288) hz, View.ld_unit_zero (S := S1024x1) hz, View.ld_unit_zero (S := S576x1) hz, View.ld_unit_zero (S := S1x1) hz, View.ld_unit_zero (S := S576x32) hz, View.ld_unit_zero (S := S1x32) hz, View.ld_unit_zero (S := S32x32) hz, View.ld_unit_zero (S := S32x1) hz]

/-- The last step: the second accumulator is updated as in a middle step. -/
theorem sout_C_1 (c : Dev nD) (i : grid0.Coords) (arg2 : Memref sig .tc .vmem S1024x1280 .f32) (harg2 : arg2.IsWhole) (arg3 : Memref sig .tc .vmem S1024x1280 .f32) (harg3 : arg3.IsWhole) (arg4 : Memref sig .tc .vmem S1280x288 .bf16) (harg4 : arg4.IsWhole) (arg5 : Memref sig .tc .vmem S1280x288 .bf16) (harg5 : arg5.IsWhole) (arg6 : Memref sig .tc .vmem S1280x288 .bf16) (harg6 : arg6.IsWhole) (arg7 : Memref sig .tc .vmem S1280x288 .bf16) (harg7 : arg7.IsWhole) (arg8 : Memref sig .tc .vmem S1x288 .f32) (harg8 : arg8.IsWhole) (arg9 : Memref sig .tc .vmem S1x288 .f32) (harg9 : arg9.IsWhole) (arg10 : Memref sig .tc .vmem S1024x1 .f32) (harg10 : arg10.IsWhole) (arg11 : Memref sig .tc .vmem S576x1 .f32) (harg11 : arg11.IsWhole) (arg12 : Memref sig .tc .vmem S1x1 .f32) (harg12 : arg12.IsWhole) (arg13 : Memref sig .tc .vmem S576x32 .f32) (harg13 : arg13.IsWhole) (arg14 : Memref sig .tc .vmem S1x32 .f32) (harg14 : arg14.IsWhole) (arg15 : Memref sig .tc .vmem S32x32 .f32) (harg15 : arg15.IsWhole) (arg16 : Memref sig .tc .vmem S1x32 .f32) (harg16 : arg16.IsWhole) (arg17 : Memref sig .tc .vmem S32x1 .f32) (harg17 : arg17.IsWhole) (arg18 : Memref sig .tc .vmem S1x1 .f32) (harg18 : arg18.IsWhole) (arg19 : Memref sig .tc .vmem S1024x1 .f32) (harg19 : arg19.IsWhole) (arg20 : Memref sig .tc .vmem S1024x288 .f32) (harg20 : arg20.IsWhole) (arg21 : Memref sig .tc .vmem S1024x288 .f32) (harg21 : arg21.IsWhole) (hc0 : ¬cond0_0 i) (hc1 : cond0_1 i)
    (x0 : Vec F S1024x1280 .f32) (x1 : Vec F S1024x1280 .f32) (x2 : Vec F S1280x288 .bf16) (x3 : Vec F S1280x288 .bf16) (x4 : Vec F S1280x288 .bf16) (x5 : Vec F S1280x288 .bf16) (x6 : Vec F S1x288 .f32) (x7 : Vec F S1x288 .f32) (x8 : Vec F S1024x1 .f32) (x9 : Vec F S576x1 .f32) (x10 : Vec F S1x1 .f32) (x11 : Vec F S576x32 .f32) (x12 : Vec F S1x32 .f32) (x13 : Vec F S32x32 .f32) (x14 : Vec F S1x32 .f32) (x15 : Vec F S32x1 .f32) (x16 : Vec F S1x1 .f32) (xs0 : Vec F S1024x288 .f32) (xs1 : Vec F S1024x288 .f32) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 x16 xs0 xs1 = k0_pay1 (k0_pay11 x0 x1 xs1 x4 x5) := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 x16 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S1024x1280) hz, View.ld_unit_zero (S := S1280x288) hz, View.ld_unit_zero (S := S1024x288) hz, View.ld_unit_zero (S := S1x288) hz, View.ld_unit_zero (S := S1024x1) hz, View.ld_unit_zero (S := S576x1) hz, View.ld_unit_zero (S := S1x1) hz, View.ld_unit_zero (S := S576x32) hz, View.ld_unit_zero (S := S1x32) hz, View.ld_unit_zero (S := S32x32) hz, View.ld_unit_zero (S := S32x1) hz]

/-- The last step: the output block is the head applied to the two updated accumulators (each read back whole after its update), the two bias rows, the column block `x8` and the head's weights and biases. -/
theorem out_C_17 (c : Dev nD) (i : grid0.Coords) (arg2 : Memref sig .tc .vmem S1024x1280 .f32) (harg2 : arg2.IsWhole) (arg3 : Memref sig .tc .vmem S1024x1280 .f32) (harg3 : arg3.IsWhole) (arg4 : Memref sig .tc .vmem S1280x288 .bf16) (harg4 : arg4.IsWhole) (arg5 : Memref sig .tc .vmem S1280x288 .bf16) (harg5 : arg5.IsWhole) (arg6 : Memref sig .tc .vmem S1280x288 .bf16) (harg6 : arg6.IsWhole) (arg7 : Memref sig .tc .vmem S1280x288 .bf16) (harg7 : arg7.IsWhole) (arg8 : Memref sig .tc .vmem S1x288 .f32) (harg8 : arg8.IsWhole) (arg9 : Memref sig .tc .vmem S1x288 .f32) (harg9 : arg9.IsWhole) (arg10 : Memref sig .tc .vmem S1024x1 .f32) (harg10 : arg10.IsWhole) (arg11 : Memref sig .tc .vmem S576x1 .f32) (harg11 : arg11.IsWhole) (arg12 : Memref sig .tc .vmem S1x1 .f32) (harg12 : arg12.IsWhole) (arg13 : Memref sig .tc .vmem S576x32 .f32) (harg13 : arg13.IsWhole) (arg14 : Memref sig .tc .vmem S1x32 .f32) (harg14 : arg14.IsWhole) (arg15 : Memref sig .tc .vmem S32x32 .f32) (harg15 : arg15.IsWhole) (arg16 : Memref sig .tc .vmem S1x32 .f32) (harg16 : arg16.IsWhole) (arg17 : Memref sig .tc .vmem S32x1 .f32) (harg17 : arg17.IsWhole) (arg18 : Memref sig .tc .vmem S1x1 .f32) (harg18 : arg18.IsWhole) (arg19 : Memref sig .tc .vmem S1024x1 .f32) (harg19 : arg19.IsWhole) (arg20 : Memref sig .tc .vmem S1024x288 .f32) (harg20 : arg20.IsWhole) (arg21 : Memref sig .tc .vmem S1024x288 .f32) (harg21 : arg21.IsWhole) (hc0 : ¬cond0_0 i) (hc1 : cond0_1 i)
    (x0 : Vec F S1024x1280 .f32) (x1 : Vec F S1024x1280 .f32) (x2 : Vec F S1280x288 .bf16) (x3 : Vec F S1280x288 .bf16) (x4 : Vec F S1280x288 .bf16) (x5 : Vec F S1280x288 .bf16) (x6 : Vec F S1x288 .f32) (x7 : Vec F S1x288 .f32) (x8 : Vec F S1024x1 .f32) (x9 : Vec F S576x1 .f32) (x10 : Vec F S1x1 .f32) (x11 : Vec F S576x32 .f32) (x12 : Vec F S1x32 .f32) (x13 : Vec F S32x32 .f32) (x14 : Vec F S1x32 .f32) (x15 : Vec F S32x1 .f32) (x16 : Vec F S1x1 .f32) (xs0 : Vec F S1024x288 .f32) (xs1 : Vec F S1024x288 .f32) :
    out0_C_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 x16 xs0 xs1 = k0_pay2 (k0_pay4 (k0_pay10 x0 x1 xs0 x2 x3) x6 (k0_pay1 (k0_pay11 x0 x1 xs1 x4 x5)) x7 x8 x9 x10)
            (k0_pay5 (k0_pay10 x0 x1 xs0 x2 x3) x6 (k0_pay1 (k0_pay11 x0 x1 xs1 x4 x5)) x7 x8 x11 x12) x13 x14 x15 x16 := by
  unfold out0_C_17
  rw [View.read_writes_eq_canon _ _ _ (cover0_C_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 x16 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S1024x1280) hz, View.ld_unit_zero (S := S1280x288) hz, View.ld_unit_zero (S := S1024x288) hz, View.ld_unit_zero (S := S1x288) hz, View.ld_unit_zero (S := S1024x1) hz, View.ld_unit_zero (S := S576x1) hz, View.ld_unit_zero (S := S1x1) hz, View.ld_unit_zero (S := S576x32) hz, View.ld_unit_zero (S := S1x32) hz, View.ld_unit_zero (S := S32x32) hz, View.ld_unit_zero (S := S32x1) hz, View.readCov_unit_zero (S := S1024x288) _ hz]

end Cert.KernelIdeal.Pieces

end
-- ==== Proof.KStep.lean ====
/-
  One accumulation step of the kernel, read at an index.

  A step adds to an accumulator entry the two block products of the step: the row of one colour against the upper
  block of a weight column plus the row of the other colour against the lower block.  Over the extended reals the
  truncation to the narrow format is the identity, and a matrix product into the zero matrix is the plain sum over
  the 1280 contracted features.
-/
import proofs.«109908_j80092550135974_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.StepValue

open Cert.KernelIdeal Cert.KernelIdeal.Gen Idealize.ShloMosaic Idealize.ShloMosaic.ValueIdx

/-- The left operand's row coordinate is the result's row. -/
private theorem lhs_step_0 (i : S1024x288.Idx) (q : dot_S1024x1280_S1280x288_S1024x288_1_0_0_1_n_n.contr.Idx) :
    (dot_S1024x1280_S1280x288_S1024x288_1_0_0_1_n_n.lhsIdx i q 0).val = (i 0).val := by
  unfold DotDims.lhsIdx
  rw [dif_neg (show ¬(0 : Fin S1024x1280.rank) ∈ dot_S1024x1280_S1280x288_S1024x288_1_0_0_1_n_n.lhsBatch by decide), dif_pos (show (0 : Fin S1024x1280.rank) ∈ dot_S1024x1280_S1280x288_S1024x288_1_0_0_1_n_n.lhsNonContracting by decide)]
  rfl
/-- The left operand's column coordinate is the contracted feature. -/
private theorem lhs_step_1 (i : S1024x288.Idx) (q : dot_S1024x1280_S1280x288_S1024x288_1_0_0_1_n_n.contr.Idx) :
    (dot_S1024x1280_S1280x288_S1024x288_1_0_0_1_n_n.lhsIdx i q 1).val = (q ⟨0, by decide⟩).val :=
  dot_S1024x1280_S1280x288_S1024x288_1_0_0_1_n_n.lhsIdx_val_of_single rfl i q
/-- The right operand's row coordinate is the contracted feature. -/
private theorem rhs_step_0 (i : S1024x288.Idx) (q : dot_S1024x1280_S1280x288_S1024x288_1_0_0_1_n_n.contr.Idx) :
    (dot_S1024x1280_S1280x288_S1024x288_1_0_0_1_n_n.rhsIdx i q 0).val = (q ⟨0, by decide⟩).val :=
  dot_S1024x1280_S1280x288_S1024x288_1_0_0_1_n_n.rhsIdx_val_of_single rfl i q
/-- The right operand's column coordinate is the result's column. -/
private theorem rhs_step_1 (i : S1024x288.Idx) (q : dot_S1024x1280_S1280x288_S1024x288_1_0_0_1_n_n.contr.Idx) :
    (dot_S1024x1280_S1280x288_S1024x288_1_0_0_1_n_n.rhsIdx i q 1).val = (i 1).val := by
  unfold DotDims.rhsIdx
  rw [dif_neg (show ¬(1 : Fin S1280x288.rank) ∈ dot_S1024x1280_S1280x288_S1024x288_1_0_0_1_n_n.rhsBatch by decide), dif_pos (show (1 : Fin S1280x288.rank) ∈ dot_S1024x1280_S1280x288_S1024x288_1_0_0_1_n_n.rhsNonContracting by decide)]
  rfl

/-- A block product into the zero matrix, read at row `r` and column `j`: the sum over the 1280 contracted features. -/
private theorem blockProd_apply (a : FVec Ideal S1024x1280 .bf16) (b : FVec Ideal S1280x288 .bf16) (r : Fin 1024) (j : Fin 288) :
    FloatOps.matmul dot_S1024x1280_S1280x288_S1024x288_1_0_0_1_n_n none a b (constant (F := Ideal) S1024x288 .f32 0x00000000#32) (ix2 r j)
      = ∑ l : Fin 1280, a (ix2 r l) * b (ix2 l j) := by
  rw [Ideal.matmul_constant_zero_apply, ← Equiv.sum_comp (ValueIdx.contrEquiv1 dot_S1024x1280_S1280x288_S1024x288_1_0_0_1_n_n 1280 rfl rfl).symm]
  refine Finset.sum_congr rfl fun k _ => ?_
  have hk := ValueIdx.contrEquiv1_symm_val dot_S1024x1280_S1280x288_S1024x288_1_0_0_1_n_n 1280 rfl rfl k
  have el : dot_S1024x1280_S1280x288_S1024x288_1_0_0_1_n_n.lhsIdx (ix2 r j) ((ValueIdx.contrEquiv1 dot_S1024x1280_S1280x288_S1024x288_1_0_0_1_n_n 1280 rfl rfl).symm k) = ix2 r k := funext fun a => Fin.ext (by
    match a with
    | ⟨0, _⟩ => exact lhs_step_0 _ _
    | ⟨1, _⟩ => exact (lhs_step_1 _ _).trans hk)
  have er : dot_S1024x1280_S1280x288_S1024x288_1_0_0_1_n_n.rhsIdx (ix2 r j) ((ValueIdx.contrEquiv1 dot_S1024x1280_S1280x288_S1024x288_1_0_0_1_n_n 1280 rfl rfl).symm k) = ix2 k j := funext fun a => Fin.ext (by
    match a with
    | ⟨0, _⟩ => exact (rhs_step_0 _ _).trans hk
    | ⟨1, _⟩ => exact rhs_step_1 _ _)
  rw [el, er]

/-- The white accumulator's step: the entry plus the two block products of the step. -/
theorem stepW_apply (x0 x1 : Vec Ideal S1024x1280 .f32) (acc : Vec Ideal S1024x288 .f32) (x2 x3 : Vec Ideal S1280x288 .bf16) (r : Fin 1024) (j : Fin 288) :
    k0_pay10 (F := Ideal) x0 x1 acc x2 x3 (ix2 r j)
      = acc (ix2 r j) + ((∑ l : Fin 1280, x0 (ix2 r l) * x2 (ix2 l j)) + (∑ l : Fin 1280, x1 (ix2 r l) * x3 (ix2 l j))) := by
  unfold k0_pay10 k0_pay8 k0_pay9
  simp only [shapeCast_self, matmul]
  rw [addf_apply, addf_apply, blockProd_apply, blockProd_apply]
  rfl

/-- The black accumulator's step: the entry plus the two block products of the step, colours exchanged. -/
theorem stepB_apply (x0 x1 : Vec Ideal S1024x1280 .f32) (acc : Vec Ideal S1024x288 .f32) (x4 x5 : Vec Ideal S1280x288 .bf16) (r : Fin 1024) (j : Fin 288) :
    k0_pay1 (F := Ideal) (k0_pay11 x0 x1 acc x4 x5) (ix2 r j)
      = acc (ix2 r j) + ((∑ l : Fin 1280, x1 (ix2 r l) * x4 (ix2 l j)) + (∑ l : Fin 1280, x0 (ix2 r l) * x5 (ix2 l j))) := by
  unfold k0_pay1 k0_pay11 k0_pay8 k0_pay9
  simp only [shapeCast_self, matmul]
  rw [addf_apply, addf_apply, blockProd_apply, blockProd_apply]
  rfl

/-- The white accumulator starts at zero. -/
theorem zeroW_apply (i : S1024x288.Idx) : k0_pay6 (F := Ideal) i = (0 : EReal) := by
  unfold k0_pay6
  simp only [shapeCast_self]
  rw [broadcast_apply]
  exact Ideal.ofBits_zero_f32

/-- The black accumulator starts at zero. -/
theorem zeroB_apply (i : S1024x288.Idx) : k0_pay7 (F := Ideal) i = (0 : EReal) := by
  unfold k0_pay7
  simp only [shapeCast_self]
  rw [broadcast_apply]
  exact Ideal.ofBits_zero_f32

end Cert.KernelIdeal.StepValue
-- ==== Proof.KBlocks.lean ====
/-
  Each pipeline window's block at a grid point, read at an index, as an entry of the argument arrays.

  Grid point `t` of the 4 × 16 grid has coordinates (i, k) = (t / 16, t % 16).  The two feature windows hand the body
  rows 1024 i … 1024 i + 1023 and columns 1280 k … 1280 k + 1279 of their [4096, 20480] arrays; the four weight windows
  hand it rows 1280 k … 1280 k + 1279 of the upper or of the lower half (rows 20480 …) of a [40960, 288] weight matrix,
  whose conversion to the narrower format is the identity over the extended reals; the side-to-move window hands it rows
  1024 i … of its column; every other window hands it its whole array, a bias vector as a one-row matrix.
-/
import proofs.«109908_j80092550135974_1_alg».proof.Proof.Gen.KernelIdeal.Frame
import Idealize.ShloMosaic.Lib.ValueIdx
import Idealize.ShloMosaic.Lib.Pipeline.Value
import Idealize.ShloMosaic.Lib.StableHlo.Run

namespace Cert.KernelIdeal.Blocks

open Cert.KernelIdeal Cert.KernelIdeal.Gen Idealize.ShloMosaic Idealize.ShloMosaic.TcCoe Idealize.SL.Sem Idealize.ShloMosaic.ValueIdx

noncomputable section

variable (m : (ℓ : Loc nD τ sig) → Buf (Elt Ideal) ℓ)

/-! ## Bounds of the coordinates -/

/-- A grid point's number is below 64. -/
theorem pt_lt (t : Fin cfg0.N) : t.val < 64 := by
  have h := t.isLt
  have hN : cfg0.N = 64 := N_0
  omega

/-- Row `r` of row block `t / 16` is a row of the batch. -/
theorem row_lt (t : Fin cfg0.N) (r : Fin 1024) : 1024 * (t.val / 16) + r.val < 4096 := by
  have := pt_lt t; have := r.isLt; omega

/-- Column `l` of feature block `t % 16` is a feature of one colour. -/
theorem col_lt (t : Fin cfg0.N) (l : Fin 1280) : 1280 * (t.val % 16) + l.val < 20480 := by
  have := l.isLt; omega

/-- Feature `l` of block `t % 16` is a row of the upper half of a weight matrix. -/
theorem feat_lt (t : Fin cfg0.N) (l : Fin 1280) : 1280 * (t.val % 16) + l.val < 40960 := by
  have := l.isLt; omega

/-- Feature `l` of block `t % 16`, moved down by one colour's 20480 features, is a row of the lower half. -/
theorem feat_hi_lt (t : Fin cfg0.N) (l : Fin 1280) : 20480 + (1280 * (t.val % 16) + l.val) < 40960 := by
  have := l.isLt; omega

/-! ## The feature windows: block (i, k) of a [4096, 20480] array -/

/-- Window 0's block index at grid point `t`. -/
theorem idx0 : ∀ t : Fin grid0.N, win0_0.index t 0 = t.val / 16 ∧ win0_0.index t 1 = t.val % 16 := by
  decide +kernel

/-- The white features' block at point `t`, read at (r, l), is the array's entry at row `1024 (t / 16) + r`, column `1280 (t % 16) + l`. -/
theorem blk0 (c : Dev nD) (t : Fin cfg0.N) (r : Fin 1024) (l : Fin 1280) :
    (iblk m c 0 t : Vec Ideal S1024x1280 .f32) (ix2 r l)
      = m ((c : Thread nD τ).loc main_arg1) (ix2 ⟨1024 * (t.val / 16) + r.val, row_lt t r⟩ ⟨1280 * (t.val % 16) + l.val, col_lt t l⟩) := by
  have hi := idx0 t
  unfold iblk
  rw [View.read_apply]
  show V m c main_arg1 _ = _
  rw [V_main_arg1]
  congr 1
  funext a
  apply Fin.ext
  match a with
  | ⟨0, _⟩ => show win0_0.index t 0 * 1024 + 1 * r.val = 1024 * (t.val / 16) + r.val; rw [hi.1]; omega
  | ⟨1, _⟩ => show win0_0.index t 1 * 1280 + 1 * l.val = 1280 * (t.val % 16) + l.val; rw [hi.2]; omega

/-- Window 1's block index at grid point `t`. -/
theorem idx1 : ∀ t : Fin grid0.N, win0_1.index t 0 = t.val / 16 ∧ win0_1.index t 1 = t.val % 16 := by
  decide +kernel

/-- The black features' block at point `t`, read at (r, l), is the array's entry at row `1024 (t / 16) + r`, column `1280 (t % 16) + l`. -/
theorem blk1 (c : Dev nD) (t : Fin cfg0.N) (r : Fin 1024) (l : Fin 1280) :
    (iblk m c 1 t : Vec Ideal S1024x1280 .f32) (ix2 r l)
      = m ((c : Thread nD τ).loc main_arg2) (ix2 ⟨1024 * (t.val / 16) + r.val, row_lt t r⟩ ⟨1280 * (t.val % 16) + l.val, col_lt t l⟩) := by
  have hi := idx1 t
  unfold iblk
  rw [View.read_apply]
  show V m c main_arg2 _ = _
  rw [V_main_arg2]
  congr 1
  funext a
  apply Fin.ext
  match a with
  | ⟨0, _⟩ => show win0_1.index t 0 * 1024 + 1 * r.val = 1024 * (t.val / 16) + r.val; rw [hi.1]; omega
  | ⟨1, _⟩ => show win0_1.index t 1 * 1280 + 1 * l.val = 1280 * (t.val % 16) + l.val; rw [hi.2]; omega

/-! ## The weight windows: block k of the upper or of the lower half of a [40960, 288] matrix -/

/-- Window 2's block index at grid point `t`. -/
theorem idx2 : ∀ t : Fin grid0.N, win0_2.index t 0 = t.val % 16 ∧ win0_2.index t 1 = 0 := by
  decide +kernel

/-- The upper half of the white-side weight matrix, converted to the narrower format, as the region finds it: rows 0 … 20479 of the argument. -/
theorem V_v1 (c : Dev nD) : (V m c main_v1 : S20480x288.Idx → EReal)
    = (truncf .bf16 (extractStridedSlice S20480x288 ![0, 0] (m ((c : Thread nD τ).loc main_arg3)) slices_S40960x288_S20480x288_0_0 : FVec Ideal S20480x288 .f32) bitsLt_bf16_f32 : FVec Ideal S20480x288 .bf16) := by
  dsimp only [Gen.V, Gen.hostOps0]
  after_results

/-- The upper half's block at point `t`, read at (l, j), is the white-side weight matrix's entry at row `1280 (t % 16) + l`, column `j`: the conversion is the identity over the extended reals. -/
theorem blk2 (c : Dev nD) (t : Fin cfg0.N) (l : Fin 1280) (j : Fin 288) :
    (iblk m c 2 t : Vec Ideal S1280x288 .bf16) (ix2 l j)
      = m ((c : Thread nD τ).loc main_arg3) (ix2 ⟨1280 * (t.val % 16) + l.val, feat_lt t l⟩ j) := by
  have hi := idx2 t
  unfold iblk
  rw [View.read_apply]
  show (V m c main_v1 : S20480x288.Idx → EReal) _ = _
  rw [V_v1, truncf_apply]
  refine extractStridedSlice_apply _ _ _ _ _ (fun a => ?_)
  match a with
  | ⟨0, _⟩ => show 1280 * (t.val % 16) + l.val = 0 + (win0_2.index t 0 * 1280 + 1 * l.val); rw [hi.1]; omega
  | ⟨1, _⟩ => show j.val = 0 + (win0_2.index t 1 * 288 + 1 * j.val); rw [hi.2]; omega

/-- Window 3's block index at grid point `t`. -/
theorem idx3 : ∀ t : Fin grid0.N, win0_3.index t 0 = t.val % 16 ∧ win0_3.index t 1 = 0 := by
  decide +kernel

/-- The lower half of the white-side weight matrix, converted to the narrower format, as the region finds it: rows 20480 … 40959 of the argument. -/
theorem V_v3 (c : Dev nD) : (V m c main_v3 : S20480x288.Idx → EReal)
    = (truncf .bf16 (extractStridedSlice S20480x288 ![20480, 0] (m ((c : Thread nD τ).loc main_arg3)) slices_S40960x288_S20480x288_20480_0 : FVec Ideal S20480x288 .f32) bitsLt_bf16_f32 : FVec Ideal S20480x288 .bf16) := by
  dsimp only [Gen.V, Gen.hostOps0]
  after_results

/-- The lower half's block at point `t`, read at (l, j), is the white-side weight matrix's entry at row `20480 + 1280 (t % 16) + l`, column `j`: the conversion is the identity over the extended reals. -/
theorem blk3 (c : Dev nD) (t : Fin cfg0.N) (l : Fin 1280) (j : Fin 288) :
    (iblk m c 3 t : Vec Ideal S1280x288 .bf16) (ix2 l j)
      = m ((c : Thread nD τ).loc main_arg3) (ix2 ⟨20480 + (1280 * (t.val % 16) + l.val), feat_hi_lt t l⟩ j) := by
  have hi := idx3 t
  unfold iblk
  rw [View.read_apply]
  show (V m c main_v3 : S20480x288.Idx → EReal) _ = _
  rw [V_v3, truncf_apply]
  refine extractStridedSlice_apply _ _ _ _ _ (fun a => ?_)
  match a with
  | ⟨0, _⟩ => show 20480 + (1280 * (t.val % 16) + l.val) = 20480 + (win0_3.index t 0 * 1280 + 1 * l.val); rw [hi.1]; omega
  | ⟨1, _⟩ => show j.val = 0 + (win0_3.index t 1 * 288 + 1 * j.val); rw [hi.2]; omega

/-- Window 4's block index at grid point `t`. -/
theorem idx4 : ∀ t : Fin grid0.N, win0_4.index t 0 = t.val % 16 ∧ win0_4.index t 1 = 0 := by
  decide +kernel

/-- The upper half of the black-side weight matrix, converted to the narrower format, as the region finds it: rows 0 … 20479 of the argument. -/
theorem V_v5 (c : Dev nD) : (V m c main_v5 : S20480x288.Idx → EReal)
    = (truncf .bf16 (extractStridedSlice S20480x288 ![0, 0] (m ((c : Thread nD τ).loc main_arg5)) slices_S40960x288_S20480x288_0_0 : FVec Ideal S20480x288 .f32) bitsLt_bf16_f32 : FVec Ideal S20480x288 .bf16) := by
  dsimp only [Gen.V, Gen.hostOps0]
  after_results

/-- The upper half's block at point `t`, read at (l, j), is the black-side weight matrix's entry at row `1280 (t % 16) + l`, column `j`: the conversion is the identity over the extended reals. -/
theorem blk4 (c : Dev nD) (t : Fin cfg0.N) (l : Fin 1280) (j : Fin 288) :
    (iblk m c 4 t : Vec Ideal S1280x288 .bf16) (ix2 l j)
      = m ((c : Thread nD τ).loc main_arg5) (ix2 ⟨1280 * (t.val % 16) + l.val, feat_lt t l⟩ j) := by
  have hi := idx4 t
  unfold iblk
  rw [View.read_apply]
  show (V m c main_v5 : S20480x288.Idx → EReal) _ = _
  rw [V_v5, truncf_apply]
  refine extractStridedSlice_apply _ _ _ _ _ (fun a => ?_)
  match a with
  | ⟨0, _⟩ => show 1280 * (t.val % 16) + l.val = 0 + (win0_4.index t 0 * 1280 + 1 * l.val); rw [hi.1]; omega
  | ⟨1, _⟩ => show j.val = 0 + (win0_4.index t 1 * 288 + 1 * j.val); rw [hi.2]; omega

/-- Window 5's block index at grid point `t`. -/
theorem idx5 : ∀ t : Fin grid0.N, win0_5.index t 0 = t.val % 16 ∧ win0_5.index t 1 = 0 := by
  decide +kernel

/-- The lower half of the black-side weight matrix, converted to the narrower format, as the region finds it: rows 20480 … 40959 of the argument. -/
theorem V_v7 (c : Dev nD) : (V m c main_v7 : S20480x288.Idx → EReal)
    = (truncf .bf16 (extractStridedSlice S20480x288 ![20480, 0] (m ((c : Thread nD τ).loc main_arg5)) slices_S40960x288_S20480x288_20480_0 : FVec Ideal S20480x288 .f32) bitsLt_bf16_f32 : FVec Ideal S20480x288 .bf16) := by
  dsimp only [Gen.V, Gen.hostOps0]
  after_results

/-- The lower half's block at point `t`, read at (l, j), is the black-side weight matrix's entry at row `20480 + 1280 (t % 16) + l`, column `j`: the conversion is the identity over the extended reals. -/
theorem blk5 (c : Dev nD) (t : Fin cfg0.N) (l : Fin 1280) (j : Fin 288) :
    (iblk m c 5 t : Vec Ideal S1280x288 .bf16) (ix2 l j)
      = m ((c : Thread nD τ).loc main_arg5) (ix2 ⟨20480 + (1280 * (t.val % 16) + l.val), feat_hi_lt t l⟩ j) := by
  have hi := idx5 t
  unfold iblk
  rw [View.read_apply]
  show (V m c main_v7 : S20480x288.Idx → EReal) _ = _
  rw [V_v7, truncf_apply]
  refine extractStridedSlice_apply _ _ _ _ _ (fun a => ?_)
  match a with
  | ⟨0, _⟩ => show 20480 + (1280 * (t.val % 16) + l.val) = 20480 + (win0_5.index t 0 * 1280 + 1 * l.val); rw [hi.1]; omega
  | ⟨1, _⟩ => show j.val = 0 + (win0_5.index t 1 * 288 + 1 * j.val); rw [hi.2]; omega

/-! ## The accumulator biases: a vector of 288 as a one-row matrix, whole at every point -/

/-- Window 6's block index at grid point `t`. -/
theorem idx6 : ∀ t : Fin grid0.N, win0_6.index t 0 = 0 ∧ win0_6.index t 1 = 0 := by
  decide +kernel

/-- The white-side accumulator bias as a one-row matrix, as the region finds it. -/
theorem V_v8 (c : Dev nD) : (V m c main_v8 : S1x288.Idx → EReal)
    = shapeCast S1x288 (m ((c : Thread nD τ).loc main_arg4)) shapeCasts_S288_S1x288 := by
  dsimp only [Gen.V, Gen.hostOps0]
  after_results
  rfl

/-- The white-side accumulator bias window's block, read at (0, j), is the bias vector's entry `j`. -/
theorem blk6 (c : Dev nD) (t : Fin cfg0.N) (j : Fin 288) :
    (iblk m c 6 t : Vec Ideal S1x288 .f32) (ix2 0 j) = m ((c : Thread nD τ).loc main_arg4) (ix1 j) := by
  have hi := idx6 t
  unfold iblk
  rw [View.read_apply]
  show (V m c main_v8 : S1x288.Idx → EReal) _ = _
  rw [V_v8]
  refine shapeCast_apply (s := S288) (t := S1x288) _ _ _ (ix1 j) ?_
  rw [Shape.rowMajor_val_two, Shape.rowMajor_val_one]
  show j.val = (win0_6.index t 0 * 1 + 1 * 0) * 288 + (win0_6.index t 1 * 288 + 1 * j.val)
  rw [hi.1, hi.2]; omega

/-- Window 7's block index at grid point `t`. -/
theorem idx7 : ∀ t : Fin grid0.N, win0_7.index t 0 = 0 ∧ win0_7.index t 1 = 0 := by
  decide +kernel

/-- The black-side accumulator bias as a one-row matrix, as the region finds it. -/
theorem V_v9 (c : Dev nD) : (V m c main_v9 : S1x288.Idx → EReal)
    = shapeCast S1x288 (m ((c : Thread nD τ).loc main_arg6)) shapeCasts_S288_S1x288 := by
  dsimp only [Gen.V, Gen.hostOps0]
  after_results
  rfl

/-- The black-side accumulator bias window's block, read at (0, j), is the bias vector's entry `j`. -/
theorem blk7 (c : Dev nD) (t : Fin cfg0.N) (j : Fin 288) :
    (iblk m c 7 t : Vec Ideal S1x288 .f32) (ix2 0 j) = m ((c : Thread nD τ).loc main_arg6) (ix1 j) := by
  have hi := idx7 t
  unfold iblk
  rw [View.read_apply]
  show (V m c main_v9 : S1x288.Idx → EReal) _ = _
  rw [V_v9]
  refine shapeCast_apply (s := S288) (t := S1x288) _ _ _ (ix1 j) ?_
  rw [Shape.rowMajor_val_two, Shape.rowMajor_val_one]
  show j.val = (win0_7.index t 0 * 1 + 1 * 0) * 288 + (win0_7.index t 1 * 288 + 1 * j.val)
  rw [hi.1, hi.2]; omega

/-! ## The side to move: rows 1024 i … of a [4096, 1] column -/

/-- Window 8's block index at grid point `t`. -/
theorem idx8 : ∀ t : Fin grid0.N, win0_8.index t 0 = t.val / 16 ∧ win0_8.index t 1 = 0 := by
  decide +kernel

/-- The side-to-move block at point `t`, read at (r, 0), is the column's entry at row `1024 (t / 16) + r`. -/
theorem blk8 (c : Dev nD) (t : Fin cfg0.N) (r : Fin 1024) :
    (iblk m c 8 t : Vec Ideal S1024x1 .f32) (ix2 r 0)
      = m ((c : Thread nD τ).loc main_arg0) (ix2 ⟨1024 * (t.val / 16) + r.val, row_lt t r⟩ 0) := by
  have hi := idx8 t
  unfold iblk
  rw [View.read_apply]
  show V m c main_arg0 _ = _
  rw [V_main_arg0]
  congr 1
  funext a
  apply Fin.ext
  match a with
  | ⟨0, _⟩ => show win0_8.index t 0 * 1024 + 1 * r.val = 1024 * (t.val / 16) + r.val; rw [hi.1]; omega
  | ⟨1, _⟩ => show win0_8.index t 1 * 1 + 1 * 0 = 0; rw [hi.2]

/-! ## The head's weights and biases: whole at every point -/

/-- Window 9's block index at grid point `t`. -/
theorem idx9 : ∀ t : Fin grid0.N, win0_9.index t 0 = 0 ∧ win0_9.index t 1 = 0 := by
  decide +kernel

/-- The skip weights' block, read at (k, 0), is the [576, 1] column's entry `k`. -/
theorem blk9 (c : Dev nD) (t : Fin cfg0.N) (k : Fin 576) :
    (iblk m c 9 t : Vec Ideal S576x1 .f32) (ix2 k 0)
      = m ((c : Thread nD τ).loc main_arg7) (ix2 k 0) := by
  have hi := idx9 t
  unfold iblk
  rw [View.read_apply]
  show V m c main_arg7 _ = _
  rw [V_main_arg7]
  congr 1
  funext a
  apply Fin.ext
  match a with
  | ⟨0, _⟩ => show win0_9.index t 0 * 576 + 1 * k.val = k.val; rw [hi.1]; omega
  | ⟨1, _⟩ => show win0_9.index t 1 * 1 + 1 * 0 = 0; rw [hi.2]

/-- Window 10's block index at grid point `t`. -/
theorem idx10 : ∀ t : Fin grid0.N, win0_10.index t 0 = 0 ∧ win0_10.index t 1 = 0 := by
  decide +kernel

/-- The skip bias as a one-by-one matrix, as the region finds it. -/
theorem V_v10 (c : Dev nD) : (V m c main_v10 : S1x1.Idx → EReal)
    = shapeCast S1x1 (m ((c : Thread nD τ).loc main_arg8)) shapeCasts_S1_S1x1 := by
  dsimp only [Gen.V, Gen.hostOps0]
  after_results
  rfl

/-- The skip bias window's block, read at (0, 0), is the bias's one entry. -/
theorem blk10 (c : Dev nD) (t : Fin cfg0.N) :
    (iblk m c 10 t : Vec Ideal S1x1 .f32) (ix2 0 0) = m ((c : Thread nD τ).loc main_arg8) (ix1 0) := by
  have hi := idx10 t
  unfold iblk
  rw [View.read_apply]
  show (V m c main_v10 : S1x1.Idx → EReal) _ = _
  rw [V_v10]
  refine shapeCast_apply (s := S1) (t := S1x1) _ _ _ (ix1 0) ?_
  rw [Shape.rowMajor_val_two, Shape.rowMajor_val_one]
  show 0 = (win0_10.index t 0 * 1 + 1 * 0) * 1 + (win0_10.index t 1 * 1 + 1 * 0)
  rw [hi.1, hi.2]

/-- Window 11's block index at grid point `t`. -/
theorem idx11 : ∀ t : Fin grid0.N, win0_11.index t 0 = 0 ∧ win0_11.index t 1 = 0 := by
  decide +kernel

/-- The first layer's weights' block, read at (k, n), is the [576, 32] matrix's entry (k, n). -/
theorem blk11 (c : Dev nD) (t : Fin cfg0.N) (k : Fin 576) (n : Fin 32) :
    (iblk m c 11 t : Vec Ideal S576x32 .f32) (ix2 k n)
      = m ((c : Thread nD τ).loc main_arg9) (ix2 k n) := by
  have hi := idx11 t
  unfold iblk
  rw [View.read_apply]
  show V m c main_arg9 _ = _
  rw [V_main_arg9]
  congr 1
  funext a
  apply Fin.ext
  match a with
  | ⟨0, _⟩ => show win0_11.index t 0 * 576 + 1 * k.val = k.val; rw [hi.1]; omega
  | ⟨1, _⟩ => show win0_11.index t 1 * 32 + 1 * n.val = n.val; rw [hi.2]; omega

/-- Window 12's block index at grid point `t`. -/
theorem idx12 : ∀ t : Fin grid0.N, win0_12.index t 0 = 0 ∧ win0_12.index t 1 = 0 := by
  decide +kernel

/-- The first layer's bias as a one-row matrix, as the region finds it. -/
theorem V_v11 (c : Dev nD) : (V m c main_v11 : S1x32.Idx → EReal)
    = shapeCast S1x32 (m ((c : Thread nD τ).loc main_arg10)) shapeCasts_S32_S1x32 := by
  dsimp only [Gen.V, Gen.hostOps0]
  after_results
  rfl

/-- The first layer's bias window's block, read at (0, n), is the bias vector's entry `n`. -/
theorem blk12 (c : Dev nD) (t : Fin cfg0.N) (n : Fin 32) :
    (iblk m c 12 t : Vec Ideal S1x32 .f32) (ix2 0 n) = m ((c : Thread nD τ).loc main_arg10) (ix1 n) := by
  have hi := idx12 t
  unfold iblk
  rw [View.read_apply]
  show (V m c main_v11 : S1x32.Idx → EReal) _ = _
  rw [V_v11]
  refine shapeCast_apply (s := S32) (t := S1x32) _ _ _ (ix1 n) ?_
  rw [Shape.rowMajor_val_two, Shape.rowMajor_val_one]
  show n.val = (win0_12.index t 0 * 1 + 1 * 0) * 32 + (win0_12.index t 1 * 32 + 1 * n.val)
  rw [hi.1, hi.2]; omega

/-- Window 13's block index at grid point `t`. -/
theorem idx13 : ∀ t : Fin grid0.N, win0_13.index t 0 = 0 ∧ win0_13.index t 1 = 0 := by
  decide +kernel

/-- The second layer's weights' block, read at (k, n), is the [32, 32] matrix's entry (k, n). -/
theorem blk13 (c : Dev nD) (t : Fin cfg0.N) (k n : Fin 32) :
    (iblk m c 13 t : Vec Ideal S32x32 .f32) (ix2 k n)
      = m ((c : Thread nD τ).loc main_arg11) (ix2 k n) := by
  have hi := idx13 t
  unfold iblk
  rw [View.read_apply]
  show V m c main_arg11 _ = _
  rw [V_main_arg11]
  congr 1
  funext a
  apply Fin.ext
  match a with
  | ⟨0, _⟩ => show win0_13.index t 0 * 32 + 1 * k.val = k.val; rw [hi.1]; omega
  | ⟨1, _⟩ => show win0_13.index t 1 * 32 + 1 * n.val = n.val; rw [hi.2]; omega

/-- Window 14's block index at grid point `t`. -/
theorem idx14 : ∀ t : Fin grid0.N, win0_14.index t 0 = 0 ∧ win0_14.index t 1 = 0 := by
  decide +kernel

/-- The second layer's bias as a one-row matrix, as the region finds it. -/
theorem V_v12 (c : Dev nD) : (V m c main_v12 : S1x32.Idx → EReal)
    = shapeCast S1x32 (m ((c : Thread nD τ).loc main_arg12)) shapeCasts_S32_S1x32 := by
  dsimp only [Gen.V, Gen.hostOps0]
  after_results
  rfl

/-- The second layer's bias window's block, read at (0, n), is the bias vector's entry `n`. -/
theorem blk14 (c : Dev nD) (t : Fin cfg0.N) (n : Fin 32) :
    (iblk m c 14 t : Vec Ideal S1x32 .f32) (ix2 0 n) = m ((c : Thread nD τ).loc main_arg12) (ix1 n) := by
  have hi := idx14 t
  unfold iblk
  rw [View.read_apply]
  show (V m c main_v12 : S1x32.Idx → EReal) _ = _
  rw [V_v12]
  refine shapeCast_apply (s := S32) (t := S1x32) _ _ _ (ix1 n) ?_
  rw [Shape.rowMajor_val_two, Shape.rowMajor_val_one]
  show n.val = (win0_14.index t 0 * 1 + 1 * 0) * 32 + (win0_14.index t 1 * 32 + 1 * n.val)
  rw [hi.1, hi.2]; omega

/-- Window 15's block index at grid point `t`. -/
theorem idx15 : ∀ t : Fin grid0.N, win0_15.index t 0 = 0 ∧ win0_15.index t 1 = 0 := by
  decide +kernel

/-- The output layer's weights' block, read at (k, 0), is the [32, 1] column's entry `k`. -/
theorem blk15 (c : Dev nD) (t : Fin cfg0.N) (k : Fin 32) :
    (iblk m c 15 t : Vec Ideal S32x1 .f32) (ix2 k 0)
      = m ((c : Thread nD τ).loc main_arg13) (ix2 k 0) := by
  have hi := idx15 t
  unfold iblk
  rw [View.read_apply]
  show V m c main_arg13 _ = _
  rw [V_main_arg13]
  congr 1
  funext a
  apply Fin.ext
  match a with
  | ⟨0, _⟩ => show win0_15.index t 0 * 32 + 1 * k.val = k.val; rw [hi.1]; omega
  | ⟨1, _⟩ => show win0_15.index t 1 * 1 + 1 * 0 = 0; rw [hi.2]

/-- Window 16's block index at grid point `t`. -/
theorem idx16 : ∀ t : Fin grid0.N, win0_16.index t 0 = 0 ∧ win0_16.index t 1 = 0 := by
  decide +kernel

/-- The output bias as a one-by-one matrix, as the region finds it. -/
theorem V_v13 (c : Dev nD) : (V m c main_v13 : S1x1.Idx → EReal)
    = shapeCast S1x1 (m ((c : Thread nD τ).loc main_arg14)) shapeCasts_S1_S1x1 := by
  dsimp only [Gen.V, Gen.hostOps0]
  after_results
  rfl

/-- The output bias window's block, read at (0, 0), is the bias's one entry. -/
theorem blk16 (c : Dev nD) (t : Fin cfg0.N) :
    (iblk m c 16 t : Vec Ideal S1x1 .f32) (ix2 0 0) = m ((c : Thread nD τ).loc main_arg14) (ix1 0) := by
  have hi := idx16 t
  unfold iblk
  rw [View.read_apply]
  show (V m c main_v13 : S1x1.Idx → EReal) _ = _
  rw [V_v13]
  refine shapeCast_apply (s := S1) (t := S1x1) _ _ _ (ix1 0) ?_
  rw [Shape.rowMajor_val_two, Shape.rowMajor_val_one]
  show 0 = (win0_16.index t 0 * 1 + 1 * 0) * 1 + (win0_16.index t 1 * 1 + 1 * 0)
  rw [hi.1, hi.2]

end
end Cert.KernelIdeal.Blocks
-- ==== Proof.Spec.lean ====
/-
  The network both programs compute, row by row over the extended reals.

  A batch row's two accumulator rows are  w = [white; black] · Ww + bw  and  b = [black; white] · Wb + bb
  (each entry a sum over the 40960 joined features).  The 576 activations are
  max (p · [w; b] + (1 - p) · [b; w], 0)  with p the row's side to move, and the output is
  (relu (relu (base · W0 + b0) · W1 + b1) · W2 + b2) + (base · Ws + bs).

  One side sums the 40960 features in one go; the other sums sixteen blocks of 1280 features of each colour and
  adds the two colours block by block.  Addition of extended reals is commutative and associative, so the two
  arrangements agree (`featRowBlocks_eq`); no finiteness is needed.
-/
import Idealize.ShloMosaic.Lib.ValueIdx
import Mathlib.Algebra.BigOperators.Intervals
import Mathlib.Data.EReal.Basic

noncomputable section

namespace Cert.Nnue

open Idealize.ShloMosaic Idealize.ShloMosaic.ValueIdx

/-- A rank-2 array of extended reals with literal extents. -/
abbrev A2 (a b : ℕ) : Type := (⟨2, ![a, b]⟩ : Shape).Idx → EReal
/-- A rank-1 array of extended reals with a literal extent. -/
abbrev A1 (a : ℕ) : Type := (⟨1, ![a]⟩ : Shape).Idx → EReal

/-- Row `R` of a matrix as a function of the natural column number (zero past the end). -/
def rowOf {a b : ℕ} (x : A2 a b) (R : Fin a) (q : ℕ) : EReal := if h : q < b then x (ix2 R ⟨q, h⟩) else 0
/-- Column `j` of a matrix as a function of the natural row number (zero past the end). -/
def colOf {a b : ℕ} (x : A2 a b) (j : Fin b) (q : ℕ) : EReal := if h : q < a then x (ix2 ⟨q, h⟩ j) else 0

/-- One accumulator entry, summed in one go: the joined feature row `[a; b]` against a weight column. -/
def featRow (a b W : ℕ → EReal) : EReal :=
  ∑ q ∈ Finset.range 40960, (if q < 20480 then a q else b (q - 20480)) * W q

/-- The same entry summed block by block: sixteen blocks of 1280 features, in each block colour `a` against the
    upper half of the weight column plus colour `b` against the lower half. -/
def featRowBlocks (a b W : ℕ → EReal) : EReal :=
  ∑ s ∈ Finset.range 16, ((∑ l ∈ Finset.range 1280, a (1280 * s + l) * W (1280 * s + l))
    + (∑ l ∈ Finset.range 1280, b (1280 * s + l) * W (20480 + (1280 * s + l))))

/-- A sum over a range cut into equal blocks is the sum over the blocks of each block's sum. -/
theorem sum_blocks {M : Type*} [AddCommMonoid M] (f : ℕ → M) (n b : ℕ) :
    ∑ s ∈ Finset.range n, ∑ l ∈ Finset.range b, f (b * s + l) = ∑ q ∈ Finset.range (b * n), f q := by
  induction n with
  | zero => simp
  | succ n ih => rw [Finset.sum_range_succ, ih, Nat.mul_succ, Finset.sum_range_add]

/-- Summing block by block and colour by colour is summing the joined row in one go: only commutativity and
    associativity of addition are used, which hold on the extended reals without any finiteness. -/
theorem featRowBlocks_eq (a b W : ℕ → EReal) : featRowBlocks a b W = featRow a b W := by
  have e1 : (1280 * 16 : ℕ) = 20480 := by norm_num
  have e2 : (40960 : ℕ) = 20480 + 20480 := by norm_num
  unfold featRowBlocks featRow
  rw [Finset.sum_add_distrib, sum_blocks (fun q => a q * W q) 16 1280,
    sum_blocks (fun q => b q * W (20480 + q)) 16 1280, e1, e2, Finset.sum_range_add]
  refine congrArg₂ (· + ·) ?_ ?_
  · exact Finset.sum_congr rfl fun q hq => by rw [if_pos (Finset.mem_range.1 hq)]
  · exact Finset.sum_congr rfl fun q _ => by
      rw [if_neg (by omega), show 20480 + q - 20480 = q from by omega]

section Head

variable (one zero : EReal)

/-- One activation: the side-to-move mix of the two perspectives, clamped below at `zero`. -/
def mixAt (p x y : EReal) : EReal := max (p * x + (one - p) * y) zero

/-- The 576 activations of a row: entries below 288 mix `(w, b)`, the others `(b, w)`. -/
def baseRow (p : EReal) (w b : Fin 288 → EReal) (k : Fin 576) : EReal :=
  if h : k.val < 288 then mixAt one zero p (w ⟨k.val, h⟩) (b ⟨k.val, h⟩)
  else mixAt one zero p (b ⟨k.val - 288, by have := k.isLt; omega⟩) (w ⟨k.val - 288, by have := k.isLt; omega⟩)

/-- The row's output: the three-layer head plus the skip connection. -/
def headRow (p : EReal) (w b : Fin 288 → EReal) (Ws : Fin 576 → EReal) (bs : EReal)
    (W0 : Fin 576 → Fin 32 → EReal) (b0 : Fin 32 → EReal) (W1 : Fin 32 → Fin 32 → EReal) (b1 : Fin 32 → EReal)
    (W2 : Fin 32 → EReal) (b2 : EReal) : EReal :=
  ((∑ k : Fin 32,
      max ((∑ k' : Fin 32, max ((∑ k'' : Fin 576, baseRow one zero p w b k'' * W0 k'' k') + b0 k') zero * W1 k' k) + b1 k) zero
        * W2 k) + b2)
    + ((∑ k : Fin 576, baseRow one zero p w b k * Ws k) + bs)

/-- The whole result array as one function of the fifteen argument arrays. -/
def G (pov : A2 4096 1) (white black : A2 4096 20480) (Ww : A2 40960 288) (bw : A1 288) (Wb : A2 40960 288) (bb : A1 288)
    (Ws : A2 576 1) (bs : A1 1) (W0 : A2 576 32) (b0 : A1 32) (W1 : A2 32 32) (b1 : A1 32) (W2 : A2 32 1) (b2 : A1 1) :
    A2 4096 1 := fun i =>
  headRow one zero (pov (ix2 (i 0) 0))
    (fun j => featRow (rowOf white (i 0)) (rowOf black (i 0)) (colOf Ww j) + bw (ix1 j))
    (fun j => featRow (rowOf black (i 0)) (rowOf white (i 0)) (colOf Wb j) + bb (ix1 j))
    (fun k => Ws (ix2 k 0)) (bs (ix1 0)) (fun k n => W0 (ix2 k n)) (fun n => b0 (ix1 n))
    (fun k n => W1 (ix2 k n)) (fun n => b1 (ix1 n)) (fun k => W2 (ix2 k 0)) (b2 (ix1 0))

end Head

end Cert.Nnue

end
-- ==== Proof.KFold.lean ====
/-
  What the two carried accumulators hold after every grid point.

  Grid point t = 16 q + s works on batch rows 1024 q … 1024 q + 1023 and on feature block s (features
  1280 s … 1280 s + 1279 of each colour).  At s = 0 the accumulators are reset to zero and the block's products added;
  at every later s the block's products are added to what the point before left.  So after point t the first
  accumulator holds, at row r and column j,  0 + Σ_{s' ≤ s} (white-block s' · upper half of Ww + black-block s' · lower
  half of Ww), and the second the same with the colours exchanged and Wb in place of Ww.
-/
import proofs.«109908_j80092550135974_1_alg».proof.Proof.Gen.KernelIdeal.Value
import proofs.«109908_j80092550135974_1_alg».proof.Proof.KPieces
import proofs.«109908_j80092550135974_1_alg».proof.Proof.KStep
import proofs.«109908_j80092550135974_1_alg».proof.Proof.KBlocks
import proofs.«109908_j80092550135974_1_alg».proof.Proof.Spec
import Idealize.ShloMosaic.Lib.Pipeline.Value

noncomputable section

namespace Cert.KernelIdeal.Fold

open Cert.KernelIdeal Cert.KernelIdeal.Gen Cert.KernelIdeal.Value Idealize.ShloMosaic Idealize.ShloMosaic.TcCoe Idealize.SL.Sem
open Idealize.ShloMosaic.ValueIdx Cert.Nnue

variable (m : (ℓ : Loc nD τ sig) → Buf (Elt Ideal) ℓ)

/-- The windows' blocks at a grid point, at their literal vector types. -/
abbrev xb0 (c : Dev nD) (t : Fin cfg0.N) : Vec Ideal S1024x1280 .f32 := iblk m c 0 t
abbrev xb1 (c : Dev nD) (t : Fin cfg0.N) : Vec Ideal S1024x1280 .f32 := iblk m c 1 t
abbrev xb2 (c : Dev nD) (t : Fin cfg0.N) : Vec Ideal S1280x288 .bf16 := iblk m c 2 t
abbrev xb3 (c : Dev nD) (t : Fin cfg0.N) : Vec Ideal S1280x288 .bf16 := iblk m c 3 t
abbrev xb4 (c : Dev nD) (t : Fin cfg0.N) : Vec Ideal S1280x288 .bf16 := iblk m c 4 t
abbrev xb5 (c : Dev nD) (t : Fin cfg0.N) : Vec Ideal S1280x288 .bf16 := iblk m c 5 t

/-- The argument arrays as plain arrays of extended reals. -/
abbrev aWhite (c : Dev nD) : A2 4096 20480 := m ((c : Thread nD τ).loc main_arg1)
abbrev aBlack (c : Dev nD) : A2 4096 20480 := m ((c : Thread nD τ).loc main_arg2)
abbrev aWw (c : Dev nD) : A2 40960 288 := m ((c : Thread nD τ).loc main_arg3)
abbrev aWb (c : Dev nD) : A2 40960 288 := m ((c : Thread nD τ).loc main_arg5)

/-- Entry (1024 q + r, col) of a [4096, 20480] array by natural numbers (zero outside the array). -/
def tileRow (x : A2 4096 20480) (q r col : ℕ) : EReal :=
  if h : 1024 * q + r < 4096 ∧ col < 20480 then x (ix2 ⟨1024 * q + r, h.1⟩ ⟨col, h.2⟩) else 0

/-- Entry (row, j) of a [40960, 288] array by natural numbers (zero outside the array). -/
def colN (W : A2 40960 288) (j row : ℕ) : EReal :=
  if h : row < 40960 ∧ j < 288 then W (ix2 ⟨row, h.1⟩ ⟨j, h.2⟩) else 0

theorem tileRow_eq (x : A2 4096 20480) (q : ℕ) (r : Fin 1024) (hq : q < 4) :
    tileRow x q r.val = rowOf x ⟨1024 * q + r.val, by have := r.isLt; omega⟩ := by
  funext col
  have hr := r.isLt
  unfold tileRow rowOf
  by_cases h : col < 20480
  · rw [dif_pos ⟨by omega, h⟩, dif_pos h]
  · rw [dif_neg (fun h' => h h'.2), dif_neg h]

theorem colN_eq (W : A2 40960 288) (j : Fin 288) : colN W j.val = colOf W j := by
  funext row
  unfold colN colOf
  by_cases h : row < 40960
  · rw [dif_pos ⟨h, j.isLt⟩, dif_pos h]
  · rw [dif_neg (fun h' => h h'.1), dif_neg h]

/-- Feature block `s`'s contribution to the accumulator entry (r, j) of row tile `q`: colour `a` against the upper
    half of the weight column, colour `b` against the lower half. -/
def blockTerm (a b : A2 4096 20480) (W : A2 40960 288) (q s r j : ℕ) : EReal :=
  (∑ l ∈ Finset.range 1280, tileRow a q r (1280 * s + l) * colN W j (1280 * s + l))
    + (∑ l ∈ Finset.range 1280, tileRow b q r (1280 * s + l) * colN W j (20480 + (1280 * s + l)))

theorem lt64 (t : Fin cfg0.N) : t.val < 64 := lt_of_lt_of_eq t.isLt (show cfg0.N = 64 from N_0)

/-- The products the first accumulator adds at point `t`, as feature block `t % 16` of row tile `t / 16`. -/
theorem pointW (c : Dev nD) (t : Fin cfg0.N) (r : Fin 1024) (j : Fin 288) :
    (∑ l : Fin 1280, xb0 m c t (ix2 r l) * xb2 m c t (ix2 l j)) + (∑ l : Fin 1280, xb1 m c t (ix2 r l) * xb3 m c t (ix2 l j))
      = blockTerm (aWhite m c) (aBlack m c) (aWw m c) (t.val / 16) (t.val % 16) r.val j.val := by
  have ht := lt64 t
  unfold blockTerm
  rw [Finset.sum_range, Finset.sum_range]
  refine congrArg₂ (· + ·) (Finset.sum_congr rfl fun l _ => ?_) (Finset.sum_congr rfl fun l _ => ?_)
  · have hl := l.isLt
    have e0 : xb0 m c t (ix2 r l) = _ := Blocks.blk0 m c t r l
    have e1 : xb2 m c t (ix2 l j) = _ := Blocks.blk2 m c t l j
    rw [e0, e1]
    unfold tileRow colN
    rw [dif_pos ⟨by omega, by omega⟩, dif_pos ⟨by omega, j.isLt⟩]
  · have hl := l.isLt
    have e0 : xb1 m c t (ix2 r l) = _ := Blocks.blk1 m c t r l
    have e1 : xb3 m c t (ix2 l j) = _ := Blocks.blk3 m c t l j
    rw [e0, e1]
    unfold tileRow colN
    rw [dif_pos ⟨by omega, by omega⟩, dif_pos ⟨by omega, j.isLt⟩]

/-- The products the second accumulator adds at point `t`: the colours exchanged, against `Wb`. -/
theorem pointB (c : Dev nD) (t : Fin cfg0.N) (r : Fin 1024) (j : Fin 288) :
    (∑ l : Fin 1280, xb1 m c t (ix2 r l) * xb4 m c t (ix2 l j)) + (∑ l : Fin 1280, xb0 m c t (ix2 r l) * xb5 m c t (ix2 l j))
      = blockTerm (aBlack m c) (aWhite m c) (aWb m c) (t.val / 16) (t.val % 16) r.val j.val := by
  have ht := lt64 t
  unfold blockTerm
  rw [Finset.sum_range, Finset.sum_range]
  refine congrArg₂ (· + ·) (Finset.sum_congr rfl fun l _ => ?_) (Finset.sum_congr rfl fun l _ => ?_)
  · have hl := l.isLt
    have e0 : xb1 m c t (ix2 r l) = _ := Blocks.blk1 m c t r l
    have e1 : xb4 m c t (ix2 l j) = _ := Blocks.blk4 m c t l j
    rw [e0, e1]
    unfold tileRow colN
    rw [dif_pos ⟨by omega, by omega⟩, dif_pos ⟨by omega, j.isLt⟩]
  · have hl := l.isLt
    have e0 : xb0 m c t (ix2 r l) = _ := Blocks.blk0 m c t r l
    have e1 : xb5 m c t (ix2 l j) = _ := Blocks.blk5 m c t l j
    rw [e0, e1]
    unfold tileRow colN
    rw [dif_pos ⟨by omega, by omega⟩, dif_pos ⟨by omega, j.isLt⟩]

/-- The junk a never-written scratch reads back (what the reset overwrites). -/
abbrev junk0 : Vec Ideal S1024x288 .f32 := VS0_0.read (Elt Ideal) VS0_0.junk
abbrev junk1 : Vec Ideal S1024x288 .f32 := VS0_1.read (Elt Ideal) VS0_1.junk

/-- A point that resets (feature block 0) leaves `0 +` its block's products in the first accumulator. -/
theorem sc0_reset (c : Dev nD) (n : ℕ) (hb : n < cfg0.N) (acc : Vec Ideal S1024x288 .f32) (h0 : n % 16 = 0) (r : Fin 1024) (j : Fin 288) :
    scAt0_0 m c n hb acc (ix2 r j) = 0 + blockTerm (aWhite m c) (aBlack m c) (aWw m c) (n / 16) (n % 16) r.val j.val := by
  have h1 : ¬n % 16 = 15 := by omega
  unfold scAt0_0
  rw [dif_pos h0, dif_neg h1]
  refine (congrFun (Pieces.sout_A_0 (F := Ideal) ..) (ix2 r j)).trans ?_
  refine (StepValue.stepW_apply (xb0 m c ⟨n, hb⟩) (xb1 m c ⟨n, hb⟩) (k0_pay6 (F := Ideal)) (xb2 m c ⟨n, hb⟩) (xb3 m c ⟨n, hb⟩) r j).trans ?_
  rw [StepValue.zeroW_apply]
  exact congrArg (0 + ·) (pointW m c ⟨n, hb⟩ r j)

/-- Every other point adds its block's products to what the point before left in the first accumulator. -/
theorem sc0_step (c : Dev nD) (n : ℕ) (hb : n < cfg0.N) (acc : Vec Ideal S1024x288 .f32) (h0 : ¬n % 16 = 0) (r : Fin 1024) (j : Fin 288) :
    scAt0_0 m c n hb acc (ix2 r j) = acc (ix2 r j) + blockTerm (aWhite m c) (aBlack m c) (aWw m c) (n / 16) (n % 16) r.val j.val := by
  unfold scAt0_0
  by_cases h1 : n % 16 = 15
  · rw [dif_neg h0, dif_pos h1]
    refine (congrFun (Pieces.sout_C_0 (F := Ideal) ..) (ix2 r j)).trans ?_
    refine (StepValue.stepW_apply (xb0 m c ⟨n, hb⟩) (xb1 m c ⟨n, hb⟩) acc (xb2 m c ⟨n, hb⟩) (xb3 m c ⟨n, hb⟩) r j).trans ?_
    exact congrArg (acc (ix2 r j) + ·) (pointW m c ⟨n, hb⟩ r j)
  · rw [dif_neg h0, dif_neg h1]
    refine (congrFun (Pieces.sout_B_0 (F := Ideal) ..) (ix2 r j)).trans ?_
    refine (StepValue.stepW_apply (xb0 m c ⟨n, hb⟩) (xb1 m c ⟨n, hb⟩) acc (xb2 m c ⟨n, hb⟩) (xb3 m c ⟨n, hb⟩) r j).trans ?_
    exact congrArg (acc (ix2 r j) + ·) (pointW m c ⟨n, hb⟩ r j)

theorem sc1_reset (c : Dev nD) (n : ℕ) (hb : n < cfg0.N) (acc : Vec Ideal S1024x288 .f32) (h0 : n % 16 = 0) (r : Fin 1024) (j : Fin 288) :
    scAt0_1 m c n hb acc (ix2 r j) = 0 + blockTerm (aBlack m c) (aWhite m c) (aWb m c) (n / 16) (n % 16) r.val j.val := by
  have h1 : ¬n % 16 = 15 := by omega
  unfold scAt0_1
  rw [dif_pos h0, dif_neg h1]
  refine (congrFun (Pieces.sout_A_1 (F := Ideal) ..) (ix2 r j)).trans ?_
  refine (StepValue.stepB_apply (xb0 m c ⟨n, hb⟩) (xb1 m c ⟨n, hb⟩) (k0_pay7 (F := Ideal)) (xb4 m c ⟨n, hb⟩) (xb5 m c ⟨n, hb⟩) r j).trans ?_
  rw [StepValue.zeroB_apply]
  exact congrArg (0 + ·) (pointB m c ⟨n, hb⟩ r j)

theorem sc1_step (c : Dev nD) (n : ℕ) (hb : n < cfg0.N) (acc : Vec Ideal S1024x288 .f32) (h0 : ¬n % 16 = 0) (r : Fin 1024) (j : Fin 288) :
    scAt0_1 m c n hb acc (ix2 r j) = acc (ix2 r j) + blockTerm (aBlack m c) (aWhite m c) (aWb m c) (n / 16) (n % 16) r.val j.val := by
  unfold scAt0_1
  by_cases h1 : n % 16 = 15
  · rw [dif_neg h0, dif_pos h1]
    refine (congrFun (Pieces.sout_C_1 (F := Ideal) ..) (ix2 r j)).trans ?_
    refine (StepValue.stepB_apply (xb0 m c ⟨n, hb⟩) (xb1 m c ⟨n, hb⟩) acc (xb4 m c ⟨n, hb⟩) (xb5 m c ⟨n, hb⟩) r j).trans ?_
    exact congrArg (acc (ix2 r j) + ·) (pointB m c ⟨n, hb⟩ r j)
  · rw [dif_neg h0, dif_neg h1]
    refine (congrFun (Pieces.sout_B_1 (F := Ideal) ..) (ix2 r j)).trans ?_
    refine (StepValue.stepB_apply (xb0 m c ⟨n, hb⟩) (xb1 m c ⟨n, hb⟩) acc (xb4 m c ⟨n, hb⟩) (xb5 m c ⟨n, hb⟩) r j).trans ?_
    exact congrArg (acc (ix2 r j) + ·) (pointB m c ⟨n, hb⟩ r j)

/-- THE FIRST ACCUMULATOR after point `t`: zero plus the products of feature blocks `0 … t % 16` of row tile `t / 16`. -/
theorem accW_fold (c : Dev nD) (t : Fin cfg0.N) (r : Fin 1024) (j : Fin 288) :
    ((outsAt0 m c t.val t.isLt).2.1 : Vec Ideal S1024x288 .f32) (ix2 r j)
      = 0 + ∑ s ∈ Finset.range (t.val % 16 + 1), blockTerm (aWhite m c) (aBlack m c) (aWw m c) (t.val / 16) s r.val j.val := by
  have ht := lt64 t
  rw [soutsAt0_0_eq m c t]
  have key := Pipeline.accAt_add_apply (N := cfg0.N) (ι := S1024x288.Idx) (β := EReal)
    (fun n h => scAt0_0 m c n h (junk0)) (scAt0_0 m c) (fun _ => 0)
    (fun n i => blockTerm (aWhite m c) (aBlack m c) (aWw m c) (t.val / 16) (n - 16 * (t.val / 16)) (i 0).val (i 1).val) (16 * (t.val / 16)) 15
    (fun h i => by
      obtain ⟨r', j', rfl⟩ : ∃ (r' : Fin 1024) (j' : Fin 288), i = ix2 r' j' := ⟨i 0, i 1, eq_ix2 i⟩
      have e := sc0_reset m c (16 * (t.val / 16)) h junk0 (Nat.mul_mod_right 16 _) r' j'
      rw [Nat.mul_div_cancel_left _ (by norm_num : 0 < 16), Nat.mul_mod_right] at e
      rw [Nat.sub_self]
      exact e)
    (fun n h acc i hlo hhi => by
      obtain ⟨r', j', rfl⟩ : ∃ (r' : Fin 1024) (j' : Fin 288), i = ix2 r' j' := ⟨i 0, i 1, eq_ix2 i⟩
      have e := sc0_step m c n h acc (by omega) r' j'
      rw [show n / 16 = t.val / 16 from by omega, show n % 16 = n - 16 * (t.val / 16) from by omega] at e
      exact e)
    (t.val % 16) (by omega) (by have := Nat.div_add_mod t.val 16; omega) (ix2 r j)
  refine key.trans (congrArg (0 + ·) (Finset.sum_congr rfl fun s _ => ?_))
  rw [Nat.add_sub_cancel_left]

/-- THE SECOND ACCUMULATOR after point `t`: the same with the colours exchanged, against `Wb`. -/
theorem accB_fold (c : Dev nD) (t : Fin cfg0.N) (r : Fin 1024) (j : Fin 288) :
    ((outsAt0 m c t.val t.isLt).2.2 : Vec Ideal S1024x288 .f32) (ix2 r j)
      = 0 + ∑ s ∈ Finset.range (t.val % 16 + 1), blockTerm (aBlack m c) (aWhite m c) (aWb m c) (t.val / 16) s r.val j.val := by
  have ht := lt64 t
  rw [soutsAt0_1_eq m c t]
  have key := Pipeline.accAt_add_apply (N := cfg0.N) (ι := S1024x288.Idx) (β := EReal)
    (fun n h => scAt0_1 m c n h (junk1)) (scAt0_1 m c) (fun _ => 0)
    (fun n i => blockTerm (aBlack m c) (aWhite m c) (aWb m c) (t.val / 16) (n - 16 * (t.val / 16)) (i 0).val (i 1).val) (16 * (t.val / 16)) 15
    (fun h i => by
      obtain ⟨r', j', rfl⟩ : ∃ (r' : Fin 1024) (j' : Fin 288), i = ix2 r' j' := ⟨i 0, i 1, eq_ix2 i⟩
      have e := sc1_reset m c (16 * (t.val / 16)) h junk1 (Nat.mul_mod_right 16 _) r' j'
      rw [Nat.mul_div_cancel_left _ (by norm_num : 0 < 16), Nat.mul_mod_right] at e
      rw [Nat.sub_self]
      exact e)
    (fun n h acc i hlo hhi => by
      obtain ⟨r', j', rfl⟩ : ∃ (r' : Fin 1024) (j' : Fin 288), i = ix2 r' j' := ⟨i 0, i 1, eq_ix2 i⟩
      have e := sc1_step m c n h acc (by omega) r' j'
      rw [show n / 16 = t.val / 16 from by omega, show n % 16 = n - 16 * (t.val / 16) from by omega] at e
      exact e)
    (t.val % 16) (by omega) (by have := Nat.div_add_mod t.val 16; omega) (ix2 r j)
  refine key.trans (congrArg (0 + ·) (Finset.sum_congr rfl fun s _ => ?_))
  rw [Nat.add_sub_cancel_left]

/-- After a row tile's last point an accumulator entry is the joined-row product of the specification. -/
theorem blocks_total (a b : A2 4096 20480) (W : A2 40960 288) (q : ℕ) (hq : q < 4) (r : Fin 1024) (j : Fin 288) :
    (0 : EReal) + ∑ s ∈ Finset.range 16, blockTerm a b W q s r.val j.val
      = featRow (rowOf a ⟨1024 * q + r.val, by have := r.isLt; omega⟩) (rowOf b ⟨1024 * q + r.val, by have := r.isLt; omega⟩) (colOf W j) := by
  rw [zero_add, ← featRowBlocks_eq]
  unfold featRowBlocks blockTerm
  rw [tileRow_eq a q r hq, tileRow_eq b q r hq, colN_eq W j]

end Cert.KernelIdeal.Fold

end
-- ==== Proof.KHead.lean ====
/-
  The kernel's head read at one output entry.

  At the last reduction step the kernel adds the two bias rows to the two accumulators, joins them in both orders
  along the columns, mixes the two joins by the row's side to move, clamps below at zero, and runs the three-layer
  head plus the skip product.  Read at row r, each stage is the corresponding stage of the row specification: the
  join picks the first or the second accumulator according to the column, each product into the zero accumulator is
  a plain sum over the shared coordinate, and the bias broadcasts read the bias row at the entry's column.
-/
import proofs.«109908_j80092550135974_1_alg».proof.Proof.Gen.KernelIdeal.Skeleton
import proofs.«109908_j80092550135974_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.HeadValue

open Cert.KernelIdeal Cert.KernelIdeal.Gen Idealize.ShloMosaic Idealize.ShloMosaic.ValueIdx

/-! ### The product [1024,576] × [576,1] read at an entry -/

private theorem lhs_skip_0 (i : S1024x1.Idx) (q : dot_S1024x576_S576x1_S1024x1_1_0_0_1_n_n.contr.Idx) :
    (dot_S1024x576_S576x1_S1024x1_1_0_0_1_n_n.lhsIdx i q 0).val = (i 0).val := by
  unfold DotDims.lhsIdx
  rw [dif_neg (show ¬(0 : Fin S1024x576.rank) ∈ dot_S1024x576_S576x1_S1024x1_1_0_0_1_n_n.lhsBatch by decide), dif_pos (show (0 : Fin S1024x576.rank) ∈ dot_S1024x576_S576x1_S1024x1_1_0_0_1_n_n.lhsNonContracting by decide)]
  rfl
private theorem lhs_skip_1 (i : S1024x1.Idx) (q : dot_S1024x576_S576x1_S1024x1_1_0_0_1_n_n.contr.Idx) :
    (dot_S1024x576_S576x1_S1024x1_1_0_0_1_n_n.lhsIdx i q 1).val = (q ⟨0, by decide⟩).val :=
  dot_S1024x576_S576x1_S1024x1_1_0_0_1_n_n.lhsIdx_val_of_single rfl i q
private theorem rhs_skip_0 (i : S1024x1.Idx) (q : dot_S1024x576_S576x1_S1024x1_1_0_0_1_n_n.contr.Idx) :
    (dot_S1024x576_S576x1_S1024x1_1_0_0_1_n_n.rhsIdx i q 0).val = (q ⟨0, by decide⟩).val :=
  dot_S1024x576_S576x1_S1024x1_1_0_0_1_n_n.rhsIdx_val_of_single rfl i q
private theorem rhs_skip_1 (i : S1024x1.Idx) (q : dot_S1024x576_S576x1_S1024x1_1_0_0_1_n_n.contr.Idx) :
    (dot_S1024x576_S576x1_S1024x1_1_0_0_1_n_n.rhsIdx i q 1).val = (i 1).val := by
  unfold DotDims.rhsIdx
  rw [dif_neg (show ¬(1 : Fin S576x1.rank) ∈ dot_S1024x576_S576x1_S1024x1_1_0_0_1_n_n.rhsBatch by decide), dif_pos (show (1 : Fin S576x1.rank) ∈ dot_S1024x576_S576x1_S1024x1_1_0_0_1_n_n.rhsNonContracting by decide)]
  rfl

/-- Into the zero accumulator the product's entry (r, c) is the sum over the 576 shared coordinates. -/
private theorem matmul_skip_apply (y : FVec Ideal S1024x576 .f32) (w : Vec Ideal S576x1 .f32) (r : Fin 1024) (c : Fin 1) :
    matmul (F := Ideal) (φ₁ := .f32) (φ₂ := .f32) dot_S1024x576_S576x1_S1024x1_1_0_0_1_n_n none y w (constant S1024x1 .f32 0x00000000#32) (ix2 r c)
      = ∑ k : Fin 576, y (ix2 r k) * w (ix2 k c) := by
  refine (Ideal.matmul_constant_zero_apply (φ₁ := .f32) (φ₂ := .f32) dot_S1024x576_S576x1_S1024x1_1_0_0_1_n_n none y w (ix2 r c)).trans ?_
  rw [← Equiv.sum_comp (ValueIdx.contrEquiv1 dot_S1024x576_S576x1_S1024x1_1_0_0_1_n_n 576 rfl rfl).symm]
  refine Finset.sum_congr rfl fun k _ => ?_
  have hk := ValueIdx.contrEquiv1_symm_val dot_S1024x576_S576x1_S1024x1_1_0_0_1_n_n 576 rfl rfl k
  have el : dot_S1024x576_S576x1_S1024x1_1_0_0_1_n_n.lhsIdx (ix2 r c) ((ValueIdx.contrEquiv1 dot_S1024x576_S576x1_S1024x1_1_0_0_1_n_n 576 rfl rfl).symm k) = ix2 r k := funext fun a => Fin.ext (by
    match a with
    | ⟨0, _⟩ => exact lhs_skip_0 _ _
    | ⟨1, _⟩ => exact (lhs_skip_1 _ _).trans hk)
  have er : dot_S1024x576_S576x1_S1024x1_1_0_0_1_n_n.rhsIdx (ix2 r c) ((ValueIdx.contrEquiv1 dot_S1024x576_S576x1_S1024x1_1_0_0_1_n_n 576 rfl rfl).symm k) = ix2 k c := funext fun a => Fin.ext (by
    match a with
    | ⟨0, _⟩ => exact (rhs_skip_0 _ _).trans hk
    | ⟨1, _⟩ => exact rhs_skip_1 _ _)
  rw [el, er]

/-! ### The product [1024,576] × [576,32] read at an entry -/

private theorem lhs_l0_0 (i : S1024x32.Idx) (q : dot_S1024x576_S576x32_S1024x32_1_0_0_1_n_n.contr.Idx) :
    (dot_S1024x576_S576x32_S1024x32_1_0_0_1_n_n.lhsIdx i q 0).val = (i 0).val := by
  unfold DotDims.lhsIdx
  rw [dif_neg (show ¬(0 : Fin S1024x576.rank) ∈ dot_S1024x576_S576x32_S1024x32_1_0_0_1_n_n.lhsBatch by decide), dif_pos (show (0 : Fin S1024x576.rank) ∈ dot_S1024x576_S576x32_S1024x32_1_0_0_1_n_n.lhsNonContracting by decide)]
  rfl
private theorem lhs_l0_1 (i : S1024x32.Idx) (q : dot_S1024x576_S576x32_S1024x32_1_0_0_1_n_n.contr.Idx) :
    (dot_S1024x576_S576x32_S1024x32_1_0_0_1_n_n.lhsIdx i q 1).val = (q ⟨0, by decide⟩).val :=
  dot_S1024x576_S576x32_S1024x32_1_0_0_1_n_n.lhsIdx_val_of_single rfl i q
private theorem rhs_l0_0 (i : S1024x32.Idx) (q : dot_S1024x576_S576x32_S1024x32_1_0_0_1_n_n.contr.Idx) :
    (dot_S1024x576_S576x32_S1024x32_1_0_0_1_n_n.rhsIdx i q 0).val = (q ⟨0, by decide⟩).val :=
  dot_S1024x576_S576x32_S1024x32_1_0_0_1_n_n.rhsIdx_val_of_single rfl i q
private theorem rhs_l0_1 (i : S1024x32.Idx) (q : dot_S1024x576_S576x32_S1024x32_1_0_0_1_n_n.contr.Idx) :
    (dot_S1024x576_S576x32_S1024x32_1_0_0_1_n_n.rhsIdx i q 1).val = (i 1).val := by
  unfold DotDims.rhsIdx
  rw [dif_neg (show ¬(1 : Fin S576x32.rank) ∈ dot_S1024x576_S576x32_S1024x32_1_0_0_1_n_n.rhsBatch by decide), dif_pos (show (1 : Fin S576x32.rank) ∈ dot_S1024x576_S576x32_S1024x32_1_0_0_1_n_n.rhsNonContracting by decide)]
  rfl

/-- Into the zero accumulator the product's entry (r, c) is the sum over the 576 shared coordinates. -/
private theorem matmul_l0_apply (y : FVec Ideal S1024x576 .f32) (w : Vec Ideal S576x32 .f32) (r : Fin 1024) (c : Fin 32) :
    matmul (F := Ideal) (φ₁ := .f32) (φ₂ := .f32) dot_S1024x576_S576x32_S1024x32_1_0_0_1_n_n none y w (constant S1024x32 .f32 0x00000000#32) (ix2 r c)
      = ∑ k : Fin 576, y (ix2 r k) * w (ix2 k c) := by
  refine (Ideal.matmul_constant_zero_apply (φ₁ := .f32) (φ₂ := .f32) dot_S1024x576_S576x32_S1024x32_1_0_0_1_n_n none y w (ix2 r c)).trans ?_
  rw [← Equiv.sum_comp (ValueIdx.contrEquiv1 dot_S1024x576_S576x32_S1024x32_1_0_0_1_n_n 576 rfl rfl).symm]
  refine Finset.sum_congr rfl fun k _ => ?_
  have hk := ValueIdx.contrEquiv1_symm_val dot_S1024x576_S576x32_S1024x32_1_0_0_1_n_n 576 rfl rfl k
  have el : dot_S1024x576_S576x32_S1024x32_1_0_0_1_n_n.lhsIdx (ix2 r c) ((ValueIdx.contrEquiv1 dot_S1024x576_S576x32_S1024x32_1_0_0_1_n_n 576 rfl rfl).symm k) = ix2 r k := funext fun a => Fin.ext (by
    match a with
    | ⟨0, _⟩ => exact lhs_l0_0 _ _
    | ⟨1, _⟩ => exact (lhs_l0_1 _ _).trans hk)
  have er : dot_S1024x576_S576x32_S1024x32_1_0_0_1_n_n.rhsIdx (ix2 r c) ((ValueIdx.contrEquiv1 dot_S1024x576_S576x32_S1024x32_1_0_0_1_n_n 576 rfl rfl).symm k) = ix2 k c := funext fun a => Fin.ext (by
    match a with
    | ⟨0, _⟩ => exact (rhs_l0_0 _ _).trans hk
    | ⟨1, _⟩ => exact rhs_l0_1 _ _)
  rw [el, er]

/-! ### The product [1024,32] × [32,32] read at an entry -/

private theorem lhs_l1_0 (i : S1024x32.Idx) (q : dot_S1024x32_S32x32_S1024x32_1_0_0_1_n_n.contr.Idx) :
    (dot_S1024x32_S32x32_S1024x32_1_0_0_1_n_n.lhsIdx i q 0).val = (i 0).val := by
  unfold DotDims.lhsIdx
  rw [dif_neg (show ¬(0 : Fin S1024x32.rank) ∈ dot_S1024x32_S32x32_S1024x32_1_0_0_1_n_n.lhsBatch by decide), dif_pos (show (0 : Fin S1024x32.rank) ∈ dot_S1024x32_S32x32_S1024x32_1_0_0_1_n_n.lhsNonContracting by decide)]
  rfl
private theorem lhs_l1_1 (i : S1024x32.Idx) (q : dot_S1024x32_S32x32_S1024x32_1_0_0_1_n_n.contr.Idx) :
    (dot_S1024x32_S32x32_S1024x32_1_0_0_1_n_n.lhsIdx i q 1).val = (q ⟨0, by decide⟩).val :=
  dot_S1024x32_S32x32_S1024x32_1_0_0_1_n_n.lhsIdx_val_of_single rfl i q
private theorem rhs_l1_0 (i : S1024x32.Idx) (q : dot_S1024x32_S32x32_S1024x32_1_0_0_1_n_n.contr.Idx) :
    (dot_S1024x32_S32x32_S1024x32_1_0_0_1_n_n.rhsIdx i q 0).val = (q ⟨0, by decide⟩).val :=
  dot_S1024x32_S32x32_S1024x32_1_0_0_1_n_n.rhsIdx_val_of_single rfl i q
private theorem rhs_l1_1 (i : S1024x32.Idx) (q : dot_S1024x32_S32x32_S1024x32_1_0_0_1_n_n.contr.Idx) :
    (dot_S1024x32_S32x32_S1024x32_1_0_0_1_n_n.rhsIdx i q 1).val = (i 1).val := by
  unfold DotDims.rhsIdx
  rw [dif_neg (show ¬(1 : Fin S32x32.rank) ∈ dot_S1024x32_S32x32_S1024x32_1_0_0_1_n_n.rhsBatch by decide), dif_pos (show (1 : Fin S32x32.rank) ∈ dot_S1024x32_S32x32_S1024x32_1_0_0_1_n_n.rhsNonContracting by decide)]
  rfl

/-- Into the zero accumulator the product's entry (r, c) is the sum over the 32 shared coordinates. -/
private theorem matmul_l1_apply (y : FVec Ideal S1024x32 .f32) (w : Vec Ideal S32x32 .f32) (r : Fin 1024) (c : Fin 32) :
    matmul (F := Ideal) (φ₁ := .f32) (φ₂ := .f32) dot_S1024x32_S32x32_S1024x32_1_0_0_1_n_n none y w (constant S1024x32 .f32 0x00000000#32) (ix2 r c)
      = ∑ k : Fin 32, y (ix2 r k) * w (ix2 k c) := by
  refine (Ideal.matmul_constant_zero_apply (φ₁ := .f32) (φ₂ := .f32) dot_S1024x32_S32x32_S1024x32_1_0_0_1_n_n none y w (ix2 r c)).trans ?_
  rw [← Equiv.sum_comp (ValueIdx.contrEquiv1 dot_S1024x32_S32x32_S1024x32_1_0_0_1_n_n 32 rfl rfl).symm]
  refine Finset.sum_congr rfl fun k _ => ?_
  have hk := ValueIdx.contrEquiv1_symm_val dot_S1024x32_S32x32_S1024x32_1_0_0_1_n_n 32 rfl rfl k
  have el : dot_S1024x32_S32x32_S1024x32_1_0_0_1_n_n.lhsIdx (ix2 r c) ((ValueIdx.contrEquiv1 dot_S1024x32_S32x32_S1024x32_1_0_0_1_n_n 32 rfl rfl).symm k) = ix2 r k := funext fun a => Fin.ext (by
    match a with
    | ⟨0, _⟩ => exact lhs_l1_0 _ _
    | ⟨1, _⟩ => exact (lhs_l1_1 _ _).trans hk)
  have er : dot_S1024x32_S32x32_S1024x32_1_0_0_1_n_n.rhsIdx (ix2 r c) ((ValueIdx.contrEquiv1 dot_S1024x32_S32x32_S1024x32_1_0_0_1_n_n 32 rfl rfl).symm k) = ix2 k c := funext fun a => Fin.ext (by
    match a with
    | ⟨0, _⟩ => exact (rhs_l1_0 _ _).trans hk
    | ⟨1, _⟩ => exact rhs_l1_1 _ _)
  rw [el, er]

/-! ### The product [1024,32] × [32,1] read at an entry -/

private theorem lhs_l2_0 (i : S1024x1.Idx) (q : dot_S1024x32_S32x1_S1024x1_1_0_0_1_n_n.contr.Idx) :
    (dot_S1024x32_S32x1_S1024x1_1_0_0_1_n_n.lhsIdx i q 0).val = (i 0).val := by
  unfold DotDims.lhsIdx
  rw [dif_neg (show ¬(0 : Fin S1024x32.rank) ∈ dot_S1024x32_S32x1_S1024x1_1_0_0_1_n_n.lhsBatch by decide), dif_pos (show (0 : Fin S1024x32.rank) ∈ dot_S1024x32_S32x1_S1024x1_1_0_0_1_n_n.lhsNonContracting by decide)]
  rfl
private theorem lhs_l2_1 (i : S1024x1.Idx) (q : dot_S1024x32_S32x1_S1024x1_1_0_0_1_n_n.contr.Idx) :
    (dot_S1024x32_S32x1_S1024x1_1_0_0_1_n_n.lhsIdx i q 1).val = (q ⟨0, by decide⟩).val :=
  dot_S1024x32_S32x1_S1024x1_1_0_0_1_n_n.lhsIdx_val_of_single rfl i q
private theorem rhs_l2_0 (i : S1024x1.Idx) (q : dot_S1024x32_S32x1_S1024x1_1_0_0_1_n_n.contr.Idx) :
    (dot_S1024x32_S32x1_S1024x1_1_0_0_1_n_n.rhsIdx i q 0).val = (q ⟨0, by decide⟩).val :=
  dot_S1024x32_S32x1_S1024x1_1_0_0_1_n_n.rhsIdx_val_of_single rfl i q
private theorem rhs_l2_1 (i : S1024x1.Idx) (q : dot_S1024x32_S32x1_S1024x1_1_0_0_1_n_n.contr.Idx) :
    (dot_S1024x32_S32x1_S1024x1_1_0_0_1_n_n.rhsIdx i q 1).val = (i 1).val := by
  unfold DotDims.rhsIdx
  rw [dif_neg (show ¬(1 : Fin S32x1.rank) ∈ dot_S1024x32_S32x1_S1024x1_1_0_0_1_n_n.rhsBatch by decide), dif_pos (show (1 : Fin S32x1.rank) ∈ dot_S1024x32_S32x1_S1024x1_1_0_0_1_n_n.rhsNonContracting by decide)]
  rfl

/-- Into the zero accumulator the product's entry (r, c) is the sum over the 32 shared coordinates. -/
private theorem matmul_l2_apply (y : FVec Ideal S1024x32 .f32) (w : Vec Ideal S32x1 .f32) (r : Fin 1024) (c : Fin 1) :
    matmul (F := Ideal) (φ₁ := .f32) (φ₂ := .f32) dot_S1024x32_S32x1_S1024x1_1_0_0_1_n_n none y w (constant S1024x1 .f32 0x00000000#32) (ix2 r c)
      = ∑ k : Fin 32, y (ix2 r k) * w (ix2 k c) := by
  refine (Ideal.matmul_constant_zero_apply (φ₁ := .f32) (φ₂ := .f32) dot_S1024x32_S32x1_S1024x1_1_0_0_1_n_n none y w (ix2 r c)).trans ?_
  rw [← Equiv.sum_comp (ValueIdx.contrEquiv1 dot_S1024x32_S32x1_S1024x1_1_0_0_1_n_n 32 rfl rfl).symm]
  refine Finset.sum_congr rfl fun k _ => ?_
  have hk := ValueIdx.contrEquiv1_symm_val dot_S1024x32_S32x1_S1024x1_1_0_0_1_n_n 32 rfl rfl k
  have el : dot_S1024x32_S32x1_S1024x1_1_0_0_1_n_n.lhsIdx (ix2 r c) ((ValueIdx.contrEquiv1 dot_S1024x32_S32x1_S1024x1_1_0_0_1_n_n 32 rfl rfl).symm k) = ix2 r k := funext fun a => Fin.ext (by
    match a with
    | ⟨0, _⟩ => exact lhs_l2_0 _ _
    | ⟨1, _⟩ => exact (lhs_l2_1 _ _).trans hk)
  have er : dot_S1024x32_S32x1_S1024x1_1_0_0_1_n_n.rhsIdx (ix2 r c) ((ValueIdx.contrEquiv1 dot_S1024x32_S32x1_S1024x1_1_0_0_1_n_n 32 rfl rfl).symm k) = ix2 k c := funext fun a => Fin.ext (by
    match a with
    | ⟨0, _⟩ => exact (rhs_l2_0 _ _).trans hk
    | ⟨1, _⟩ => exact rhs_l2_1 _ _)
  rw [el, er]

/-! ### The layout operations read at an entry -/

/-- A bias row broadcast down the rows reads the bias at the entry's column. -/
private theorem bias_row_apply {n : ℕ} (x : (⟨2, ![1, n]⟩ : Shape).Idx → EReal) (hc : (⟨2, ![1, n]⟩ : Shape).ShapeCasts ⟨2, ![1, n]⟩)
    (hb : (⟨2, ![1, n]⟩ : Shape).Broadcasts ⟨2, ![1024, n]⟩) (r : Fin 1024) (j : Fin n) :
    broadcastTo ⟨2, ![1024, n]⟩ (shapeCast ⟨2, ![1, n]⟩ x hc) hb (ix2 r j) = x (ix2 0 j) := by
  rw [shapeCast_self]
  refine broadcastTo_apply x hb (ix2 r j) (ix2 0 j) (fun a => ?_)
  match a with
  | ⟨0, _⟩ => rfl
  | ⟨1, _⟩ =>
    show j.val = if n = 1 then 0 else j.val
    split
    · have := j.isLt; omega
    · rfl

/-- A column broadcast along the columns reads the column at the entry's row. -/
private theorem col_apply (x : Vec Ideal S1024x1 .f32) (hb : S1024x1.Broadcasts S1024x576) (r : Fin 1024) (k : Fin 576) :
    broadcastTo S1024x576 x hb (ix2 r k) = x (ix2 r 0) := by
  refine broadcastTo_apply x hb (ix2 r k) (ix2 r 0) (fun a => ?_)
  match a with
  | ⟨0, _⟩ => rfl
  | ⟨1, _⟩ => rfl

/-- The join of two [1024,288] arrays along the columns, at a column of the first piece. -/
private theorem join_left (a b : Vec Ideal S1024x288 .f32) (h : Shape.Concatenates [S1024x288, S1024x288] S1024x576 1)
    (r : Fin 1024) (k : Fin 576) (hk : k.val < 288) :
    concatenate S1024x576 1 [⟨S1024x288, a⟩, ⟨S1024x288, b⟩] h (ix2 r k) = a (ix2 r ⟨k.val, hk⟩) := by
  refine concatenate_pair_apply_left (1 : Fin S1024x576.rank) a b h (ix2 r k) rfl (ix2 r ⟨k.val, hk⟩) (fun c => ?_)
  match c with
  | ⟨0, _⟩ => rfl
  | ⟨1, _⟩ => rfl

/-- The same join at a column of the second piece. -/
private theorem join_right (a b : Vec Ideal S1024x288 .f32) (h : Shape.Concatenates [S1024x288, S1024x288] S1024x576 1)
    (r : Fin 1024) (k : Fin 576) (hk : ¬ k.val < 288) :
    concatenate S1024x576 1 [⟨S1024x288, a⟩, ⟨S1024x288, b⟩] h (ix2 r k)
      = b (ix2 r ⟨k.val - 288, by have := k.isLt; omega⟩) := by
  refine concatenate_pair_apply_right (1 : Fin S1024x576.rank) a b h (ix2 r k) rfl rfl
    (ix2 r ⟨k.val - 288, by have := k.isLt; omega⟩) (fun c hc => ?_) ?_
  · match c with
    | ⟨0, _⟩ => rfl
    | ⟨1, _⟩ => exact absurd rfl hc
  · show (k.val - 288) + 288 = k.val
    omega

/-! ### The 576 activations of a row -/

/-- The mixed, clamped join of the two biased accumulators at entry (r, k) is the row specification's activation k. -/
private theorem pay3_apply (S0 S1 : Vec Ideal S1024x288 .f32) (x6 x7 : Vec Ideal S1x288 .f32) (x8 : Vec Ideal S1024x1 .f32)
    (r : Fin 1024) (k : Fin 576) :
    k0_pay3 (F := Ideal) S0 x6 S1 x7 x8 (ix2 r k)
      = Cert.Nnue.baseRow (Ideal.ofBits .f32 0x3F800000#32) (Ideal.ofBits .f32 0x00000000#32) (x8 (ix2 r 0))
          (fun j => S0 (ix2 r j) + x6 (ix2 0 j)) (fun j => S1 (ix2 r j) + x7 (ix2 0 j)) k := by
  unfold k0_pay3 Cert.Nnue.baseRow Cert.Nnue.mixAt
  simp only [maximumf_apply, addf_apply, mulf_apply, broadcast_apply]
  rw [col_apply, col_apply, subf_apply, broadcast_apply]
  by_cases hk : k.val < 288
  · rw [dif_pos hk, join_left _ _ _ r k hk, join_left _ _ _ r k hk, addf_apply, addf_apply,
      bias_row_apply (n := 288), bias_row_apply (n := 288)]
    rfl
  · rw [dif_neg hk, join_right _ _ _ r k hk, join_right _ _ _ r k hk, addf_apply, addf_apply,
      bias_row_apply (n := 288), bias_row_apply (n := 288)]
    rfl

/-! ### The head's stages at an entry -/

/-- The skip product plus its bias at row r, over the activations. -/
private theorem pay4_apply (S0 S1 : Vec Ideal S1024x288 .f32) (x6 x7 : Vec Ideal S1x288 .f32) (x8 : Vec Ideal S1024x1 .f32)
    (x9 : Vec Ideal S576x1 .f32) (x10 : Vec Ideal S1x1 .f32) (r : Fin 1024) :
    k0_pay4 (F := Ideal) S0 x6 S1 x7 x8 x9 x10 (ix2 r 0)
      = (∑ k : Fin 576, k0_pay3 (F := Ideal) S0 x6 S1 x7 x8 (ix2 r k) * x9 (ix2 k 0)) + x10 (ix2 0 0) := by
  unfold k0_pay4
  generalize k0_pay3 (F := Ideal) S0 x6 S1 x7 x8 = y
  simp only [addf_apply]
  rw [matmul_skip_apply, bias_row_apply (n := 1)]

/-- The first layer at entry (r, c): the clamped product plus bias, over the activations. -/
private theorem pay5_apply (S0 S1 : Vec Ideal S1024x288 .f32) (x6 x7 : Vec Ideal S1x288 .f32) (x8 : Vec Ideal S1024x1 .f32)
    (x11 : Vec Ideal S576x32 .f32) (x12 : Vec Ideal S1x32 .f32) (r : Fin 1024) (c : Fin 32) :
    k0_pay5 (F := Ideal) S0 x6 S1 x7 x8 x11 x12 (ix2 r c)
      = max ((∑ k : Fin 576, k0_pay3 (F := Ideal) S0 x6 S1 x7 x8 (ix2 r k) * x11 (ix2 k c)) + x12 (ix2 0 c))
          (Ideal.ofBits .f32 0x00000000#32) := by
  unfold k0_pay5
  generalize k0_pay3 (F := Ideal) S0 x6 S1 x7 x8 = y
  simp only [maximumf_apply, addf_apply, broadcast_apply]
  rw [matmul_l0_apply, bias_row_apply (n := 32)]
  rfl

/-- The second and third layers plus the skip value at row r, over the first layer's outputs. -/
private theorem pay2_apply (v61 : FVec Ideal S1024x1 .f32) (v69 : FVec Ideal S1024x32 .f32) (x13 : Vec Ideal S32x32 .f32)
    (x14 : Vec Ideal S1x32 .f32) (x15 : Vec Ideal S32x1 .f32) (x16 : Vec Ideal S1x1 .f32) (r : Fin 1024) :
    k0_pay2 (F := Ideal) v61 v69 x13 x14 x15 x16 (ix2 r 0)
      = ((∑ k : Fin 32, max ((∑ k' : Fin 32, v69 (ix2 r k') * x13 (ix2 k' k)) + x14 (ix2 0 k)) (Ideal.ofBits .f32 0x00000000#32)
            * x15 (ix2 k 0)) + x16 (ix2 0 0)) + v61 (ix2 r 0) := by
  unfold k0_pay2
  simp only [addf_apply]
  rw [matmul_l2_apply, bias_row_apply (n := 1)]
  refine congrArg (· + v61 (ix2 r 0)) (congrArg (· + x16 (ix2 0 0)) (Finset.sum_congr rfl fun k _ => ?_))
  rw [maximumf_apply, addf_apply, broadcast_apply, matmul_l1_apply, bias_row_apply (n := 32)]
  rfl

/-- The kernel's head at output row r is the row specification's output on the two biased accumulator rows. -/
theorem head_apply (S0 S1 : Vec Ideal S1024x288 .f32) (x6 x7 : Vec Ideal S1x288 .f32) (x8 : Vec Ideal S1024x1 .f32)
    (x9 : Vec Ideal S576x1 .f32) (x10 : Vec Ideal S1x1 .f32) (x11 : Vec Ideal S576x32 .f32) (x12 : Vec Ideal S1x32 .f32)
    (x13 : Vec Ideal S32x32 .f32) (x14 : Vec Ideal S1x32 .f32) (x15 : Vec Ideal S32x1 .f32) (x16 : Vec Ideal S1x1 .f32) (r : Fin 1024) :
    k0_pay2 (F := Ideal) (k0_pay4 S0 x6 S1 x7 x8 x9 x10) (k0_pay5 S0 x6 S1 x7 x8 x11 x12) x13 x14 x15 x16 (ix2 r 0)
      = Cert.Nnue.headRow (Ideal.ofBits .f32 0x3F800000#32) (Ideal.ofBits .f32 0x00000000#32) (x8 (ix2 r 0))
          (fun j => S0 (ix2 r j) + x6 (ix2 0 j)) (fun j => S1 (ix2 r j) + x7 (ix2 0 j))
          (fun k => x9 (ix2 k 0)) (x10 (ix2 0 0)) (fun k n => x11 (ix2 k n)) (fun n => x12 (ix2 0 n))
          (fun k n => x13 (ix2 k n)) (fun n => x14 (ix2 0 n)) (fun k => x15 (ix2 k 0)) (x16 (ix2 0 0)) := by
  rw [pay2_apply, pay4_apply]
  unfold Cert.Nnue.headRow
  refine congrArg₂ (· + ·)
    (congrArg (· + x16 (ix2 0 0)) (Finset.sum_congr rfl fun k _ => ?_))
    (congrArg (· + x10 (ix2 0 0)) (Finset.sum_congr rfl fun k _ => ?_))
  · refine congrArg (fun t => max (t + x14 (ix2 0 k)) (Ideal.ofBits .f32 0x00000000#32) * x15 (ix2 k 0))
      (Finset.sum_congr rfl fun k' _ => ?_)
    rw [pay5_apply]
    refine congrArg (fun t => max (t + x12 (ix2 0 k')) (Ideal.ofBits .f32 0x00000000#32) * x13 (ix2 k' k))
      (Finset.sum_congr rfl fun k'' _ => ?_)
    rw [pay3_apply]
  · rw [pay3_apply]

end Cert.KernelIdeal.HeadValue

end
-- ==== Proof.KFinal.lean ====
/-
  The kernel's result array is the specification's function of the fifteen argument arrays.

  The output block of row tile q is written once, at the tile's last grid point 16 q + 15, from the two accumulators as
  that point leaves them (the complete sums over all sixteen feature blocks) and the head's weights; the four tiles'
  blocks cover the [4096, 1] array.
-/
import proofs.«109908_j80092550135974_1_alg».proof.Proof.KFold
import proofs.«109908_j80092550135974_1_alg».proof.Proof.KHead

noncomputable section

namespace Cert.KernelIdeal.Final

open Cert.KernelIdeal Cert.KernelIdeal.Gen Cert.KernelIdeal.Value Cert.KernelIdeal.Fold Idealize.ShloMosaic Idealize.ShloMosaic.TcCoe Idealize.SL.Sem
open Idealize.ShloMosaic.ValueIdx Cert.Nnue
open Idealize.ShloMosaic.Pipeline (Dat)

variable (m : (ℓ : Loc nD τ sig) → Buf (Elt Ideal) ℓ) (ρ : Dev nD → PrngReg)

abbrev xb6 (c : Dev nD) (t : Fin cfg0.N) : Vec Ideal S1x288 .f32 := iblk m c 6 t
abbrev xb7 (c : Dev nD) (t : Fin cfg0.N) : Vec Ideal S1x288 .f32 := iblk m c 7 t
abbrev xb8 (c : Dev nD) (t : Fin cfg0.N) : Vec Ideal S1024x1 .f32 := iblk m c 8 t
abbrev xb9 (c : Dev nD) (t : Fin cfg0.N) : Vec Ideal S576x1 .f32 := iblk m c 9 t
abbrev xb10 (c : Dev nD) (t : Fin cfg0.N) : Vec Ideal S1x1 .f32 := iblk m c 10 t
abbrev xb11 (c : Dev nD) (t : Fin cfg0.N) : Vec Ideal S576x32 .f32 := iblk m c 11 t
abbrev xb12 (c : Dev nD) (t : Fin cfg0.N) : Vec Ideal S1x32 .f32 := iblk m c 12 t
abbrev xb13 (c : Dev nD) (t : Fin cfg0.N) : Vec Ideal S32x32 .f32 := iblk m c 13 t
abbrev xb14 (c : Dev nD) (t : Fin cfg0.N) : Vec Ideal S1x32 .f32 := iblk m c 14 t
abbrev xb15 (c : Dev nD) (t : Fin cfg0.N) : Vec Ideal S32x1 .f32 := iblk m c 15 t
abbrev xb16 (c : Dev nD) (t : Fin cfg0.N) : Vec Ideal S1x1 .f32 := iblk m c 16 t

/-- The two constant words of the programs: 1.0 and 0.0. -/
abbrev one : EReal := Ideal.ofBits .f32 0x3F800000#32
abbrev zero : EReal := Ideal.ofBits .f32 0x00000000#32

/-- The result array: the specification's function of the argument arrays. -/
abbrev result (c : Dev nD) : Buf (Elt Ideal) ((c : Thread nD τ).loc main_v14) :=
  G one zero (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

/-- At a tile's last point the output block is the head applied to the two accumulators as that same point leaves them. -/
theorem out_last (c : Dev nD) (t : Fin cfg0.N) (h0 : ¬t.val % 16 = 0) (h1 : t.val % 16 = 15) :
    ((outsAt0 m c t.val t.isLt).1 : Vec Ideal S1024x1 .f32)
      = k0_pay2 (F := Ideal)
          (k0_pay4 ((outsAt0 m c t.val t.isLt).2.1) (xb6 m c t) ((outsAt0 m c t.val t.isLt).2.2) (xb7 m c t) (xb8 m c t) (xb9 m c t) (xb10 m c t))
          (k0_pay5 ((outsAt0 m c t.val t.isLt).2.1) (xb6 m c t) ((outsAt0 m c t.val t.isLt).2.2) (xb7 m c t) (xb8 m c t) (xb11 m c t) (xb12 m c t))
          (xb13 m c t) (xb14 m c t) (xb15 m c t) (xb16 m c t) := by
  rw [outsAt0_C m c t h0 h1]
  dsimp only
  rw [Pieces.out_C_17, Pieces.sout_C_0, Pieces.sout_C_1]

/-- The head's row function depends on its arguments only through their values. -/
theorem headRow_congr (o z : EReal) {p p' : EReal} {w w' b b' : Fin 288 → EReal} {Ws Ws' : Fin 576 → EReal} {bs bs' : EReal}
    {W0 W0' : Fin 576 → Fin 32 → EReal} {b0 b0' : Fin 32 → EReal} {W1 W1' : Fin 32 → Fin 32 → EReal} {b1 b1' : Fin 32 → EReal}
    {W2 W2' : Fin 32 → EReal} {b2 b2' : EReal} (hp : p = p') (hw : w = w') (hb : b = b') (hWs : Ws = Ws') (hbs : bs = bs')
    (hW0 : W0 = W0') (hb0 : b0 = b0') (hW1 : W1 = W1') (hb1 : b1 = b1') (hW2 : W2 = W2') (hb2 : b2 = b2') :
    headRow o z p w b Ws bs W0 b0 W1 b1 W2 b2 = headRow o z p' w' b' Ws' bs' W0' b0' W1' b1' W2' b2' := by
  subst hp hw hb hWs hbs hW0 hb0 hW1 hb1 hW2 hb2; rfl

/-- The output block of a tile's last point, read at a row, is the result array at that row. -/
theorem head_at (c : Dev nD) (t : Fin cfg0.N) (h1 : t.val % 16 = 15) (r : Fin 1024) :
    ((outsAt0 m c t.val t.isLt).1 : Vec Ideal S1024x1 .f32) (ix2 r 0)
      = result m c (ix2 ⟨1024 * (t.val / 16) + r.val, by have := lt64 t; have := r.isLt; omega⟩ 0) := by
  have ht := lt64 t
  have h0 : ¬t.val % 16 = 0 := by omega
  rw [out_last m c t h0 h1, HeadValue.head_apply]
  refine headRow_congr one zero (Blocks.blk8 m c t r) (funext fun j => ?_) (funext fun j => ?_)
    (funext fun k => Blocks.blk9 m c t k) (Blocks.blk10 m c t) (funext fun k => funext fun n => Blocks.blk11 m c t k n)
    (funext fun n => Blocks.blk12 m c t n) (funext fun k => funext fun n => Blocks.blk13 m c t k n)
    (funext fun n => Blocks.blk14 m c t n) (funext fun k => Blocks.blk15 m c t k) (Blocks.blk16 m c t)
  · have e6 : xb6 m c t (ix2 0 j) = _ := Blocks.blk6 m c t j
    rw [accW_fold m c t r j, h1, e6]
    exact congrArg (· + _) (blocks_total _ _ _ (t.val / 16) (by omega) r j)
  · have e7 : xb7 m c t (ix2 0 j) = _ := Blocks.blk7 m c t j
    rw [accB_fold m c t r j, h1, e7]
    exact congrArg (· + _) (blocks_total _ _ _ (t.val / 16) (by omega) r j)

/-- The output window's block index at every grid point: row tile `t / 16`, column block 0. -/
theorem idx17 : ∀ t : Fin cfg0.N, win0_17.index t (0 : Fin 2) = t.val / 16 ∧ win0_17.index t (1 : Fin 2) = 0 :=
  (by decide +kernel : ∀ t : Fin grid0.N, _)

/-- What a tile's last point writes back is its block of the result array. -/
theorem flushed_eq (c : Dev nD) (t : Fin cfg0.N) (hf : (cfg0.win 17).flush t = true) :
    (dats m 0 c).flushed 17 t = ((cfg0.win 17).blk t).view.read (Elt Ideal) (result m c) := by
  have h1 : t.val % 16 = 15 := (flush0_17 t).mp hf
  have ht := lt64 t
  obtain ⟨e0, e1⟩ := idx17 t
  rw [flushed17]
  funext y
  have key : ∀ y' : S1024x1.Idx, ((outsAt0 m c t.val t.isLt).1 : Vec Ideal S1024x1 .f32) y'
      = result m c (((cfg0.win 17).blk t).view.emb y') := by
    intro y'
    obtain ⟨r, rfl⟩ : ∃ r : Fin 1024, y' = ix2 r 0 := ⟨y' 0, by
      funext a
      match a with
      | ⟨0, _⟩ => rfl
      | ⟨1, _⟩ => exact Fin.ext (by have h : (y' 1).val < 1 := (y' 1).isLt; show (y' 1).val = 0; omega)⟩
    rw [head_at m c t h1 r]
    refine congrArg (result m c) ?_
    funext a; apply Fin.ext
    match a with
    | ⟨0, _⟩ => show 1024 * (t.val / 16) + r.val = win0_17.index t (0 : Fin 2) * 1024 + 1 * r.val; omega
    | ⟨1, _⟩ => show (0 : ℕ) = win0_17.index t (1 : Fin 2) * 1 + 1 * 0; omega
  exact key y

/-- An index of the array is in point `t`'s block iff each coordinate is in the block's range on its axis. -/
theorem mem_blk (t : Fin cfg0.N) (i : S4096x1.Idx) :
    i ∈ ((cfg0.win 17).blk t).view.set ↔ ∀ a : Fin 2, win0_17.index t a * S1024x1.size a ≤ (i a).val ∧ (i a).val < win0_17.index t a * S1024x1.size a + S1024x1.size a := by
  show i ∈ ((View.whole main_v14).slice (win0_17.rect t)).set ↔ _
  rw [View.set_slice_whole, Rect.mem_set_unit]
  exact Iff.rfl

/-- Every row lies in the block its tile's last point writes. -/
theorem cover (i : S4096x1.Idx) : ∃ t : Fin cfg0.N, (cfg0.win 17).flush t = true ∧ i ∈ ((cfg0.win 17).blk t).view.set := by
  have hi0 : (i 0).val < 4096 := (i 0).isLt
  have hi1 : (i 1).val < 1 := (i 1).isLt
  have hN : cfg0.N = 64 := N_0
  refine ⟨⟨16 * ((i 0).val / 1024) + 15, by rw [hN]; omega⟩, (flush0_17 _).mpr (by show (16 * ((i 0).val / 1024) + 15) % 16 = 15; omega), ?_⟩
  obtain ⟨e0, e1⟩ := idx17 ⟨16 * ((i 0).val / 1024) + 15, by rw [hN]; omega⟩
  rw [mem_blk]
  intro a
  match a with
  | ⟨0, _⟩ =>
    show win0_17.index _ (0 : Fin 2) * 1024 ≤ (i 0).val ∧ (i 0).val < win0_17.index _ (0 : Fin 2) * 1024 + 1024
    rw [e0]; show (16 * ((i 0).val / 1024) + 15) / 16 * 1024 ≤ (i 0).val ∧ (i 0).val < (16 * ((i 0).val / 1024) + 15) / 16 * 1024 + 1024
    omega
  | ⟨1, _⟩ =>
    show win0_17.index _ (1 : Fin 2) * 1 ≤ (i 1).val ∧ (i 1).val < win0_17.index _ (1 : Fin 2) * 1 + 1
    rw [e1]; omega

/-- THE ARRAY after the run. -/
theorem final (c : Dev nD) : (dats m 0 c).arrAt 17 cfg0.N = result m c :=
  (dats m 0 c).arrAt_eq_of_cover 17 (result m c) (fun t hf => flushed_eq m c t hf) (cover)

end Cert.KernelIdeal.Final

end
-- ==== Proof.RefFeat.lean ====
/-
  The reference's two feature projections read at an index.

  Each projection is the joined feature row (one colour's 20480 features followed by the other's) against a
  weight column, a sum over the 40960 joined features, plus the bias entry of that column.
-/
import proofs.«109908_j80092550135974_1_alg».proof.Proof.Gen.ReferenceIdeal.Read
import proofs.«109908_j80092550135974_1_alg».proof.Proof.Spec
import Idealize.ShloMosaic.Lib.ValueIdx
import Idealize.ShloMosaic.Lib.Pipeline.Value

noncomputable section

namespace Cert.ReferenceIdeal.RefFeat

open Cert.ReferenceIdeal Cert.ReferenceIdeal.Gen Cert.ReferenceIdeal.Read Idealize.ShloMosaic Idealize.ShloMosaic.ValueIdx

/-- The joined row `[x; y]` at a column `k = m + 20480` past the first piece is the second piece at `m`. -/
private theorem joined_right (x y : (⟨S4096x20480, .f32⟩ : BufTy).Contents (Elt Ideal)) (R : Fin 4096) (k : Fin 40960)
    (m : Fin 20480) (hm : m.val + 20480 = k.val) :
    concatenate S4096x40960 1 [⟨S4096x20480, x⟩, ⟨S4096x20480, y⟩]
        concatenates_S4096x20480_S4096x20480_S4096x40960_d1 (ix2 R k) = y (ix2 R m) := by
  refine concatenate_pair_apply_right 1 x y _ (ix2 R k) rfl rfl (ix2 R m) ?_ hm
  intro b hb
  match b with
  | ⟨0, _⟩ => rfl
  | ⟨1, _⟩ => exact absurd rfl hb

/-- The joined row `[x; y]` at column `k`: the first piece below 20480, the second piece shifted by 20480 above. -/
private theorem joined_apply (x y : (⟨S4096x20480, .f32⟩ : BufTy).Contents (Elt Ideal)) (R : Fin 4096) (k : Fin 40960) :
    concatenate S4096x40960 1 [⟨S4096x20480, x⟩, ⟨S4096x20480, y⟩]
        concatenates_S4096x20480_S4096x20480_S4096x40960_d1 (ix2 R k)
      = if k.val < 20480 then Cert.Nnue.rowOf x R k.val else Cert.Nnue.rowOf y R (k.val - 20480) := by
  by_cases h : k.val < 20480
  · rw [if_pos h]
    unfold Cert.Nnue.rowOf
    rw [dif_pos h]
    exact concatenate_pair_apply_left 1 x y _ (ix2 R k) rfl (ix2 R ⟨k.val, h⟩)
      (fun b => match b with | ⟨0, _⟩ => rfl | ⟨1, _⟩ => rfl)
  · have h2 : k.val - 20480 < 20480 := by have := k.isLt; omega
    rw [if_neg h]
    unfold Cert.Nnue.rowOf
    rw [dif_pos h2]
    exact joined_right x y R k ⟨k.val - 20480, h2⟩ (by show k.val - 20480 + 20480 = k.val; omega)

/-- A weight matrix at row `k`, column `j` is its column `j` at the natural number `k`. -/
private theorem col_apply (W : (⟨S40960x288, .f32⟩ : BufTy).Contents (Elt Ideal)) (j : Fin 288) (k : Fin 40960) :
    W (ix2 k j) = Cert.Nnue.colOf W j k.val := by
  unfold Cert.Nnue.colOf
  rw [dif_pos k.isLt]

/-- The sum over the joined features, as the specification writes it. -/
private theorem sum_joined (x y : (⟨S4096x20480, .f32⟩ : BufTy).Contents (Elt Ideal))
    (W : (⟨S40960x288, .f32⟩ : BufTy).Contents (Elt Ideal)) (R : Fin 4096) (j : Fin 288) :
    (∑ k : Fin 40960, concatenate S4096x40960 1 [⟨S4096x20480, x⟩, ⟨S4096x20480, y⟩]
        concatenates_S4096x20480_S4096x20480_S4096x40960_d1 (ix2 R k) * W (ix2 k j))
      = Cert.Nnue.featRow (Cert.Nnue.rowOf x R) (Cert.Nnue.rowOf y R) (Cert.Nnue.colOf W j) := by
  unfold Cert.Nnue.featRow
  rw [Finset.sum_range]
  refine Finset.sum_congr rfl fun k _ => ?_
  rw [joined_apply x y R k, col_apply W j k]

theorem feat_w (x1 x2 : (⟨S4096x20480, .f32⟩ : BufTy).Contents (Elt Ideal))
    (x3 : (⟨S40960x288, .f32⟩ : BufTy).Contents (Elt Ideal)) (x4 : (⟨S288, .f32⟩ : BufTy).Contents (Elt Ideal))
    (R : Fin 4096) (j : Fin 288) :
    val_main_v4 (F := Ideal) x1 x2 x3 x4 (ix2 R j)
      = Cert.Nnue.featRow (Cert.Nnue.rowOf x1 R) (Cert.Nnue.rowOf x2 R) (Cert.Nnue.colOf x3 j) + x4 (ix1 j) := by
  rw [val_main_v4_apply, val_main_v1_apply, val_main_v3_apply, val_main_v2_apply]
  have hl : ∀ k : Fin 40960, lidx_main_v1 (ix2 R j) k = ix2 R k := fun k =>
    funext fun a => match a with | ⟨0, _⟩ => rfl | ⟨1, _⟩ => rfl
  have hr : ∀ k : Fin 40960, ridx_main_v1 (ix2 R j) k = ix2 k j := fun k =>
    funext fun a => match a with | ⟨0, _⟩ => rfl | ⟨1, _⟩ => rfl
  have hb : idx_main_v2 (idx_main_v3 (ix2 R j)) = ix1 j :=
    funext fun a => match a with | ⟨0, _⟩ => rfl
  rw [hb]
  simp only [hl, hr]
  unfold val_main_v0
  rw [sum_joined]
  rfl

theorem feat_b (x1 x2 : (⟨S4096x20480, .f32⟩ : BufTy).Contents (Elt Ideal))
    (x5 : (⟨S40960x288, .f32⟩ : BufTy).Contents (Elt Ideal)) (x6 : (⟨S288, .f32⟩ : BufTy).Contents (Elt Ideal))
    (R : Fin 4096) (j : Fin 288) :
    val_main_v9 (F := Ideal) x1 x2 x5 x6 (ix2 R j)
      = Cert.Nnue.featRow (Cert.Nnue.rowOf x2 R) (Cert.Nnue.rowOf x1 R) (Cert.Nnue.colOf x5 j) + x6 (ix1 j) := by
  rw [val_main_v9_apply, val_main_v6_apply, val_main_v8_apply, val_main_v7_apply]
  have hl : ∀ k : Fin 40960, lidx_main_v6 (ix2 R j) k = ix2 R k := fun k =>
    funext fun a => match a with | ⟨0, _⟩ => rfl | ⟨1, _⟩ => rfl
  have hr : ∀ k : Fin 40960, ridx_main_v6 (ix2 R j) k = ix2 k j := fun k =>
    funext fun a => match a with | ⟨0, _⟩ => rfl | ⟨1, _⟩ => rfl
  have hb : idx_main_v7 (idx_main_v8 (ix2 R j)) = ix1 j :=
    funext fun a => match a with | ⟨0, _⟩ => rfl
  rw [hb]
  simp only [hl, hr]
  unfold val_main_v5
  rw [sum_joined]
  rfl

end Cert.ReferenceIdeal.RefFeat

end
-- ==== Proof.RefHead.lean ====
/-
  The reference's result read at a batch row, as the specification's head over its two accumulator rows.

  The reference joins the two accumulator rows both ways round, mixes the two joins by the row's side to move
  (p · [w; b] + (1 - p) · [b; w]), clamps below at zero, and feeds the 576 activations to a skip product and to a
  three-layer head.  Each stage is read here at explicit coordinates: an entry of a joined row is an entry of the
  left piece below column 288 and of the right piece (288 columns back) from there on; an entry of a matrix product
  is the sum over the contracted axis; a broadcast bias is the bias at the column.  Over the extended reals the
  pointwise operations are +, *, - and max, so the stages chain into the specification's `headRow` term by term.
-/
import proofs.«109908_j80092550135974_1_alg».proof.Proof.Gen.ReferenceIdeal.Read
import proofs.«109908_j80092550135974_1_alg».proof.Proof.Spec
import Idealize.ShloMosaic.Lib.ValueIdx
import Idealize.ShloMosaic.Lib.Pipeline.Value

noncomputable section

namespace Cert.ReferenceIdeal.RefHead

open Cert.ReferenceIdeal Cert.ReferenceIdeal.Read Idealize.ShloMosaic Idealize.ShloMosaic.ValueIdx

section Stages

variable (x0 : (⟨S4096x1, .f32⟩ : BufTy).Contents (Elt Ideal))
  (x1 : (⟨S4096x20480, .f32⟩ : BufTy).Contents (Elt Ideal))
  (x2 : (⟨S4096x20480, .f32⟩ : BufTy).Contents (Elt Ideal))
  (x3 : (⟨S40960x288, .f32⟩ : BufTy).Contents (Elt Ideal))
  (x4 : (⟨S288, .f32⟩ : BufTy).Contents (Elt Ideal))
  (x5 : (⟨S40960x288, .f32⟩ : BufTy).Contents (Elt Ideal))
  (x6 : (⟨S288, .f32⟩ : BufTy).Contents (Elt Ideal))
  (x7 : (⟨S576x1, .f32⟩ : BufTy).Contents (Elt Ideal))
  (x8 : (⟨S1, .f32⟩ : BufTy).Contents (Elt Ideal))
  (x9 : (⟨S576x32, .f32⟩ : BufTy).Contents (Elt Ideal))
  (x10 : (⟨S32, .f32⟩ : BufTy).Contents (Elt Ideal))
  (x11 : (⟨S32x32, .f32⟩ : BufTy).Contents (Elt Ideal))
  (x12 : (⟨S32, .f32⟩ : BufTy).Contents (Elt Ideal))
  (x13 : (⟨S32x1, .f32⟩ : BufTy).Contents (Elt Ideal))
  (x14 : (⟨S1, .f32⟩ : BufTy).Contents (Elt Ideal))

/-! ### The two joined rows -/

/-- Below column 288 the join `[w; b]` reads `w`. -/
private theorem join_wb_left (R : Fin 4096) (k : Fin 576) (h : k.val < 288) :
    val_main_v10 (F := Ideal) x1 x2 x3 x4 x5 x6 (ix2 R k) = val_main_v4 (F := Ideal) x1 x2 x3 x4 (ix2 R ⟨k.val, h⟩) := by
  unfold val_main_v10
  exact concatenate_pair_apply_left (t := S4096x576) (s₁ := S4096x288) (s₂ := S4096x288) 1 _ _ _ (ix2 R k) rfl
    (ix2 R ⟨k.val, h⟩) (fun b => match b with | ⟨0, _⟩ => rfl | ⟨1, _⟩ => rfl)

/-- From column 288 on the join `[w; b]` reads `b`, 288 columns back. -/
private theorem join_wb_right (R : Fin 4096) (k : Fin 576) (h : ¬ k.val < 288) :
    val_main_v10 (F := Ideal) x1 x2 x3 x4 x5 x6 (ix2 R k)
      = val_main_v9 (F := Ideal) x1 x2 x5 x6 (ix2 R ⟨k.val - 288, by have := k.isLt; omega⟩) := by
  unfold val_main_v10
  exact concatenate_pair_apply_right (t := S4096x576) (s₁ := S4096x288) (s₂ := S4096x288) 1 _ _ _ (ix2 R k) rfl rfl
    (ix2 R ⟨k.val - 288, by have := k.isLt; omega⟩)
    (fun b => match b with | ⟨0, _⟩ => fun _ => rfl | ⟨1, _⟩ => fun hne => absurd rfl hne)
    (show k.val - 288 + 288 = k.val by omega)

/-- Below column 288 the join `[b; w]` reads `b`. -/
private theorem join_bw_left (R : Fin 4096) (k : Fin 576) (h : k.val < 288) :
    val_main_v11 (F := Ideal) x1 x2 x3 x4 x5 x6 (ix2 R k) = val_main_v9 (F := Ideal) x1 x2 x5 x6 (ix2 R ⟨k.val, h⟩) := by
  unfold val_main_v11
  exact concatenate_pair_apply_left (t := S4096x576) (s₁ := S4096x288) (s₂ := S4096x288) 1 _ _ _ (ix2 R k) rfl
    (ix2 R ⟨k.val, h⟩) (fun b => match b with | ⟨0, _⟩ => rfl | ⟨1, _⟩ => rfl)

/-- From column 288 on the join `[b; w]` reads `w`, 288 columns back. -/
private theorem join_bw_right (R : Fin 4096) (k : Fin 576) (h : ¬ k.val < 288) :
    val_main_v11 (F := Ideal) x1 x2 x3 x4 x5 x6 (ix2 R k)
      = val_main_v4 (F := Ideal) x1 x2 x3 x4 (ix2 R ⟨k.val - 288, by have := k.isLt; omega⟩) := by
  unfold val_main_v11
  exact concatenate_pair_apply_right (t := S4096x576) (s₁ := S4096x288) (s₂ := S4096x288) 1 _ _ _ (ix2 R k) rfl rfl
    (ix2 R ⟨k.val - 288, by have := k.isLt; omega⟩)
    (fun b => match b with | ⟨0, _⟩ => fun _ => rfl | ⟨1, _⟩ => fun hne => absurd rfl hne)
    (show k.val - 288 + 288 = k.val by omega)

/-! ### The 576 activations -/

/-- An activation of row `R` is the specification's mix of the two accumulator rows, clamped below at zero. -/
theorem base_ref (R : Fin 4096) (k : Fin 576) :
    val_main_v19 (F := Ideal) x0 x1 x2 x3 x4 x5 x6 (ix2 R k)
      = Cert.Nnue.baseRow (Ideal.ofBits .f32 0x3F800000#32) (Ideal.ofBits .f32 0x00000000#32) (x0 (ix2 R 0))
          (fun j => val_main_v4 (F := Ideal) x1 x2 x3 x4 (ix2 R j)) (fun j => val_main_v9 (F := Ideal) x1 x2 x5 x6 (ix2 R j)) k := by
  -- the side to move is broadcast along the row: both broadcasts read column 0
  have e12 : idx_main_v12 (ix2 R k) = ix2 R (0 : Fin 1) := by
    funext a; match a with | ⟨0, _⟩ => rfl | ⟨1, _⟩ => rfl
  have e16 : idx_main_v16 (ix2 R k) = ix2 R (0 : Fin 1) := by
    funext a; match a with | ⟨0, _⟩ => rfl | ⟨1, _⟩ => rfl
  rw [val_main_v19_apply, val_main_v18_apply, val_main_v13_apply, val_main_v17_apply, val_main_v12_apply,
    val_main_v16_apply, val_main_v15_apply, val_main_v14_apply, val_main_cst_apply, val_main_call0_v0_apply,
    val_main_call0_cst_apply, e12, e16, Ideal.maximumf_def, Ideal.addf_def, Ideal.mulf_def, Ideal.mulf_def,
    Ideal.subf_def, Ideal.ofBits_def, Ideal.ofBits_def]
  unfold Cert.Nnue.baseRow Cert.Nnue.mixAt
  by_cases h : k.val < 288
  · rw [dif_pos h, join_wb_left x1 x2 x3 x4 x5 x6 R k h, join_bw_left x1 x2 x3 x4 x5 x6 R k h]
  · rw [dif_neg h, join_wb_right x1 x2 x3 x4 x5 x6 R k h, join_bw_right x1 x2 x3 x4 x5 x6 R k h]

/-! ### The matrix products' operand indices

  Entry `(R, n)` of a product reads the left operand at `(R, k)` and the right operand at `(k, n)`. -/

private theorem lidx20 (R : Fin 4096)  (k : Fin 576) : lidx_main_v20 (ix2 R (0 : Fin 1)) k = ix2 R k := by
  funext a; match a with | ⟨0, _⟩ => rfl | ⟨1, _⟩ => rfl
private theorem ridx20 (R : Fin 4096)  (k : Fin 576) : ridx_main_v20 (ix2 R (0 : Fin 1)) k = ix2 k (0 : Fin 1) := by
  funext a; match a with | ⟨0, _⟩ => rfl | ⟨1, _⟩ => rfl
private theorem lidx24 (R : Fin 4096) (n : Fin 32) (k : Fin 576) : lidx_main_v24 (ix2 R n) k = ix2 R k := by
  funext a; match a with | ⟨0, _⟩ => rfl | ⟨1, _⟩ => rfl
private theorem ridx24 (R : Fin 4096) (n : Fin 32) (k : Fin 576) : ridx_main_v24 (ix2 R n) k = ix2 k n := by
  funext a; match a with | ⟨0, _⟩ => rfl | ⟨1, _⟩ => rfl
private theorem lidx29 (R : Fin 4096) (n : Fin 32) (k : Fin 32) : lidx_main_v29 (ix2 R n) k = ix2 R k := by
  funext a; match a with | ⟨0, _⟩ => rfl | ⟨1, _⟩ => rfl
private theorem ridx29 (R : Fin 4096) (n : Fin 32) (k : Fin 32) : ridx_main_v29 (ix2 R n) k = ix2 k n := by
  funext a; match a with | ⟨0, _⟩ => rfl | ⟨1, _⟩ => rfl
private theorem lidx34 (R : Fin 4096)  (k : Fin 32) : lidx_main_v34 (ix2 R (0 : Fin 1)) k = ix2 R k := by
  funext a; match a with | ⟨0, _⟩ => rfl | ⟨1, _⟩ => rfl
private theorem ridx34 (R : Fin 4096)  (k : Fin 32) : ridx_main_v34 (ix2 R (0 : Fin 1)) k = ix2 k (0 : Fin 1) := by
  funext a; match a with | ⟨0, _⟩ => rfl | ⟨1, _⟩ => rfl

/-! ### The skip connection and the three layers -/

/-- The skip connection: the activations against the skip column, plus its bias. -/
theorem skip_ref (R : Fin 4096) :
    val_main_v23 (F := Ideal) x0 x1 x2 x3 x4 x5 x6 x7 x8 (ix2 R 0)
      = (∑ k : Fin 576, val_main_v19 (F := Ideal) x0 x1 x2 x3 x4 x5 x6 (ix2 R k) * x7 (ix2 k 0)) + x8 (ix1 0) := by
  have eb : idx_main_v21 (idx_main_v22 (ix2 R (0 : Fin 1))) = ix1 (0 : Fin 1) := by
    funext a; match a with | ⟨0, _⟩ => rfl
  rw [val_main_v23_apply, val_main_v20_apply, val_main_v22_apply, val_main_v21_apply, eb, Ideal.addf_def]
  simp only [lidx20, ridx20]

/-- The first layer: the activations against a weight column, plus the bias, clamped below at zero. -/
theorem layer0_ref (R : Fin 4096) (n : Fin 32) :
    val_main_v28 (F := Ideal) x0 x1 x2 x3 x4 x5 x6 x9 x10 (ix2 R n)
      = max ((∑ k : Fin 576, val_main_v19 (F := Ideal) x0 x1 x2 x3 x4 x5 x6 (ix2 R k) * x9 (ix2 k n)) + x10 (ix1 n))
          (Ideal.ofBits .f32 0x00000000#32) := by
  have eb : idx_main_v25 (idx_main_v26 (ix2 R n)) = ix1 n := by
    funext a; match a with | ⟨0, _⟩ => rfl
  rw [val_main_v28_apply, val_main_v27_apply, val_main_v24_apply, val_main_v26_apply, val_main_v25_apply, eb,
    val_main_call1_v0_apply, val_main_call1_cst_apply, Ideal.maximumf_def, Ideal.addf_def, Ideal.ofBits_def]
  simp only [lidx24, ridx24]

/-- The second layer, over the first layer's 32 outputs. -/
theorem layer1_ref (R : Fin 4096) (n : Fin 32) :
    val_main_v33 (F := Ideal) x0 x1 x2 x3 x4 x5 x6 x9 x10 x11 x12 (ix2 R n)
      = max ((∑ k : Fin 32, val_main_v28 (F := Ideal) x0 x1 x2 x3 x4 x5 x6 x9 x10 (ix2 R k) * x11 (ix2 k n)) + x12 (ix1 n))
          (Ideal.ofBits .f32 0x00000000#32) := by
  have eb : idx_main_v30 (idx_main_v31 (ix2 R n)) = ix1 n := by
    funext a; match a with | ⟨0, _⟩ => rfl
  rw [val_main_v33_apply, val_main_v32_apply, val_main_v29_apply, val_main_v31_apply, val_main_v30_apply, eb,
    val_main_call2_v0_apply, val_main_call2_cst_apply, Ideal.maximumf_def, Ideal.addf_def, Ideal.ofBits_def]
  simp only [lidx29, ridx29]

/-- The output layer, over the second layer's 32 outputs. -/
theorem out_ref (R : Fin 4096) :
    val_main_v37 (F := Ideal) x0 x1 x2 x3 x4 x5 x6 x9 x10 x11 x12 x13 x14 (ix2 R 0)
      = (∑ k : Fin 32, val_main_v33 (F := Ideal) x0 x1 x2 x3 x4 x5 x6 x9 x10 x11 x12 (ix2 R k) * x13 (ix2 k 0)) + x14 (ix1 0) := by
  have eb : idx_main_v35 (idx_main_v36 (ix2 R (0 : Fin 1))) = ix1 (0 : Fin 1) := by
    funext a; match a with | ⟨0, _⟩ => rfl
  rw [val_main_v37_apply, val_main_v34_apply, val_main_v36_apply, val_main_v35_apply, eb, Ideal.addf_def]
  simp only [lidx34, ridx34]

end Stages

/-! ### The result -/

/-- The reference's result at row `R` is the specification's head over the row's two accumulator rows. -/
theorem head_ref (x0 : (⟨S4096x1, .f32⟩ : BufTy).Contents (Elt Ideal))
    (x1 : (⟨S4096x20480, .f32⟩ : BufTy).Contents (Elt Ideal))
    (x2 : (⟨S4096x20480, .f32⟩ : BufTy).Contents (Elt Ideal))
    (x3 : (⟨S40960x288, .f32⟩ : BufTy).Contents (Elt Ideal))
    (x4 : (⟨S288, .f32⟩ : BufTy).Contents (Elt Ideal))
    (x5 : (⟨S40960x288, .f32⟩ : BufTy).Contents (Elt Ideal))
    (x6 : (⟨S288, .f32⟩ : BufTy).Contents (Elt Ideal))
    (x7 : (⟨S576x1, .f32⟩ : BufTy).Contents (Elt Ideal))
    (x8 : (⟨S1, .f32⟩ : BufTy).Contents (Elt Ideal))
    (x9 : (⟨S576x32, .f32⟩ : BufTy).Contents (Elt Ideal))
    (x10 : (⟨S32, .f32⟩ : BufTy).Contents (Elt Ideal))
    (x11 : (⟨S32x32, .f32⟩ : BufTy).Contents (Elt Ideal))
    (x12 : (⟨S32, .f32⟩ : BufTy).Contents (Elt Ideal))
    (x13 : (⟨S32x1, .f32⟩ : BufTy).Contents (Elt Ideal))
    (x14 : (⟨S1, .f32⟩ : BufTy).Contents (Elt Ideal)) (R : Fin 4096) :
    val_main_v38 (F := Ideal) x0 x1 x2 x3 x4 x5 x6 x7 x8 x9 x10 x11 x12 x13 x14 (ix2 R 0)
      = Cert.Nnue.headRow (Ideal.ofBits .f32 0x3F800000#32) (Ideal.ofBits .f32 0x00000000#32) (x0 (ix2 R 0))
          (fun j => val_main_v4 (F := Ideal) x1 x2 x3 x4 (ix2 R j)) (fun j => val_main_v9 (F := Ideal) x1 x2 x5 x6 (ix2 R j))
          (fun k => x7 (ix2 k 0)) (x8 (ix1 0)) (fun k n => x9 (ix2 k n)) (fun n => x10 (ix1 n))
          (fun k n => x11 (ix2 k n)) (fun n => x12 (ix1 n)) (fun k => x13 (ix2 k 0)) (x14 (ix1 0)) := by
  rw [val_main_v38_apply, Ideal.addf_def, out_ref, skip_ref]
  unfold Cert.Nnue.headRow
  simp only [layer1_ref, layer0_ref, base_ref]

end Cert.ReferenceIdeal.RefHead

end
-- ==== Proof.RefValue.lean ====
/-
  The reference's result array is the specification's function of the fifteen argument arrays: its head read at a row
  over its two projections, and each projection entry the joined-row product plus the bias.
-/
import proofs.«109908_j80092550135974_1_alg».proof.Proof.RefFeat
import proofs.«109908_j80092550135974_1_alg».proof.Proof.RefHead

noncomputable section

namespace Cert.ReferenceIdeal.RefValue

open Cert.ReferenceIdeal Cert.ReferenceIdeal.Gen Cert.ReferenceIdeal.Read Idealize.ShloMosaic Idealize.ShloMosaic.TcCoe Idealize.SL.Sem
open Idealize.ShloMosaic.ValueIdx Cert.Nnue

/-- The reference's last stage is `G` of the arguments, index by index. -/
theorem ref_eq (x0 : (⟨S4096x1, .f32⟩ : BufTy).Contents (Elt Ideal)) (x1 : (⟨S4096x20480, .f32⟩ : BufTy).Contents (Elt Ideal)) (x2 : (⟨S4096x20480, .f32⟩ : BufTy).Contents (Elt Ideal)) (x3 : (⟨S40960x288, .f32⟩ : BufTy).Contents (Elt Ideal)) (x4 : (⟨S288, .f32⟩ : BufTy).Contents (Elt Ideal)) (x5 : (⟨S40960x288, .f32⟩ : BufTy).Contents (Elt Ideal)) (x6 : (⟨S288, .f32⟩ : BufTy).Contents (Elt Ideal)) (x7 : (⟨S576x1, .f32⟩ : BufTy).Contents (Elt Ideal)) (x8 : (⟨S1, .f32⟩ : BufTy).Contents (Elt Ideal)) (x9 : (⟨S576x32, .f32⟩ : BufTy).Contents (Elt Ideal)) (x10 : (⟨S32, .f32⟩ : BufTy).Contents (Elt Ideal)) (x11 : (⟨S32x32, .f32⟩ : BufTy).Contents (Elt Ideal)) (x12 : (⟨S32, .f32⟩ : BufTy).Contents (Elt Ideal)) (x13 : (⟨S32x1, .f32⟩ : BufTy).Contents (Elt Ideal)) (x14 : (⟨S1, .f32⟩ : BufTy).Contents (Elt Ideal)) :
    val_main_v38 (F := Ideal) x0 x1 x2 x3 x4 x5 x6 x7 x8 x9 x10 x11 x12 x13 x14
      = G (Ideal.ofBits .f32 0x3F800000#32) (Ideal.ofBits .f32 0x00000000#32) x0 x1 x2 x3 x4 x5 x6 x7 x8 x9 x10 x11 x12 x13 x14 := by
  funext i
  obtain ⟨R, rfl⟩ : ∃ R : Fin 4096, i = ix2 R 0 := ⟨i 0, by
    funext a
    match a with
    | ⟨0, _⟩ => rfl
    | ⟨1, _⟩ => exact Fin.ext (by have h : (i 1).val < 1 := (i 1).isLt; show (i 1).val = 0; omega)⟩
  rw [RefHead.head_ref]
  simp only [RefFeat.feat_w, RefFeat.feat_b]
  rfl

end Cert.ReferenceIdeal.RefValue

end
-- ==== Proof.lean ====
/- The proof of `Cert.Claim`: the three frames, the (empty) idealization ledger, and the equality of the two
   idealized programs' results over the extended reals.

   Both programs compute, for each of the 4096 batch rows, the same small network of the row's two 288-wide
   accumulator rows (Proof/Spec.lean, `Cert.Nnue.G`).  The reference forms an accumulator entry as ONE sum over the
   40960 joined features; the kernel forms it as sixteen partial sums of 1280 features of each colour, carried in two
   scratch buffers over the grid's second axis.  The two arrangements of the sum agree because addition of extended
   reals is commutative and associative (`Cert.Nnue.featRowBlocks_eq`); the precondition is never opened.

   Kernel side: what each control case leaves in the scratch buffers and in the output block (Proof/KPieces.lean), one
   accumulation step and the head at an index (Proof/KStep.lean, Proof/KHead.lean), every window's block as entries
   of the argument arrays (Proof/KBlocks.lean), the accumulators after each grid point (Proof/KFold.lean), and the
   result array after the run (Proof/KFinal.lean).  Reference side: Proof/RefFeat.lean, Proof/RefHead.lean,
   Proof/RefValue.lean. -/
import proofs.«109908_j80092550135974_1_alg».proof.Defs
import proofs.«109908_j80092550135974_1_alg».proof.Proof.Gen.Kernel
import proofs.«109908_j80092550135974_1_alg».proof.Proof.Gen.Kernel.Skeleton
import proofs.«109908_j80092550135974_1_alg».proof.Proof.Gen.Kernel.Launch
import proofs.«109908_j80092550135974_1_alg».proof.Proof.Gen.Kernel.Points
import proofs.«109908_j80092550135974_1_alg».proof.Proof.Gen.Kernel.Frame
import proofs.«109908_j80092550135974_1_alg».proof.Proof.Gen.KernelIdeal
import proofs.«109908_j80092550135974_1_alg».proof.Proof.Gen.KernelIdeal.Skeleton
import proofs.«109908_j80092550135974_1_alg».proof.Proof.Gen.KernelIdeal.Launch
import proofs.«109908_j80092550135974_1_alg».proof.Proof.Gen.KernelIdeal.Points
import proofs.«109908_j80092550135974_1_alg».proof.Proof.Gen.KernelIdeal.Frame
import proofs.«109908_j80092550135974_1_alg».proof.Proof.Gen.ReferenceIdeal
import proofs.«109908_j80092550135974_1_alg».proof.Proof.Gen.Pre_finite_inputs
import proofs.«109908_j80092550135974_1_alg».proof.Proof.Gen.KernelIdeal.Value
import proofs.«109908_j80092550135974_1_alg».proof.Proof.Gen.ReferenceIdeal.Run
import proofs.«109908_j80092550135974_1_alg».proof.Proof.Gen.ReferenceIdeal.Read
import proofs.«109908_j80092550135974_1_alg».proof.Proof.KFinal
import proofs.«109908_j80092550135974_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference has no kernel: its frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Run from memories that agree on the arguments, both idealized programs end with the result array at
    `Cert.Nnue.G` of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Final.result m c, ?_, ?_⟩
  · exact (θ_run Cert.KernelIdeal.defs _ _).mono
      (fun r h c => ⟨(h c).1.trans (Cert.KernelIdeal.Final.final m c), (h c).2⟩) (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v38_eq, Cert.ReferenceIdeal.RefValue.ref_eq]
    obtain ⟨a0, a1, a2, a3, a4, a5, a6, a7, a8, a9, a10, a11, a12, a13, a14⟩ := hagree c
    rw [a0, a1, a2, a3, a4, a5, a6, a7, a8, a9, a10, a11, a12, a13, a14]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
